-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x11264 : Shape := ⟨3, ![8, 2048, 11264]⟩
abbrev S8x5632x2048 : Shape := ⟨3, ![8, 5632, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x11264 : S_.BroadcastsInDim S8x2048x11264 (![] : Fin 0 → Fin S8x2048x11264.rank)
  reducesTo_S8x2048x11264_S_d0_1_2 : S8x2048x11264.ReducesTo [0, 1, 2] S_
  bcast_S_S8x5632x2048 : S_.BroadcastsInDim S8x5632x2048 (![] : Fin 0 → Fin S8x5632x2048.rank)
  reducesTo_S8x5632x2048_S_d0_1_2 : S8x5632x2048.ReducesTo [0, 1, 2] S_

variable [Facts]

def fn {F : FTy → Type} [FloatOps F] (main_arg0 : FVec F S8192x2048 .f32) (main_arg1 : FVec F S8x2048x11264 .f32) (main_arg2 : FVec F S8x5632x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x11264 .f32 := Host.absf main_arg1
  let main_cst_0 : FVec F S_ .f32 := constant S_ .f32 0x7F800000#32
  let main_v5 : FVec F S8x2048x11264 .f32 := broadcastInDim S8x2048x11264 ![] bcast_S_S8x2048x11264 main_cst_0
  let main_v6 : IVec S8x2048x11264 1 := cmpf .olt main_v4 main_v5
  let main_c_1 : IVec S_ 1 := constantI S_ 1 1#1
  let main_v7 : IVec S_ 1 := (fun x v => Host.reduce IntOp.andi x v reducesTo_S8x2048x11264_S_d0_1_2 h_S_) main_v6 main_c_1
  let main_v8 : IVec S_ 1 := andi main_v3 main_v7
  let main_v9 : FVec F S8x5632x2048 .f32 := Host.absf main_arg2
  let main_cst_2 : FVec F S_ .f32 := constant S_ .f32 0x7F800000#32
  let main_v10 : FVec F S8x5632x2048 .f32 := broadcastInDim S8x5632x2048 ![] bcast_S_S8x5632x2048 main_cst_2
  let main_v11 : IVec S8x5632x2048 1 := cmpf .olt main_v9 main_v10
  let main_c_3 : IVec S_ 1 := constantI S_ 1 1#1
  let main_v12 : IVec S_ 1 := (fun x v => Host.reduce IntOp.andi x v reducesTo_S8x5632x2048_S_d0_1_2 h_S_) main_v11 main_c_3
  let main_v13 : IVec S_ 1 := andi main_v8 main_v12
  main_v13
-- ==== Kernel.lean ====
abbrev S8192x2048 : Shape := ⟨2, ![8192, 2048]⟩
abbrev S8x2048x11264 : Shape := ⟨3, ![8, 2048, 11264]⟩
abbrev S8x5632x2048 : Shape := ⟨3, ![8, 5632, 2048]⟩
abbrev S8x1024x2048 : Shape := ⟨3, ![8, 1024, 2048]⟩
abbrev S8x1024x5632 : Shape := ⟨3, ![8, 1024, 5632]⟩
abbrev S1x256x512 : Shape := ⟨3, ![1, 256, 512]⟩
abbrev S1x512x1408 : Shape := ⟨3, ![1, 512, 1408]⟩
abbrev S1x256x1408 : Shape := ⟨3, ![1, 256, 1408]⟩
abbrev S256x1408 : Shape := ⟨2, ![256, 1408]⟩
abbrev S256x512 : Shape := ⟨2, ![256, 512]⟩
abbrev S512x1408 : Shape := ⟨2, ![512, 1408]⟩
abbrev S1x512x512 : Shape := ⟨3, ![1, 512, 512]⟩
abbrev S1x512x2048 : Shape := ⟨3, ![1, 512, 2048]⟩
abbrev S512x2048 : Shape := ⟨2, ![512, 2048]⟩
abbrev S512x512 : Shape := ⟨2, ![512, 512]⟩

abbrev nBuf : Space → Nat
  | .hbm => 7
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8x2048x11264, .f32⟩
  | .hbm, ⟨2, _⟩ => ⟨S8x5632x2048, .f32⟩
  | .hbm, ⟨3, _⟩ => ⟨S8x1024x2048, .f32⟩
  | .hbm, ⟨4, _⟩ => ⟨S8x1024x5632, .bf16⟩
  | .hbm, ⟨5, _⟩ => ⟨S8x1024x2048, .f32⟩
  | .hbm, ⟨6, _⟩ => ⟨S8192x2048, .f32⟩
  | .local _ .vmem, ⟨0, _⟩ => ⟨S1x256x512, .f32⟩
  | .local _ .vmem, ⟨1, _⟩ => ⟨S1x256x512, .f32⟩
  | .local _ .vmem, ⟨2, _⟩ => ⟨S1x512x1408, .f32⟩
  | .local _ .vmem, ⟨3, _⟩ => ⟨S1x512x1408, .f32⟩
  | .local _ .vmem, ⟨4, _⟩ => ⟨S1x512x1408, .f32⟩
  | .local _ .vmem, ⟨5, _⟩ => ⟨S1x512x1408, .f32⟩
  | .local _ .vmem, ⟨6, _⟩ => ⟨S1x256x1408, .bf16⟩
  | .local _ .vmem, ⟨7, _⟩ => ⟨S1x256x1408, .bf16⟩
  | .local _ .vmem, ⟨8, _⟩ => ⟨S256x1408, .f32⟩
  | .local _ .vmem, ⟨9, _⟩ => ⟨S256x1408, .f32⟩
  | .local _ .vmem, ⟨10, _⟩ => ⟨S1x512x512, .bf16⟩
  | .local _ .vmem, ⟨11, _⟩ => ⟨S1x512x512, .bf16⟩
  | .local _ .vmem, ⟨12, _⟩ => ⟨S1x512x2048, .f32⟩
  | .local _ .vmem, ⟨13, _⟩ => ⟨S1x512x2048, .f32⟩
  | .local _ .vmem, ⟨14, _⟩ => ⟨S1x512x2048, .f32⟩
  | .local _ .vmem, ⟨15, _⟩ => ⟨S1x512x2048, .f32⟩
  | .local _ .vmem, ⟨16, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨4, ![8, 4, 4, 4], ![false, false, false, false]⟩

def k0_cond2 (i : grid0.Coords) : BitVec 1 :=
  let arg3 : BitVec 32 := BitVec.ofNat 32 (i 3).val
  let c3_i32 : BitVec 32 := 3#32
  let v24 : BitVec 1 := Scalar.cmpi .eq arg3 c3_i32
  let v25 : BitVec 32 := Scalar.extui v24
  let c0_i32_18 : BitVec 32 := 0#32
  let v26 : BitVec 1 := Scalar.cmpi .ne v25 c0_i32_18
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.addi arg2 c4_i32
  let c0_i32 : BitVec 32 := 0#32
  ![arg0.toNat, arg3.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, true]

abbrev stage0_3 : Fin 2 → Memref sig .tc .vmem S1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev grid1 : Pipeline.Grid := ⟨3, ![8, 2, 11], ![false, false, false]⟩

def k1_cond2 (i : grid1.Coords) : BitVec 1 :=
  let arg2 : BitVec 32 := BitVec.ofNat 32 (i 2).val
  let c10_i32 : BitVec 32 := 10#32
  let v14 : BitVec 1 := Scalar.cmpi .eq arg2 c10_i32
  let v15 : BitVec 32 := Scalar.extui v14
  let c0_i32_10 : BitVec 32 := 0#32
  let v16 : BitVec 1 := Scalar.cmpi .ne v15 c0_i32_10
  v16

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S8192x2048_S8x1024x2048 : S8192x2048.ShapeCasts S8x1024x2048
  inb_S256x1408_S256x1408_0_0 : ∀ a, (![0, 0] : Fin 2 → Nat) a + S256x1408.size a ≤ S256x1408.size a
  h_S256x1408 : 0 < S256x1408.numel
  shapeCasts_S256x1408_S256x1408 : S256x1408.ShapeCasts S256x1408
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  bitsLt_bf16_f32 : FTy.bits .bf16 < FTy.bits .f32
  inb_S1x512x1408_S1x512x1408_0_0_0 : ∀ a, (![0, 0, 0] : Fin 3 → Nat) a + S1x512x1408.size a ≤ S1x512x1408.size a
  h_S1x512x1408 : 0 < S1x512x1408.numel
  shapeCasts_S1x512x1408_S512x1408 : S1x512x1408.ShapeCasts S512x1408
  inb_S1x256x1408_S1x256x1408_0_0_0 : ∀ a, (![0, 0, 0] : Fin 3 → Nat) a + S1x256x1408.size a ≤ S1x256x1408.size a
  h_S1x256x1408 : 0 < S1x256x1408.numel
  shapeCasts_S1x256x1408_S256x1408 : S1x256x1408.ShapeCasts S256x1408
  shapeCasts_S256x1408_S1x256x1408 : S256x1408.ShapeCasts S1x256x1408
  packedbf16_S1x256x1408_S1x256x1408_0_0_0 : (Rect.unit (s := S1x256x1408) ![0, 0, 0] S1x256x1408.size inb_S1x256x1408_S1x256x1408_0_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S8x1024x2048_S8192x2048 : S8x1024x2048.ShapeCasts S8192x2048
  dot_S256x512_S512x1408_S256x1408_1_0_0_1_n_n_wf : DotDims.WF S256x512 S512x1408 S256x1408 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S8x1024x2048.size a
  hwx0_0 : ∀ i : grid0.Coords, EltTy.bits .f32 = 32 ∨ (Rect.block (s := S8x1024x2048) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1408.size a ≤ S8x2048x11264.size a
  hwx0_1 : ∀ i : grid0.Coords, EltTy.bits .f32 = 32 ∨ (Rect.block (s := S8x2048x11264) S1x512x1408.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1408.size a ≤ S8x2048x11264.size a
  hwx0_2 : ∀ i : grid0.Coords, EltTy.bits .f32 = 32 ∨ (Rect.block (s := S8x2048x11264) S1x512x1408.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1408.size a ≤ S8x1024x5632.size a
  hwx0_3 : ∀ i : grid0.Coords, EltTy.bits .bf16 = 32 ∨ (Rect.block (s := S8x1024x5632) S1x256x1408.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S8x1024x5632.size a
  hwx1_0 : ∀ i : grid1.Coords, EltTy.bits .bf16 = 32 ∨ (Rect.block (s := S8x1024x5632) S1x512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x2048.size a ≤ S8x5632x2048.size a
  hwx1_1 : ∀ i : grid1.Coords, EltTy.bits .f32 = 32 ∨ (Rect.block (s := S8x5632x2048) S1x512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x2048.size a ≤ S8x1024x2048.size a
  hwx1_2 : ∀ i : grid1.Coords, EltTy.bits .f32 = 32 ∨ (Rect.block (s := S8x1024x2048) S1x512x2048.size (cc1_transform_2 i) (hinb1_2 i)).WholeWords (EltTy.packing .f32)

variable [Facts₀]

def dot_S256x512_S512x1408_S256x1408_1_0_0_1_n_n : DotDims S256x512 S512x1408 S256x1408 where
  lhsContracting := [1]
  rhsContracting := [0]
  lhsNonContracting := [0]
  rhsNonContracting := [1]
  lhsBatch := []
  rhsBatch := []
  wf := dot_S256x512_S512x1408_S256x1408_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1408.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x1408.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x1408.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8x2048x11264 : Shape := ⟨3, ![8, 2048, 11264]⟩
abbrev S8x5632x2048 : Shape := ⟨3, ![8, 5632, 2048]⟩
abbrev S8x1024x2048 : Shape := ⟨3, ![8, 1024, 2048]⟩
abbrev S8x1024x11264 : Shape := ⟨3, ![8, 1024, 11264]⟩
abbrev S8x1024x5632 : Shape := ⟨3, ![8, 1024, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x11264, .f32⟩
  | .hbm, ⟨2, _⟩ => ⟨S8x5632x2048, .f32⟩
  | .hbm, ⟨3, _⟩ => ⟨S8x1024x2048, .f32⟩
  | .hbm, ⟨4, _⟩ => ⟨S8x1024x11264, .f32⟩
  | .hbm, ⟨5, _⟩ => ⟨S8x1024x5632, .f32⟩
  | .hbm, ⟨6, _⟩ => ⟨S8x1024x5632, .f32⟩
  | .hbm, ⟨7, _⟩ => ⟨S8x1024x5632, .f32⟩
  | .hbm, ⟨8, _⟩ => ⟨S8x1024x5632, .f32⟩
  | .hbm, ⟨9, _⟩ => ⟨S_, .f32⟩
  | .hbm, ⟨10, _⟩ => ⟨S8x1024x5632, .f32⟩
  | .hbm, ⟨11, _⟩ => ⟨S8x1024x5632, .f32⟩
  | .hbm, ⟨12, _⟩ => ⟨S_, .f32⟩
  | .hbm, ⟨13, _⟩ => ⟨S8x1024x5632, .f32⟩
  | .hbm, ⟨14, _⟩ => ⟨S8x1024x5632, .f32⟩
  | .hbm, ⟨15, _⟩ => ⟨S8x1024x5632, .f32⟩
  | .hbm, ⟨16, _⟩ => ⟨S8x1024x5632, .f32⟩
  | .hbm, ⟨17, _⟩ => ⟨S8x1024x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S8192x2048_S8x1024x2048 : S8192x2048.ShapeCasts S8x1024x2048
  slices_S8x1024x11264_S8x1024x5632_0_0_0 : S8x1024x11264.Slices ![0, 0, 0] S8x1024x5632
  slices_S8x1024x11264_S8x1024x5632_0_0_5632 : S8x1024x11264.Slices ![0, 0, 5632] S8x1024x5632
  bcast_S_S8x1024x5632 : S_.BroadcastsInDim S8x1024x5632 (![] : Fin 0 → Fin S8x1024x5632.rank)
  shapeCasts_S8x1024x2048_S8192x2048 : S8x1024x2048.ShapeCasts S8192x2048
  dot_S8x1024x2048_S8x2048x11264_S8x1024x11264_2_1_1_2_0_0_wf : DotDims.WF S8x1024x2048 S8x2048x11264 S8x1024x11264 [2] [1] [1] [2] [0] [0]
  dot_S8x1024x5632_S8x5632x2048_S8x1024x2048_2_1_1_2_0_0_wf : DotDims.WF S8x1024x5632 S8x5632x2048 S8x1024x2048 [2] [1] [1] [2] [0] [0]

variable [Facts₀]

def dot_S8x1024x2048_S8x2048x11264_S8x1024x11264_2_1_1_2_0_0 : DotDims S8x1024x2048 S8x2048x11264 S8x1024x11264 where
  lhsContracting := [2]
  rhsContracting := [1]
  lhsNonContracting := [1]
  rhsNonContracting := [2]
  lhsBatch := [0]
  rhsBatch := [0]
  wf := dot_S8x1024x2048_S8x2048x11264_S8x1024x11264_2_1_1_2_0_0_wf
def dot_S8x1024x5632_S8x5632x2048_S8x1024x2048_2_1_1_2_0_0 : DotDims S8x1024x5632 S8x5632x2048 S8x1024x2048 where
  lhsContracting := [2]
  rhsContracting := [1]
  lhsNonContracting := [1]
  rhsNonContracting := [2]
  lhsBatch := [0]
  rhsBatch := [0]
  wf := dot_S8x1024x5632_S8x5632x2048_S8x1024x2048_2_1_1_2_0_0_wf

class Facts : Prop extends Facts₀ where

variable [Facts]
-- ==== Proof.LibWholeStore.lean ====
/-
  Stores through the rectangle that is the whole buffer (offset zero on every axis, the buffer's own sizes).

  Such a rectangle holds every index, so a list of pieces that begins with one covers the buffer whatever
  follows it, and what the buffer reads back after those writes is the first piece's payload. The zero
  offsets of ranks two and three are stated once, in the form the library's unit-rectangle lemmas take them.
-/
import Idealize.ShloMosaic.Lib.Pipeline.FrameBody
import Idealize.ShloMosaic.Lib.Pipeline.Value

noncomputable section

namespace WholeStore

open Idealize.ShloMosaic

variable {Val : EltTy → Type} {S : Shape} {e : EltTy}

/-- Every index lies in the whole-buffer rectangle: a piece list headed by a store through it covers the buffer. -/
theorem cover_cons {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons_self, by show y ∈ (Rect.whole S).set; rw [Rect.set_whole]; exact Finset.mem_univ y⟩

/-- The one-piece case. -/
theorem cover_one {off : Fin S.rank → Nat} (h : off = fun _ => 0)
    (inb : ∀ a, off a + S.size a ≤ S.size a) (w : S.Idx → Val e) (y : S.Idx) :
    ∃ p ∈ ([⟨Rect.unit off S.size inb, w⟩] : List (View.Piece Val S e)), y ∈ p.1.set :=
  cover_cons h inb w [] y

/-- The offsets of a rank-2 and a rank-3 whole-buffer access are zero on every axis. -/
theorem zero2 : (![0, 0] : Fin 2 → Nat) = fun _ => 0 := by funext a; fin_cases a <;> rfl
theorem zero3 : (![0, 0, 0] : Fin 3 → Nat) = fun _ => 0 := by funext a; fin_cases a <;> rfl

end WholeStore

end
-- ==== Proof.Bits.Body0.lean ====
/-
  The gate/up projection kernel's body at one grid point, in each of the three ways its two branches go.

  The body keeps two running sums in scratch buffers, one for the gate half of the weight and one for the up
  half: at the first step of the reduction axis it clears both, at every step it adds to each the product of
  the token block with that half's weight block, and at the last step it writes `up · (gate · σ(gate))` of the
  two sums into the output block. Each lemma says what the scratches (and, at the last step, the output block)
  hold afterwards as functions of the three input blocks and of what the scratches held: `k0_pay4 x g s` is
  `s + x·g`, `k0_pay5 x u s` is `s + x·u`, `k0_pay1` / `k0_pay2` the cleared sums, `k0_pay6 G U` the gated
  product laid out as the output block. The input blocks are handed back as found, and the output block is not
  touched before the last step.
-/
import proofs.«132357_j6614249635977_1_alg».proof.Proof.Gen.Kernel.Launch
import proofs.«132357_j6614249635977_1_alg».proof.Proof.Gen.Kernel.Skeleton
import proofs.«132357_j6614249635977_1_alg».proof.Proof.Gen.Kernel.Points
import proofs.«132357_j6614249635977_1_alg».proof.Proof.LibWholeStore
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open WholeStore

variable {F : FTy → Type} [FloatOps F]

local notation "𝕄" => MT nD τ sig Unit (Elt F) ℕ (UR sig nD τ) ℕ

/-- The reduction coordinate is at its first step: the body clears the two running sums. -/
abbrev cond0_0 (i : grid0.Coords) : Prop := (Scalar.cmpi .ne (Scalar.extui (Scalar.cmpi .eq (BitVec.ofNat 32 (i 3).val) 0#32)) 0#32) = 1#1
/-- The reduction coordinate is at its last step: the body writes the gated product out. -/
abbrev cond0_1 (i : grid0.Coords) : Prop := k0_cond2 i = 1#1

set_option maxHeartbeats 2000000 in
/-- First step: each scratch, whatever it held, ends at its product alone added to the cleared sum. -/
theorem run0_first (c : Dev nD) (i : grid0.Coords) (arg4 : Memref sig .tc .vmem S1x256x512 .f32) (harg4 : arg4.IsWhole) (arg5 : Memref sig .tc .vmem S1x512x1408 .f32) (harg5 : arg5.IsWhole) (arg6 : Memref sig .tc .vmem S1x512x1408 .f32) (harg6 : arg6.IsWhole) (arg7 : Memref sig .tc .vmem S1x256x1408 .bf16) (harg7 : arg7.IsWhole) (arg8 : Memref sig .tc .vmem S256x1408 .f32) (harg8 : arg8.IsWhole) (arg9 : Memref sig .tc .vmem S256x1408 .f32) (harg9 : arg9.IsWhole)
    (hc0 : cond0_0 i) (hc1 : ¬cond0_1 i)
    (x : Vec F S1x256x512 .f32) (g u : Vec F S1x512x1408 .f32) (xo : Vec F S1x256x1408 .bf16)
    (E : Set ℕ) (K : PUnit → sProp 𝕄) :
    iprop(owns (c : Thread nD τ) arg4 fullShare x ∗ owns (c : Thread nD τ) arg5 fullShare g ∗ owns (c : Thread nD τ) arg6 fullShare u ∗ owns (c : Thread nD τ) arg7 fullShare xo ∗ (∃ d, owns (c : Thread nD τ) arg8 fullShare d) ∗ (∃ d, owns (c : Thread nD τ) arg9 fullShare d)
        ∗ (iprop(owns (c : Thread nD τ) arg4 fullShare x ∗ owns (c : Thread nD τ) arg5 fullShare g ∗ owns (c : Thread nD τ) arg6 fullShare u ∗ owns (c : Thread nD τ) arg7 fullShare xo ∗ owns (c : Thread nD τ) arg8 fullShare (k0_pay4 x g (k0_pay1 (F := F))) ∗ owns (c : Thread nD τ) arg9 fullShare (k0_pay5 x u (k0_pay2 (F := F)))) -∗ K ⟨⟩))
      ⊢ wp frame (wpE (defs₀ (F := F)) Variants.none c none) E (cc0__gate_up_kernel i arg4 harg4 arg5 harg5 arg6 harg6 arg7 harg7 arg8 harg8 arg9 harg9) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%f3, %hf3, H3⟩, ⟨%d8, %f8, -, H8⟩, ⟨%d9, %f9, -, H9⟩, Hk⟩
  obtain rfl := harg4.eq_unread hf0; obtain rfl := harg5.eq_unread hf1; obtain rfl := harg6.eq_unread hf2; obtain rfl := harg7.eq_unread hf3
  sl_exec (disch := first | exact hc0 | exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H8]
  · iexists _; isplitr
    swap; · iexact H8
    ipureintro
    sl_unfold_words
    rw [View.read_writes_eq_canon _ _ _ (cover_cons zero2 _ _ _), View.canon_cons_unit_zero zero2]
    simp only [View.readAt_eq_ld, harg4.read_unread, harg5.read_unread, harg6.read_unread,
    View.ld_unit_zero (S := S1x256x512) zero3, View.ld_unit_zero (S := S1x512x1408) zero3, View.ld_unit_zero (S := S256x1408) zero2,
    View.readCov_unit_zero (S := S256x1408) _ zero2]
  iexists _; isplitr
  swap; · iexact H9
  ipureintro
  sl_unfold_words
  rw [View.read_writes_eq_canon _ _ _ (cover_cons zero2 _ _ _), View.canon_cons_unit_zero zero2]
  simp only [View.readAt_eq_ld, harg4.read_unread, harg5.read_unread, harg6.read_unread,
    View.ld_unit_zero (S := S1x256x512) zero3, View.ld_unit_zero (S := S1x512x1408) zero3, View.ld_unit_zero (S := S256x1408) zero2,
    View.readCov_unit_zero (S := S256x1408) _ zero2]

set_option maxHeartbeats 2000000 in
/-- A middle step: the scratches at `sg`, `su` end at those plus the products. -/
theorem run0_mid (c : Dev nD) (i : grid0.Coords) (arg4 : Memref sig .tc .vmem S1x256x512 .f32) (harg4 : arg4.IsWhole) (arg5 : Memref sig .tc .vmem S1x512x1408 .f32) (harg5 : arg5.IsWhole) (arg6 : Memref sig .tc .vmem S1x512x1408 .f32) (harg6 : arg6.IsWhole) (arg7 : Memref sig .tc .vmem S1x256x1408 .bf16) (harg7 : arg7.IsWhole) (arg8 : Memref sig .tc .vmem S256x1408 .f32) (harg8 : arg8.IsWhole) (arg9 : Memref sig .tc .vmem S256x1408 .f32) (harg9 : arg9.IsWhole)
    (hc0 : ¬cond0_0 i) (hc1 : ¬cond0_1 i)
    (x : Vec F S1x256x512 .f32) (g u : Vec F S1x512x1408 .f32) (xo : Vec F S1x256x1408 .bf16) (sg su : Vec F S256x1408 .f32)
    (E : Set ℕ) (K : PUnit → sProp 𝕄) :
    iprop(owns (c : Thread nD τ) arg4 fullShare x ∗ owns (c : Thread nD τ) arg5 fullShare g ∗ owns (c : Thread nD τ) arg6 fullShare u ∗ owns (c : Thread nD τ) arg7 fullShare xo ∗ owns (c : Thread nD τ) arg8 fullShare sg ∗ owns (c : Thread nD τ) arg9 fullShare su
        ∗ (iprop(owns (c : Thread nD τ) arg4 fullShare x ∗ owns (c : Thread nD τ) arg5 fullShare g ∗ owns (c : Thread nD τ) arg6 fullShare u ∗ owns (c : Thread nD τ) arg7 fullShare xo ∗ owns (c : Thread nD τ) arg8 fullShare (k0_pay4 x g sg) ∗ owns (c : Thread nD τ) arg9 fullShare (k0_pay5 x u su)) -∗ K ⟨⟩))
      ⊢ wp frame (wpE (defs₀ (F := F)) Variants.none c none) E (cc0__gate_up_kernel i arg4 harg4 arg5 harg5 arg6 harg6 arg7 harg7 arg8 harg8 arg9 harg9) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%f3, %hf3, H3⟩, ⟨%f8, %hf8, H8⟩, ⟨%f9, %hf9, H9⟩, Hk⟩
  obtain rfl := harg4.eq_unread hf0; obtain rfl := harg5.eq_unread hf1; obtain rfl := harg6.eq_unread hf2; obtain rfl := harg7.eq_unread hf3
  obtain rfl := harg8.eq_unread hf8; obtain rfl := harg9.eq_unread hf9
  sl_exec (disch := first | exact hc0 | exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H8]
  · iexists _; isplitr
    swap; · iexact H8
    ipureintro
    sl_unfold_words
    rw [View.read_writes_eq_canon _ _ _ (cover_cons zero2 _ _ _), View.canon_cons_unit_zero zero2]
    simp only [View.readAt_eq_ld, harg4.read_unread, harg5.read_unread, harg6.read_unread, harg8.read_unread, harg9.read_unread,
    View.ld_unit_zero (S := S1x256x512) zero3, View.ld_unit_zero (S := S1x512x1408) zero3, View.ld_unit_zero (S := S256x1408) zero2,
    View.readCov_unit_zero (S := S256x1408) _ zero2]
  iexists _; isplitr
  swap; · iexact H9
  ipureintro
  sl_unfold_words
  rw [View.read_writes_eq_canon _ _ _ (cover_cons zero2 _ _ _), View.canon_cons_unit_zero zero2]
  simp only [View.readAt_eq_ld, harg4.read_unread, harg5.read_unread, harg6.read_unread, harg8.read_unread, harg9.read_unread,
    View.ld_unit_zero (S := S1x256x512) zero3, View.ld_unit_zero (S := S1x512x1408) zero3, View.ld_unit_zero (S := S256x1408) zero2,
    View.readCov_unit_zero (S := S256x1408) _ zero2]

set_option maxHeartbeats 2000000 in
/-- Last step: the scratches end at their sums, and the output block, whatever it held, at the gated product of the two sums. -/
theorem run0_last (c : Dev nD) (i : grid0.Coords) (arg4 : Memref sig .tc .vmem S1x256x512 .f32) (harg4 : arg4.IsWhole) (arg5 : Memref sig .tc .vmem S1x512x1408 .f32) (harg5 : arg5.IsWhole) (arg6 : Memref sig .tc .vmem S1x512x1408 .f32) (harg6 : arg6.IsWhole) (arg7 : Memref sig .tc .vmem S1x256x1408 .bf16) (harg7 : arg7.IsWhole) (arg8 : Memref sig .tc .vmem S256x1408 .f32) (harg8 : arg8.IsWhole) (arg9 : Memref sig .tc .vmem S256x1408 .f32) (harg9 : arg9.IsWhole)
    (hc0 : ¬cond0_0 i) (hc1 : cond0_1 i)
    (x : Vec F S1x256x512 .f32) (g u : Vec F S1x512x1408 .f32) (sg su : Vec F S256x1408 .f32)
    (E : Set ℕ) (K : PUnit → sProp 𝕄) :
    iprop(owns (c : Thread nD τ) arg4 fullShare x ∗ owns (c : Thread nD τ) arg5 fullShare g ∗ owns (c : Thread nD τ) arg6 fullShare u ∗ (∃ d, owns (c : Thread nD τ) arg7 fullShare d) ∗ owns (c : Thread nD τ) arg8 fullShare sg ∗ owns (c : Thread nD τ) arg9 fullShare su
        ∗ (iprop(owns (c : Thread nD τ) arg4 fullShare x ∗ owns (c : Thread nD τ) arg5 fullShare g ∗ owns (c : Thread nD τ) arg6 fullShare u ∗ owns (c : Thread nD τ) arg7 fullShare (k0_pay6 (k0_pay4 x g sg) (k0_pay5 x u su)) ∗ owns (c : Thread nD τ) arg8 fullShare (k0_pay4 x g sg) ∗ owns (c : Thread nD τ) arg9 fullShare (k0_pay5 x u su)) -∗ K ⟨⟩))
      ⊢ wp frame (wpE (defs₀ (F := F)) Variants.none c none) E (cc0__gate_up_kernel i arg4 harg4 arg5 harg5 arg6 harg6 arg7 harg7 arg8 harg8 arg9 harg9) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d3, %f3, -, H3⟩, ⟨%f8, %hf8, H8⟩, ⟨%f9, %hf9, H9⟩, Hk⟩
  obtain rfl := harg4.eq_unread hf0; obtain rfl := harg5.eq_unread hf1; obtain rfl := harg6.eq_unread hf2
  obtain rfl := harg8.eq_unread hf8; obtain rfl := harg9.eq_unread hf9
  sl_exec (disch := first | exact hc0 | exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    sl_unfold_words
    rw [View.read_writes_eq_canon _ _ _ (cover_cons zero3 _ _ _), View.canon_cons_unit_zero zero3]
    simp only [View.readAt_eq_ld, harg4.read_unread, harg5.read_unread, harg6.read_unread, harg8.read_unread, harg9.read_unread,
    View.ld_unit_zero (S := S1x256x512) zero3, View.ld_unit_zero (S := S1x512x1408) zero3, View.ld_unit_zero (S := S256x1408) zero2,
    View.readCov_unit_zero (S := S256x1408) _ zero2]
  isplitl [H8]
  · iexists _; isplitr
    swap; · iexact H8
    ipureintro
    sl_unfold_words
    rw [View.read_writes_eq_canon _ _ _ (cover_cons zero2 _ _ _), View.canon_cons_unit_zero zero2]
    simp only [View.readAt_eq_ld, harg4.read_unread, harg5.read_unread, harg6.read_unread, harg8.read_unread, harg9.read_unread,
    View.ld_unit_zero (S := S1x256x512) zero3, View.ld_unit_zero (S := S1x512x1408) zero3, View.ld_unit_zero (S := S256x1408) zero2,
    View.readCov_unit_zero (S := S256x1408) _ zero2]
  iexists _; isplitr
  swap; · iexact H9
  ipureintro
  sl_unfold_words
  rw [View.read_writes_eq_canon _ _ _ (cover_cons zero2 _ _ _), View.canon_cons_unit_zero zero2]
  simp only [View.readAt_eq_ld, harg4.read_unread, harg5.read_unread, harg6.read_unread, harg8.read_unread, harg9.read_unread,
    View.ld_unit_zero (S := S1x256x512) zero3, View.ld_unit_zero (S := S1x512x1408) zero3, View.ld_unit_zero (S := S256x1408) zero2,
    View.readCov_unit_zero (S := S256x1408) _ zero2]

end Cert.Kernel.Hand

end
-- ==== Proof.Bits.Region0.lean ====
/-
  The gate/up projection region, over the buffer contents `V` it is entered from.

  Its grid is (expert, token tile, feature tile, reduction step), the reduction step fastest: a run of four
  consecutive points shares one output block and walks the four blocks of the contracted axis. The token block
  comes from the reshaped tokens; the gate and the up weight blocks come from ONE array, the same row block at
  column tile `f` and at column tile `f + 4`. The two running sums the body keeps in its scratches are a
  recursion on the point: `acc0` restarts both from the cleared sums at the points divisible by four and
  otherwise adds this point's two products to what the point before left. The output window's staging buffer
  receives `up · (gate · σ(gate))` of the two sums at the last point of each run, the only points at which the
  pipeline writes it back; at the others the body does not touch it. The region's invariant holds the two
  scratches at `acc0` of the point before and every other scoped buffer at contents nobody names.
-/
import proofs.«132357_j6614249635977_1_alg».proof.Proof.Gen.Kernel.Launch
import proofs.«132357_j6614249635977_1_alg».proof.Proof.Gen.Kernel.Skeleton
import proofs.«132357_j6614249635977_1_alg».proof.Proof.Gen.Kernel.Points
import proofs.«132357_j6614249635977_1_alg».proof.Proof.LibWholeStore
import proofs.«132357_j6614249635977_1_alg».proof.Proof.Bits.Body0
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open WholeStore

variable {F : FTy → Type} [FloatOps F]

local notation "𝕄" => MT nD τ sig Unit (Elt F) ℕ (UR sig nD τ) ℕ

/-! ## The schedule in closed form -/

theorem N0 : cfg0.N = 512 := N_0

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)
/-- The input windows are never idle; the output window is idle, and not written back, exactly off the last step. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem idle0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem live0_3 : ∀ t : Fin cfg0.N, cond0_1 (grid0.coords t) → cfg0.idle 3 (grid0.coords t) = false := by decide +kernel

/-! ## The memrefs the body is called with -/

abbrev ms0_0 (t : Fin cfg0.N) : Memref sig .tc .vmem S1x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1408 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1408 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1408 .bf16 := win0_3.stage (cfg0.slots t 3)
abbrev hs0_3 (t : Fin cfg0.N) : (ms0_3 t).IsWhole := hstage0_3 ((cfg0.slots t 3).cast nbuf0_3)
/-- The scratches that carry the gate sum and the up sum. -/
abbrev scG0 : Memref sig .tc .vmem S256x1408 .f32 := Memref.whole cc0_scratch0
abbrev scU0 : Memref sig .tc .vmem S256x1408 .f32 := Memref.whole cc0_scratch1

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The token block, the gate weight block and the up weight block of point `t`, at their literal types. -/
abbrev xblk0 (c : Dev nD) (t : Fin cfg0.N) : Vec F S1x256x512 .f32 := iblk0 V c 0 t
abbrev gblk0 (c : Dev nD) (t : Fin cfg0.N) : Vec F S1x512x1408 .f32 := iblk0 V c 1 t
abbrev ublk0 (c : Dev nD) (t : Fin cfg0.N) : Vec F S1x512x1408 .f32 := iblk0 V c 2 t

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two running sums, point by point -/

/-- What the gate scratch and the up scratch hold after the body at position `n`: the cleared sums plus this point's
    products at the first step of a run, what the point before left plus this point's products elsewhere. -/
def acc0 (c : Dev nD) : (n : ℕ) → n < cfg0.N → Vec F S256x1408 .f32 × Vec F S256x1408 .f32
  | 0, hn => (k0_pay4 (xblk0 V c ⟨0, hn⟩) (gblk0 V c ⟨0, hn⟩) (k0_pay1 (F := F)), k0_pay5 (xblk0 V c ⟨0, hn⟩) (ublk0 V c ⟨0, hn⟩) (k0_pay2 (F := F)))
  | n + 1, hn =>
    if (n + 1) % 4 = 0 then
      (k0_pay4 (xblk0 V c ⟨n + 1, hn⟩) (gblk0 V c ⟨n + 1, hn⟩) (k0_pay1 (F := F)), k0_pay5 (xblk0 V c ⟨n + 1, hn⟩) (ublk0 V c ⟨n + 1, hn⟩) (k0_pay2 (F := F)))
    else
      (k0_pay4 (xblk0 V c ⟨n + 1, hn⟩) (gblk0 V c ⟨n + 1, hn⟩) (acc0 c n (Nat.lt_of_succ_lt hn)).1, k0_pay5 (xblk0 V c ⟨n + 1, hn⟩) (ublk0 V c ⟨n + 1, hn⟩) (acc0 c n (Nat.lt_of_succ_lt hn)).2)

theorem acc0_first (c : Dev nD) (t : Fin cfg0.N) (h0 : t.val % 4 = 0) :
    acc0 V c t.val t.isLt = (k0_pay4 (xblk0 V c t) (gblk0 V c t) (k0_pay1 (F := F)), k0_pay5 (xblk0 V c t) (ublk0 V c t) (k0_pay2 (F := F))) := by
  obtain ⟨n, hn⟩ := t
  cases n with
  | zero => rfl
  | succ n => exact if_pos h0

theorem acc0_step (c : Dev nD) (t : Fin cfg0.N) (h0 : ¬t.val % 4 = 0) :
    acc0 V c t.val t.isLt = (k0_pay4 (xblk0 V c t) (gblk0 V c t) (acc0 V c (t.val - 1) (Nat.lt_of_le_of_lt (Nat.sub_le _ _) t.isLt)).1, k0_pay5 (xblk0 V c t) (ublk0 V c t) (acc0 V c (t.val - 1) (Nat.lt_of_le_of_lt (Nat.sub_le _ _) t.isLt)).2) := by
  obtain ⟨n, hn⟩ := t
  cases n with
  | zero => exact absurd (Nat.zero_mod _) h0
  | succ n => exact if_neg h0

/-! ## The invariant -/

/-- A scoped buffer at contents nobody names. -/
abbrev anyBuf0 (c : Dev nD) (r : Ref sig .tc) : sProp 𝕄 :=
  iprop(∃ f : Buf (Elt F) ((c : Thread nD τ).loc r), ((c : Thread nD τ).loc r) ↦{fullShare} f)

/-- The scoped buffers the region neither stages through nor accumulates in. -/
def rest0 (c : Dev nD) : sProp 𝕄 :=
  iprop(anyBuf0 (F := F) c cc1_stg0_0 ∗ anyBuf0 (F := F) c cc1_stg0_1 ∗ anyBuf0 (F := F) c cc1_stg1_0 ∗ anyBuf0 (F := F) c cc1_stg1_1 ∗ anyBuf0 (F := F) c cc1_stg2_0 ∗ anyBuf0 (F := F) c cc1_stg2_1
    ∗ anyBuf0 (F := F) c cc1_scratch0)

/-- The class's invariant is those buffers, the two scratches at some contents, and the generator register. -/
theorem PhiA0_split (c : Dev nD) :
    (Pipeline.ΦA spec0 c : sProp 𝕄) ⊢ iprop(rest0 (F := F) c ∗ (∃ d, owns (c : Thread nD τ) scG0 fullShare d) ∗ (∃ d, owns (c : Thread nD τ) scU0 fullShare d) ∗ (∃ r, prngReg c r)) := by
  unfold Pipeline.ΦA rest0; rw [scopedRest0_eq]; simp only [scG0, scU0, owns_whole]
  iintro ⟨⟨HG, HU, H1, H2, H3, H4, H5, H6, H7⟩, Hp⟩
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  isplitl [HG]; · iexact HG
  isplitl [HU]; · iexact HU
  iexact Hp

theorem PhiA0_join (c : Dev nD) :
    iprop(rest0 (F := F) c ∗ (∃ d, owns (c : Thread nD τ) scG0 fullShare d) ∗ (∃ d, owns (c : Thread nD τ) scU0 fullShare d) ∗ (∃ r, prngReg c r)) ⊢ (Pipeline.ΦA spec0 c : sProp 𝕄) := by
  unfold Pipeline.ΦA rest0; rw [scopedRest0_eq]; simp only [scG0, scU0, owns_whole]
  iintro ⟨⟨H1, H2, H3, H4, H5, H6, H7⟩, HG, HU, Hp⟩
  isplitr [Hp]
  · isplitl [HG]; · iexact HG
    isplitl [HU]; · iexact HU
    isplitl [H1]; · iexact H1
    isplitl [H2]; · iexact H2
    isplitl [H3]; · iexact H3
    isplitl [H4]; · iexact H4
    isplitl [H5]; · iexact H5
    isplitl [H6]; · iexact H6
    iexact H7
  iexact Hp

/-- The region invariant before position `n`: the class's before the first point; afterwards the two scratches at what
    the point before left in them. -/
def Phi0 (c : Dev nD) : (n : ℕ) → n ≤ cfg0.N → sProp 𝕄
  | 0, _ => Pipeline.ΦA spec0 c
  | n + 1, hn => iprop(rest0 (F := F) c ∗ owns (c : Thread nD τ) scG0 fullShare (acc0 V c n hn).1 ∗ owns (c : Thread nD τ) scU0 fullShare (acc0 V c n hn).2 ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(rest0 (F := F) c ∗ owns (c : Thread nD τ) scG0 fullShare (acc0 V c n hn).1 ∗ owns (c : Thread nD τ) scU0 fullShare (acc0 V c n hn).2 ∗ (∃ r, prngReg c r)) := rfl
theorem Phi0_pos (c : Dev nD) (n : ℕ) (h : n ≤ cfg0.N) (hz : n ≠ 0) :
    Phi0 V c n h = iprop(rest0 (F := F) c ∗ owns (c : Thread nD τ) scG0 fullShare (acc0 V c (n - 1) (by omega)).1 ∗ owns (c : Thread nD τ) scU0 fullShare (acc0 V c (n - 1) (by omega)).2 ∗ (∃ r, prngReg c r)) := by
  cases n with
  | zero => exact absurd rfl hz
  | succ n => rfl

/-- Before any point the scratches are held at SOME contents (which is all the first step of a run needs). -/
theorem Phi0_any (c : Dev nD) (n : ℕ) (h : n ≤ cfg0.N) :
    Phi0 V c n h ⊢ iprop(rest0 (F := F) c ∗ (∃ d, owns (c : Thread nD τ) scG0 fullShare d) ∗ (∃ d, owns (c : Thread nD τ) scU0 fullShare d) ∗ (∃ r, prngReg c r)) := by
  cases n with
  | zero => exact PhiA0_split c
  | succ n =>
    rw [Phi0_succ]
    iintro ⟨Hr, HG, HU, Hp⟩
    isplitl [Hr]; · iexact Hr
    isplitl [HG]; · iexists _; iexact HG
    isplitl [HU]; · iexists _; iexact HU
    iexact Hp

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay6 (acc0 V c t.val t.isLt).1 (acc0 V c t.val t.isLt).2
  Φ t := Phi0 V c t.val (Nat.le_of_lt_succ t.isLt)
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay6 (acc0 V c t.val t.isLt).1 (acc0 V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: which of the three cases the point is in is read off its position in its run of four;
    the invariant hands the body the scratches at what the point before left (at anything, at the first step of a
    run) and takes them back at this point's sums. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  have hN : t.val < 512 := lt_of_lt_of_eq t.isLt N0
  by_cases h1 : t.val % 4 = 3
  · -- the last step of a run
    have h0 : ¬t.val % 4 = 0 := by omega
    have hz : t.val ≠ 0 := by omega
    rw [show (dat0 V c).leavesExact 3 t = owns (c : Thread nD τ) (ms0_3 t) fullShare ((dat0 V c).after 3 t) from by
      unfold Dat.leavesExact; rw [live0_3 t ((hcond0_1 t).mpr h1)], after0_3]
    rw [acc0_step V c t h0, Phi0_castSucc V c t, Phi0_pos V c _ _ hz]
    iintro ⟨⟨Hr, HG, HU, Hg⟩, Ho, ⟨%d0, H0⟩, ⟨%d1, H1⟩, ⟨%d2, H2⟩, ⟨%d3, H3⟩⟩
    iapply (run0_last c (grid0.coords t) _ (hs0_0 t) _ (hs0_1 t) _ (hs0_2 t) _ (hs0_3 t) _ (Memref.isWhole_whole _) _ (Memref.isWhole_whole _) (fun h => h0 ((hcond0_0 t).mp h)) ((hcond0_1 t).mpr h1)
        (xblk0 V c t) (gblk0 V c t) (ublk0 V c t) (acc0 V c (t.val - 1) (Nat.lt_of_le_of_lt (Nat.sub_le _ _) t.isLt)).1 (acc0 V c (t.val - 1) (Nat.lt_of_le_of_lt (Nat.sub_le _ _) t.isLt)).2 Set.univ _)
    isplitl [H0]; · iexact H0
    isplitl [H1]; · iexact H1
    isplitl [H2]; · iexact H2
    isplitl [H3]; · iexists _; iexact H3
    isplitl [HG]; · iexact HG
    isplitl [HU]; · iexact HU
    iintro ⟨H0, H1, H2, H3, HG, HU⟩
    isplitl [Hr HG HU Hg]
    · isplitl [Hr]; · iexact Hr
      isplitl [HG]; · iexact HG
      isplitl [HU]; · iexact HU
      iexact Hg
    isplitl [Ho]; · iexact Ho
    isplitl [H0]; · iexact H0
    isplitl [H1]; · iexact H1
    isplitl [H2]; · iexact H2
    iexact H3
  · rw [Dat.leavesExact_idle (dat0 V c) 3 t (idle0_3 t (fun h => h1 ((hcond0_1 t).mp h))) (noFlush0_3 t (fun h => h1 ((hcond0_1 t).mp h)))]
    by_cases h0 : t.val % 4 = 0
    · -- the first step of a run
      rw [acc0_first V c t h0, Phi0_castSucc V c t]
      iintro ⟨HΦ, Ho, ⟨%d0, H0⟩, ⟨%d1, H1⟩, ⟨%d2, H2⟩, ⟨%d3, H3⟩⟩
      ihave HΦ' := (Phi0_any V c t.val (Nat.le_of_lt t.isLt)) $$ HΦ
      icases HΦ' with ⟨Hr, HG, HU, Hg⟩
      iapply (run0_first c (grid0.coords t) _ (hs0_0 t) _ (hs0_1 t) _ (hs0_2 t) _ (hs0_3 t) _ (Memref.isWhole_whole _) _ (Memref.isWhole_whole _) ((hcond0_0 t).mpr h0) (fun h => h1 ((hcond0_1 t).mp h))
        (xblk0 V c t) (gblk0 V c t) (ublk0 V c t) ((dat0 V c).before 3 t d3) Set.univ _)
      isplitl [H0]; · iexact H0
      isplitl [H1]; · iexact H1
      isplitl [H2]; · iexact H2
      isplitl [H3]; · iexact H3
      isplitl [HG]; · iexact HG
      isplitl [HU]; · iexact HU
      iintro ⟨H0, H1, H2, H3, HG, HU⟩
      isplitl [Hr HG HU Hg]
      · isplitl [Hr]; · iexact Hr
        isplitl [HG]; · iexact HG
        isplitl [HU]; · iexact HU
        iexact Hg
      isplitl [Ho]; · iexact Ho
      isplitl [H0]; · iexact H0
      isplitl [H1]; · iexact H1
      isplitl [H2]; · iexact H2
      iexists _; iexact H3
    · -- a middle step
      have hz : t.val ≠ 0 := fun e => h0 (by rw [e])
      rw [acc0_step V c t h0, Phi0_castSucc V c t, Phi0_pos V c _ _ hz]
      iintro ⟨⟨Hr, HG, HU, Hg⟩, Ho, ⟨%d0, H0⟩, ⟨%d1, H1⟩, ⟨%d2, H2⟩, ⟨%d3, H3⟩⟩
      iapply (run0_mid c (grid0.coords t) _ (hs0_0 t) _ (hs0_1 t) _ (hs0_2 t) _ (hs0_3 t) _ (Memref.isWhole_whole _) _ (Memref.isWhole_whole _) (fun h => h0 ((hcond0_0 t).mp h)) (fun h => h1 ((hcond0_1 t).mp h))
        (xblk0 V c t) (gblk0 V c t) (ublk0 V c t) ((dat0 V c).before 3 t d3) (acc0 V c (t.val - 1) (Nat.lt_of_le_of_lt (Nat.sub_le _ _) t.isLt)).1 (acc0 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [HG]; · iexact HG
      isplitl [HU]; · iexact HU
      iintro ⟨H0, H1, H2, H3, HG, HU⟩
      isplitl [Hr HG HU Hg]
      · isplitl [Hr]; · iexact Hr
        isplitl [HG]; · iexact HG
        isplitl [HU]; · iexact HU
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- and the invariant after the last point gives it back, the sums' names forgotten. -/
theorem hout0 (c : Dev nD) : (dat0 V c).Φ (Fin.last cfg0.N) ⊢ Pipeline.ΦA spec0 c := by
  rw [show (dat0 V c).Φ (Fin.last cfg0.N) = Phi0 V c cfg0.N (Nat.le_refl _) from rfl]
  exact (Phi0_any V c _ _).trans (PhiA0_join c)

end Region

end Cert.Kernel.Hand

end
-- ==== Proof.Bits.Body1.lean ====
/-
  The down-projection kernel's body at one grid point, in each of the three ways its two branches go.

  The body keeps a running sum in a scratch buffer: at the first step of the reduction axis it clears the
  scratch, at every step it adds the product of the activation block and the weight block to it, and at the
  last step it copies the sum into the output block. Each lemma says what the scratch (and, at the last step,
  the output block) holds afterwards as a function of the two input blocks and of what the scratch held:
  `k1_pay2 a w s` is `s + a·w`, `k1_pay1` the cleared scratch, `k1_pay3` the sum laid out as the output block.
  The input blocks are handed back as found, and the output block is not touched before the last step.
-/
import proofs.«132357_j6614249635977_1_alg».proof.Proof.Gen.Kernel.Launch
import proofs.«132357_j6614249635977_1_alg».proof.Proof.Gen.Kernel.Skeleton
import proofs.«132357_j6614249635977_1_alg».proof.Proof.Gen.Kernel.Points
import proofs.«132357_j6614249635977_1_alg».proof.Proof.LibWholeStore
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open WholeStore

variable {F : FTy → Type} [FloatOps F]

local notation "𝕄" => MT nD τ sig Unit (Elt F) ℕ (UR sig nD τ) ℕ

/-- The reduction coordinate is at its first step: the body clears the running sum. -/
abbrev cond1_0 (i : grid1.Coords) : Prop := (Scalar.cmpi .ne (Scalar.extui (Scalar.cmpi .eq (BitVec.ofNat 32 (i 2).val) 0#32)) 0#32) = 1#1
/-- The reduction coordinate is at its last step: the body writes the sum out. -/
abbrev cond1_1 (i : grid1.Coords) : Prop := k1_cond2 i = 1#1

set_option maxHeartbeats 1000000 in
/-- First step: the scratch, whatever it held, ends at the product alone added to the cleared sum. -/
theorem run1_first (c : Dev nD) (i : grid1.Coords) (arg3 : Memref sig .tc .vmem S1x512x512 .bf16) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S512x2048 .f32) (harg6 : arg6.IsWhole)
    (hc0 : cond1_0 i) (hc1 : ¬cond1_1 i)
    (a : Vec F S1x512x512 .bf16) (w : Vec F S1x512x2048 .f32) (xo : Vec F S1x512x2048 .f32)
    (E : Set ℕ) (K : PUnit → sProp 𝕄) :
    iprop(owns (c : Thread nD τ) arg3 fullShare a ∗ owns (c : Thread nD τ) arg4 fullShare w ∗ owns (c : Thread nD τ) arg5 fullShare xo ∗ (∃ d, owns (c : Thread nD τ) arg6 fullShare d)
        ∗ (iprop(owns (c : Thread nD τ) arg3 fullShare a ∗ owns (c : Thread nD τ) arg4 fullShare w ∗ owns (c : Thread nD τ) arg5 fullShare xo ∗ owns (c : Thread nD τ) arg6 fullShare (k1_pay2 a w (k1_pay1 (F := F)))) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_words
  rw [View.read_writes_eq_canon _ _ _ (cover_cons zero2 _ _ _), View.canon_cons_unit_zero zero2]
  simp only [View.readAt_eq_ld, harg3.read_unread, harg4.read_unread,
    View.ld_unit_zero (S := S1x512x512) zero3, View.ld_unit_zero (S := S1x512x2048) zero3, View.ld_unit_zero (S := S512x2048) zero2,
    View.readCov_unit_zero (S := S512x2048) _ zero2]

set_option maxHeartbeats 1000000 in
/-- A middle step: the scratch at `s` ends at `s` plus the product. -/
theorem run1_mid (c : Dev nD) (i : grid1.Coords) (arg3 : Memref sig .tc .vmem S1x512x512 .bf16) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S512x2048 .f32) (harg6 : arg6.IsWhole)
    (hc0 : ¬cond1_0 i) (hc1 : ¬cond1_1 i)
    (a : Vec F S1x512x512 .bf16) (w : Vec F S1x512x2048 .f32) (xo : Vec F S1x512x2048 .f32) (s : Vec F S512x2048 .f32)
    (E : Set ℕ) (K : PUnit → sProp 𝕄) :
    iprop(owns (c : Thread nD τ) arg3 fullShare a ∗ owns (c : Thread nD τ) arg4 fullShare w ∗ owns (c : Thread nD τ) arg5 fullShare xo ∗ owns (c : Thread nD τ) arg6 fullShare s
        ∗ (iprop(owns (c : Thread nD τ) arg3 fullShare a ∗ owns (c : Thread nD τ) arg4 fullShare w ∗ owns (c : Thread nD τ) arg5 fullShare xo ∗ owns (c : Thread nD τ) arg6 fullShare (k1_pay2 a w s)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [View.read_writes_eq_canon _ _ _ (cover_one zero2 _ _), View.canon_unit_zero zero2]
  simp only [View.readAt_eq_ld, harg3.read_unread, harg4.read_unread, harg6.read_unread,
    View.ld_unit_zero (S := S1x512x512) zero3, View.ld_unit_zero (S := S1x512x2048) zero3, View.ld_unit_zero (S := S512x2048) zero2,
    View.readCov_unit_zero (S := S512x2048) _ zero2]

set_option maxHeartbeats 1000000 in
/-- Last step: the scratch at `s` ends at `s` plus the product, and the output block, whatever it held, at that sum. -/
theorem run1_last (c : Dev nD) (i : grid1.Coords) (arg3 : Memref sig .tc .vmem S1x512x512 .bf16) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S512x2048 .f32) (harg6 : arg6.IsWhole)
    (hc0 : ¬cond1_0 i) (hc1 : cond1_1 i)
    (a : Vec F S1x512x512 .bf16) (w : Vec F S1x512x2048 .f32) (s : Vec F S512x2048 .f32)
    (E : Set ℕ) (K : PUnit → sProp 𝕄) :
    iprop(owns (c : Thread nD τ) arg3 fullShare a ∗ owns (c : Thread nD τ) arg4 fullShare w ∗ (∃ d, owns (c : Thread nD τ) arg5 fullShare d) ∗ owns (c : Thread nD τ) arg6 fullShare s
        ∗ (iprop(owns (c : Thread nD τ) arg3 fullShare a ∗ owns (c : Thread nD τ) arg4 fullShare w ∗ owns (c : Thread nD τ) arg5 fullShare (k1_pay3 (k1_pay2 a w s)) ∗ owns (c : Thread nD τ) arg6 fullShare (k1_pay2 a w s)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [View.read_writes_eq_canon _ _ _ (cover_cons zero3 _ _ _), View.canon_cons_unit_zero zero3]
    simp only [View.readAt_eq_ld, harg3.read_unread, harg4.read_unread, harg6.read_unread,
    View.ld_unit_zero (S := S1x512x512) zero3, View.ld_unit_zero (S := S1x512x2048) zero3, View.ld_unit_zero (S := S512x2048) zero2,
    View.readCov_unit_zero (S := S512x2048) _ zero2]
  iexists _; isplitr
  swap; · iexact HS
  ipureintro
  sl_unfold_words
  rw [View.read_writes_eq_canon _ _ _ (cover_cons zero2 _ _ _), View.canon_cons_unit_zero zero2]
  simp only [View.readAt_eq_ld, harg3.read_unread, harg4.read_unread, harg6.read_unread,
    View.ld_unit_zero (S := S1x512x512) zero3, View.ld_unit_zero (S := S1x512x2048) zero3, View.ld_unit_zero (S := S512x2048) zero2,
    View.readCov_unit_zero (S := S512x2048) _ zero2]

end Cert.Kernel.Hand

end
-- ==== Proof.Bits.Region1.lean ====
/-
  The down-projection region, over the buffer contents `V` it is entered from.

  Its grid is (expert, token tile, reduction step), the reduction step fastest: a run of eleven consecutive
  points shares one output block and walks the eleven blocks of the contracted axis. The running sum the body
  keeps in its scratch is therefore a recursion on the point: `acc1` restarts from the cleared sum at the
  points divisible by eleven and otherwise adds this point's product to what the point before left. The output
  window's staging buffer receives the sum (laid out as a block) at the last point of each run, the only points
  at which the pipeline writes it back; at the others the body does not touch it. The region's invariant holds
  the scratch at `acc1` of the point before and every other scoped buffer at contents nobody names.
-/
import proofs.«132357_j6614249635977_1_alg».proof.Proof.Gen.Kernel.Launch
import proofs.«132357_j6614249635977_1_alg».proof.Proof.Gen.Kernel.Skeleton
import proofs.«132357_j6614249635977_1_alg».proof.Proof.Gen.Kernel.Points
import proofs.«132357_j6614249635977_1_alg».proof.Proof.LibWholeStore
import proofs.«132357_j6614249635977_1_alg».proof.Proof.Bits.Body1
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open WholeStore

variable {F : FTy → Type} [FloatOps F]

local notation "𝕄" => MT nD τ sig Unit (Elt F) ℕ (UR sig nD τ) ℕ

/-! ## The schedule in closed form -/

theorem N1 : cfg1.N = 176 := N_1

theorem hcond1_0 : ∀ t : Fin cfg1.N, cond1_0 (grid1.coords t) ↔ t.val % 11 = 0 :=
  (by decide +kernel : ∀ t : Fin grid1.N, cond1_0 (grid1.coords t) ↔ t.val % 11 = 0)
theorem hcond1_1 : ∀ t : Fin cfg1.N, cond1_1 (grid1.coords t) ↔ t.val % 11 = 10 :=
  (by decide +kernel : ∀ t : Fin grid1.N, cond1_1 (grid1.coords t) ↔ t.val % 11 = 10)
/-- The input windows are never idle; the output window is idle, and not written back, exactly off the last step. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem live1_2 : ∀ t : Fin cfg1.N, cond1_1 (grid1.coords t) → cfg1.idle 2 (grid1.coords t) = false := by decide +kernel

/-! ## The memrefs the body is called with -/

abbrev ms1_0 (t : Fin cfg1.N) : Memref sig .tc .vmem S1x512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x2048 .f32 := win1_2.stage (cfg1.slots t 2)
abbrev hs1_2 (t : Fin cfg1.N) : (ms1_2 t).IsWhole := hstage1_2 ((cfg1.slots t 2).cast nbuf1_2)
/-- The scratch that carries the running sum. -/
abbrev scM1 : Memref sig .tc .vmem S512x2048 .f32 := Memref.whole cc1_scratch0

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation block and the weight block of point `t`, at their literal types. -/
abbrev ablk1 (c : Dev nD) (t : Fin cfg1.N) : Vec F S1x512x512 .bf16 := iblk1 V c 0 t
abbrev wblk1 (c : Dev nD) (t : Fin cfg1.N) : Vec F S1x512x2048 .f32 := iblk1 V c 1 t

/-- An input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The running sum, point by point -/

/-- What the scratch holds after the body at position `n`: the cleared sum plus this point's product at the first
    step of a run, what the point before left plus this point's product elsewhere. -/
def acc1 (c : Dev nD) : (n : ℕ) → n < cfg1.N → Vec F S512x2048 .f32
  | 0, hn => k1_pay2 (ablk1 V c ⟨0, hn⟩) (wblk1 V c ⟨0, hn⟩) (k1_pay1 (F := F))
  | n + 1, hn =>
    if (n + 1) % 11 = 0 then k1_pay2 (ablk1 V c ⟨n + 1, hn⟩) (wblk1 V c ⟨n + 1, hn⟩) (k1_pay1 (F := F))
    else k1_pay2 (ablk1 V c ⟨n + 1, hn⟩) (wblk1 V c ⟨n + 1, hn⟩) (acc1 c n (Nat.lt_of_succ_lt hn))

theorem acc1_first (c : Dev nD) (t : Fin cfg1.N) (h0 : t.val % 11 = 0) :
    acc1 V c t.val t.isLt = k1_pay2 (ablk1 V c t) (wblk1 V c t) (k1_pay1 (F := F)) := by
  obtain ⟨n, hn⟩ := t
  cases n with
  | zero => rfl
  | succ n => exact if_pos h0

theorem acc1_step (c : Dev nD) (t : Fin cfg1.N) (h0 : ¬t.val % 11 = 0) :
    acc1 V c t.val t.isLt = k1_pay2 (ablk1 V c t) (wblk1 V c t) (acc1 V c (t.val - 1) (Nat.lt_of_le_of_lt (Nat.sub_le _ _) t.isLt)) := by
  obtain ⟨n, hn⟩ := t
  cases n with
  | zero => exact absurd (Nat.zero_mod _) h0
  | succ n => exact if_neg h0

/-! ## The invariant -/

/-- A scoped buffer at contents nobody names. -/
abbrev anyBuf (c : Dev nD) (r : Ref sig .tc) : sProp 𝕄 :=
  iprop(∃ f : Buf (Elt F) ((c : Thread nD τ).loc r), ((c : Thread nD τ).loc r) ↦{fullShare} f)

/-- The scoped buffers the region neither stages through nor accumulates in. -/
def rest1 (c : Dev nD) : sProp 𝕄 :=
  iprop(anyBuf (F := F) c cc0_stg0_0 ∗ anyBuf (F := F) c cc0_stg0_1 ∗ anyBuf (F := F) c cc0_stg1_0 ∗ anyBuf (F := F) c cc0_stg1_1 ∗ anyBuf (F := F) c cc0_stg2_0 ∗ anyBuf (F := F) c cc0_stg2_1
    ∗ anyBuf (F := F) c cc0_stg3_0 ∗ anyBuf (F := F) c cc0_stg3_1 ∗ anyBuf (F := F) c cc0_scratch0 ∗ anyBuf (F := F) c cc0_scratch1)

/-- The class's invariant is those buffers, the scratch at some contents, and the generator register. -/
theorem PhiA1_split (c : Dev nD) :
    (Pipeline.ΦA spec1 c : sProp 𝕄) ⊢ iprop(rest1 (F := F) c ∗ (∃ d, owns (c : Thread nD τ) scM1 fullShare d) ∗ (∃ r, prngReg c r)) := by
  unfold Pipeline.ΦA rest1; rw [scopedRest1_eq]; simp only [scM1, owns_whole]
  iintro ⟨⟨H1, H2, H3, H4, H5, H6, H7, H8, H9, H10, HS⟩, Hp⟩
  isplitl [H1 H2 H3 H4 H5 H6 H7 H8 H9 H10]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [HS]; · iexact HS
  iexact Hp

theorem PhiA1_join (c : Dev nD) :
    iprop(rest1 (F := F) c ∗ (∃ d, owns (c : Thread nD τ) scM1 fullShare d) ∗ (∃ r, prngReg c r)) ⊢ (Pipeline.ΦA spec1 c : sProp 𝕄) := by
  unfold Pipeline.ΦA rest1; rw [scopedRest1_eq]; simp only [scM1, owns_whole]
  iintro ⟨⟨H1, H2, H3, H4, H5, H6, H7, H8, H9, H10⟩, HS, Hp⟩
  isplitr [Hp]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iexact Hp

/-- The region invariant before position `n`: the class's before the first point; afterwards the scratch at what the
    point before left in it. -/
def Phi1 (c : Dev nD) : (n : ℕ) → n ≤ cfg1.N → sProp 𝕄
  | 0, _ => Pipeline.ΦA spec1 c
  | n + 1, hn => iprop(rest1 (F := F) c ∗ owns (c : Thread nD τ) scM1 fullShare (acc1 V c n hn) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(rest1 (F := F) c ∗ owns (c : Thread nD τ) scM1 fullShare (acc1 V c n hn) ∗ (∃ r, prngReg c r)) := rfl
theorem Phi1_pos (c : Dev nD) (n : ℕ) (h : n ≤ cfg1.N) (hz : n ≠ 0) :
    Phi1 V c n h = iprop(rest1 (F := F) c ∗ owns (c : Thread nD τ) scM1 fullShare (acc1 V c (n - 1) (by omega)) ∗ (∃ r, prngReg c r)) := by
  cases n with
  | zero => exact absurd rfl hz
  | succ n => rfl

/-- Before any point the scratch is held at SOME contents (which is all the first step of a run needs). -/
theorem Phi1_any (c : Dev nD) (n : ℕ) (h : n ≤ cfg1.N) :
    Phi1 V c n h ⊢ iprop(rest1 (F := F) c ∗ (∃ d, owns (c : Thread nD τ) scM1 fullShare d) ∗ (∃ r, prngReg c r)) := by
  cases n with
  | zero => exact PhiA1_split c
  | succ n =>
    rw [Phi1_succ]
    iintro ⟨Hr, HS, Hp⟩
    isplitl [Hr]; · iexact Hr
    isplitl [HS]; · iexists _; iexact HS
    iexact Hp

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: which of the three cases the point is in is read off its position in its run of eleven;
    the invariant hands the body the scratch at what the point before left (at anything, at the first step of a run)
    and takes it back at this point's sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 176 := lt_of_lt_of_eq t.isLt N1
  by_cases h1 : t.val % 11 = 10
  · -- the last step of a run
    have h0 : ¬t.val % 11 = 0 := by omega
    have hz : t.val ≠ 0 := by omega
    rw [show (dat1 V c).leavesExact 2 t = owns (c : Thread nD τ) (ms1_2 t) fullShare ((dat1 V c).after 2 t) from by
      unfold Dat.leavesExact; rw [live1_2 t ((hcond1_1 t).mpr h1)], after1_2]
    rw [acc1_step V c t h0, Phi1_castSucc V c t, Phi1_pos V c _ _ hz]
    iintro ⟨⟨Hr, HS, Hg⟩, Ho, ⟨%d0, H0⟩, ⟨%d1, H1⟩, ⟨%d2, H2⟩⟩
    iapply (run1_last c (grid1.coords t) _ (hs1_0 t) _ (hs1_1 t) _ (hs1_2 t) _ (Memref.isWhole_whole _) (fun h => h0 ((hcond1_0 t).mp h)) ((hcond1_1 t).mpr h1)
      (ablk1 V c t) (wblk1 V c t) (acc1 V c (t.val - 1) (Nat.lt_of_le_of_lt (Nat.sub_le _ _) t.isLt)) Set.univ _)
    isplitl [H0]; · iexact H0
    isplitl [H1]; · iexact H1
    isplitl [H2]; · iexists _; iexact H2
    isplitl [HS]; · iexact HS
    iintro ⟨H0, H1, H2, HS⟩
    isplitl [Hr HS Hg]
    · isplitl [Hr]; · iexact Hr
      isplitl [HS]; · iexact HS
      iexact Hg
    isplitl [Ho]; · iexact Ho
    isplitl [H0]; · iexact H0
    isplitl [H1]; · iexact H1
    iexact H2
  · rw [Dat.leavesExact_idle (dat1 V c) 2 t (idle1_2 t (fun h => h1 ((hcond1_1 t).mp h))) (noFlush1_2 t (fun h => h1 ((hcond1_1 t).mp h)))]
    by_cases h0 : t.val % 11 = 0
    · -- the first step of a run
      rw [acc1_first V c t h0, Phi1_castSucc V c t]
      iintro ⟨HΦ, Ho, ⟨%d0, H0⟩, ⟨%d1, H1⟩, ⟨%d2, H2⟩⟩
      ihave HΦ' := (Phi1_any V c t.val (Nat.le_of_lt t.isLt)) $$ HΦ
      icases HΦ' with ⟨Hr, HS, Hg⟩
      iapply (run1_first c (grid1.coords t) _ (hs1_0 t) _ (hs1_1 t) _ (hs1_2 t) _ (Memref.isWhole_whole _) ((hcond1_0 t).mpr h0) (fun h => h1 ((hcond1_1 t).mp h))
        (ablk1 V c t) (wblk1 V c t) ((dat1 V c).before 2 t d2) Set.univ _)
      isplitl [H0]; · iexact H0
      isplitl [H1]; · iexact H1
      isplitl [H2]; · iexact H2
      isplitl [HS]; · iexact HS
      iintro ⟨H0, H1, H2, HS⟩
      isplitl [Hr HS Hg]
      · isplitl [Hr]; · iexact Hr
        isplitl [HS]; · iexact HS
        iexact Hg
      isplitl [Ho]; · iexact Ho
      isplitl [H0]; · iexact H0
      isplitl [H1]; · iexact H1
      iexists _; iexact H2
    · -- a middle step
      have hz : t.val ≠ 0 := fun e => h0 (by rw [e])
      rw [acc1_step V c t h0, Phi1_castSucc V c t, Phi1_pos V c _ _ hz]
      iintro ⟨⟨Hr, HS, Hg⟩, Ho, ⟨%d0, H0⟩, ⟨%d1, H1⟩, ⟨%d2, H2⟩⟩
      iapply (run1_mid c (grid1.coords t) _ (hs1_0 t) _ (hs1_1 t) _ (hs1_2 t) _ (Memref.isWhole_whole _) (fun h => h0 ((hcond1_0 t).mp h)) (fun h => h1 ((hcond1_1 t).mp h))
        (ablk1 V c t) (wblk1 V c t) ((dat1 V c).before 2 t d2) (acc1 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [Hr HS Hg]
      · isplitl [Hr]; · iexact Hr
        isplitl [HS]; · iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- and the invariant after the last point gives it back, the sum's name forgotten. -/
theorem hout1 (c : Dev nD) : (dat1 V c).Φ (Fin.last cfg1.N) ⊢ Pipeline.ΦA spec1 c := by
  rw [show (dat1 V c).Φ (Fin.last cfg1.N) = Phi1 V c cfg1.N (Nat.le_refl _) from rfl]
  exact (Phi1_any V c _ _).trans (PhiA1_join c)

end Region

end Cert.Kernel.Hand

end
-- ==== Proof.Bits.Run.lean ====
/-
  The two regions in sequence: the contents of every unscoped buffer at each boundary of the program, each
  region as a segment entered from one boundary and left at the next, and the launch.

  Between the first reshape and the gate/up region every buffer holds its launch contents but the reshaped
  tokens; the gate/up region changes only the activation array, to what its write-backs leave; the down region
  changes only its output array likewise; the last reshape writes the result. The gate and the up windows read
  one array: on entry the region is handed that array's two half shares, one per window, and gives both back
  on exit.
-/
import proofs.«132357_j6614249635977_1_alg».proof.Proof.Gen.Kernel.Launch
import proofs.«132357_j6614249635977_1_alg».proof.Proof.Gen.Kernel.Skeleton
import proofs.«132357_j6614249635977_1_alg».proof.Proof.Gen.Kernel.Points
import proofs.«132357_j6614249635977_1_alg».proof.Proof.LibWholeStore
import proofs.«132357_j6614249635977_1_alg».proof.Proof.Bits.Region0
import proofs.«132357_j6614249635977_1_alg».proof.Proof.Bits.Region1
import Idealize.ShloMosaic.Lib.Pipeline.RegionsLoop
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open WholeStore

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch. -/
abbrev W0 (c : Dev nD) : Valuation τ sig (Elt F) := fun b => m (c, b)
/-- After the first reshape (the gate/up region's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the gate/up region: the activation array at what its write-backs leave, every other buffer as entered. -/
def W2 (c : Dev nD) : Valuation τ sig (Elt F) :=
  Function.update (W1 m c) (Proc.devRef .tc main_v1) ((dat0 (V1 m) c).arrAt 3 cfg0.N)
abbrev V2 : (c : Dev nD) → (b : Ref sig .tc) → Buf (Elt F) ((c : Thread nD τ).loc b) := fun c b => W2 m c b
/-- After the down region: its output array at what its write-backs leave, every other buffer as entered. -/
def W3 (c : Dev nD) : Valuation τ sig (Elt F) :=
  Function.update (W2 m c) (Proc.devRef .tc main_v2) ((dat1 (V2 m) c).arrAt 2 cfg1.N)
abbrev V3 : (c : Dev nD) → (b : Ref sig .tc) → Buf (Elt F) ((c : Thread nD τ).loc b) := fun c b => W3 m c b
/-- After the last reshape. -/
abbrev W4 (c : Dev nD) : Valuation τ sig (Elt F) := StableHlo.after hostOps2 (W3 m c)

theorem W2_v1 (c : Dev nD) : W2 m c (Proc.devRef .tc main_v1) = (dat0 (V1 m) c).arrAt 3 cfg0.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..
theorem W3_v2 (c : Dev nD) : W3 m c (Proc.devRef .tc main_v2) = (dat1 (V2 m) c).arrAt 2 cfg1.N := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..

/-! ## The gate/up region's arrays, two windows on one array -/

section Arrays0
variable (V : (c : Dev nD) → (b : Ref sig .tc) → Buf (Elt F) ((c : Thread nD τ).loc b))

/-- The shares the region holds its arrays at: the tokens and the activation whole, the fused weight at one half per window. -/
theorem share0_0 (c : Dev nD) : (dat0 V c).share 0 = fullShare := by
  unfold Dat.share; rw [if_neg (show ¬(cfg0.win 0).isOut = true by decide)]; dsimp only [dat0]; rfl
theorem share0_1 (c : Dev nD) : (dat0 V c).share 1 = fullShare.left := by
  unfold Dat.share; rw [if_neg (show ¬(cfg0.win 1).isOut = true by decide)]; dsimp only [dat0]; rfl
theorem share0_2 (c : Dev nD) : (dat0 V c).share 2 = fullShare.right := by
  unfold Dat.share; rw [if_neg (show ¬(cfg0.win 2).isOut = true by decide)]; dsimp only [dat0]; rfl
theorem share0_3 (c : Dev nD) : (dat0 V c).share 3 = fullShare := by
  unfold Dat.share; rw [if_pos (show (cfg0.win 3).isOut = true by decide)]

/-- The region's arrays, window by window. -/
theorem arrays0_eq (c : Dev nD) (G : (w : Fin cfg0.W) → Buf (Elt F) ((cfg0.win w).arr.view.loc (c : Thread nD τ))) :
    ((dat0 V c).arrays G : sProp 𝕄)
      = iprop((((c : Thread nD τ).loc (Pipeline.arrRef spec0 0)) ↦{fullShare} G 0) ∗ (((c : Thread nD τ).loc (Pipeline.arrRef spec0 1)) ↦{fullShare.left} G 1)
          ∗ (((c : Thread nD τ).loc (Pipeline.arrRef spec0 2)) ↦{fullShare.right} G 2) ∗ (((c : Thread nD τ).loc (Pipeline.arrRef spec0 3)) ↦{fullShare} G 3)) := by
  unfold Dat.arrays
  rw [bigSep_W0, share0_0, share0_1, share0_2, share0_3]
  simp only [(arr_whole0 0).set_eq_univ, (arr_whole0 1).set_eq_univ, (arr_whole0 2).set_eq_univ, (arr_whole0 3).set_eq_univ]
  try rfl

/-- The buffers behind the region's arrays, listed. -/
theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v0) ↦{fullShare} X main_v0) ∗ (((c : Thread nD τ).loc main_arg1) ↦{fullShare} X main_arg1)
          ∗ (((c : Thread nD τ).loc main_v1) ↦{fullShare} X main_v1)) := by
  unfold Pipeline.arrBufs
  exact bigSep_eq_bigSepL_of_eq [main_v0, main_arg1, main_v1] (by decide) (by decide) _

end Arrays0

/-! ## The gate/up region's entry and exit, over every unscoped buffer -/

theorem arrAt0_zero (V : (c : Dev nD) → (b : Ref sig .tc) → Buf (Elt F) ((c : Thread nD τ).loc b)) (c : Dev nD) (w : Fin cfg0.W) :
    (dat0 V c).arrAt w 0 = V c (Pipeline.arrRef spec0 w) := A_eq0 V c w

/-- ENTRY: the core's unscoped buffers at the first boundary's contents are the region's arrays — the fused weight
    dealt as its two halves — and the buffers the region bypasses. -/
theorem entry0 (c : Dev nD) :
    (StableHlo.held (c : Thread nD τ) (Pipeline.ucRefs τ sig) (W1 m c) : sProp 𝕄)
      ⊢ iprop((dat0 (V1 m) c).arrays ((dat0 (V1 m) c).arrAt · 0) ∗ Pipeline.unscopedRest spec0 c (V1 m c)) := by
  rw [← Pipeline.unscopedBufs_held c (W1 m c), Pipeline.unscopedBufs_split₀ cfgs 0 winFacts₀0.arr_unscoped c]
  change iprop(Pipeline.arrBufs spec0 c (V1 m c) ∗ Pipeline.unscopedRest spec0 c (V1 m c)) ⊢ _
  rw [arrBufs0_eq, arrays0_eq]
  simp only [arrAt0_zero]
  iintro ⟨⟨H0, H1, H3⟩, Hrest⟩
  ihave H1' := (pointsTo_share (PosShare.mem_left_op_right fullShare)).1 $$ H1
  icases H1' with ⟨H1l, H1r⟩
  isplitr [Hrest]
  · isplitl [H0]; · iexact H0
    isplitl [H1l]; · iexact H1l
    isplitl [H1r]; · iexact H1r
    iexact H3
  iexact Hrest

/-- The buffers the region bypasses hold at its exit what they held at its entry. -/
theorem rest0_eq (c : Dev nD) :
    (Pipeline.unscopedRest (Ix := Unit) (Name := ℕ) (U := UR sig nD τ) (Lvl := ℕ) spec0 c (V2 m c) : sProp 𝕄)
      = Pipeline.unscopedRest spec0 c (V1 m c) := by
  unfold Pipeline.unscopedRest
  exact bigSep_congr fun b hb => by
    have hne : b ≠ main_v1 := fun e => (Finset.mem_sdiff.mp hb).2 (e ▸ Finset.mem_image.mpr ⟨3, Finset.mem_univ _, rfl⟩)
    rw [show V2 m c b = V1 m c b from W2_of_ne m c b hne]

/-- EXIT: the region's arrays after its write-backs — the two halves of the fused weight joined again — and the
    bypassed buffers are the core's unscoped buffers at the second boundary's contents. -/
theorem exit0 (c : Dev nD) :
    iprop((dat0 (V1 m) c).arrays ((dat0 (V1 m) c).arrAt · cfg0.N) ∗ Pipeline.unscopedRest spec0 c (V1 m c))
      ⊢ (StableHlo.held (c : Thread nD τ) (Pipeline.ucRefs τ sig) (W2 m c) : sProp 𝕄) := by
  rw [← Pipeline.unscopedBufs_held c (W2 m c), Pipeline.unscopedBufs_split₀ cfgs 0 winFacts₀0.arr_unscoped c]
  change _ ⊢ iprop(Pipeline.arrBufs spec0 c (V2 m c) ∗ Pipeline.unscopedRest spec0 c (V2 m c))
  rw [arrBufs0_eq, arrays0_eq,
    (dat0 (V1 m) c).arrAt_in 0 rfl, (dat0 (V1 m) c).arrAt_in 1 rfl, (dat0 (V1 m) c).arrAt_in 2 rfl, rest0_eq]
  simp only [A_eq0, W2_v1, W2_of_ne m c main_v0 (by decide), W2_of_ne m c main_arg1 (by decide)]
  iintro ⟨⟨H0, H1l, H1r, H3⟩, Hrest⟩
  ihave H1 := (pointsTo_share (PosShare.mem_left_op_right fullShare)).2 $$ [H1l H1r]
  · isplitl [H1l]; · iexact H1l
    iexact H1r
  isplitr [Hrest]
  · isplitl [H0]; · iexact H0
    isplitl [H1]; · iexact H1
    iexact H3
  iexact Hrest

/-! ## The down region's exit contents -/

theorem hF1 (c : Dev nD) (w : Fin cfg1.W) : (dat1 (V2 m) c).arrAt w cfg1.N = V3 m c (Pipeline.arrRef spec1 w) := by
  match w with
  | ⟨0, _⟩ => exact ((dat1 (V2 m) c).arrAt_in 0 rfl _).trans ((A_eq1 (V2 m) c 0).trans (W3_of_ne m c main_v1 (by decide)).symm)
  | ⟨1, _⟩ => exact ((dat1 (V2 m) c).arrAt_in 1 rfl _).trans ((A_eq1 (V2 m) c 1).trans (W3_of_ne m c main_arg2 (by decide)).symm)
  | ⟨2, _⟩ => exact (W3_v2 m c).symm
theorem hrest1 (c : Dev nD) : ∀ b, b ∉ Finset.univ.image (Pipeline.arrRef spec1) → V3 m c b = V2 m c b :=
  fun b hb => W3_of_ne m c b fun e => hb (e ▸ Finset.mem_image.mpr ⟨2, Finset.mem_univ _, rfl⟩)

/-! ## The proof data family and the thread state -/

/-- No pipeline has a prefetched table. -/
abbrev tabs : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) tabs p) c
  | ⟨0, _⟩ => fun c => dat0 (V1 m) c
  | ⟨1, _⟩ => fun c => dat1 (V2 m) c
abbrev 𝒱ₙ : Variants := Variants.none
/-- No core owes another anything: no level is assigned. -/
abbrev Lₙ : GSem nD τ sig → Finset Unit := fun _ => ∅
abbrev lvₙ : GSem nD τ sig → Unit → ℕ := fun _ _ => 0
/-- What rides beside the buffers through every segment: the generator register at some state and the core owing nothing. -/
abbrev Rd (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ Lₙ lvₙ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The class's invariant, opened. -/
theorem PhiA_open0 (c : Dev nD) : (Pipeline.ΦA spec0 c : sProp 𝕄) ⊢ iprop(Pipeline.scopedRest spec0 c ∗ ∃ r, prngReg c r) := by
  unfold Pipeline.ΦA; exact .rfl
theorem PhiA_open1 (c : Dev nD) : (Pipeline.ΦA spec1 c : sProp 𝕄) ⊢ iprop(Pipeline.scopedRest spec1 c ∗ ∃ r, prngReg c r) := by
  unfold Pipeline.ΦA; exact .rfl

/-! ## The regions as segments -/

set_option backward.isDefEq.respectTransparency.types false in
/-- The gate/up region: entered from every unscoped buffer at the first boundary's contents, left at the second's. -/
def reg0 : Pipeline.RegionSeg (pcfgs (F := F)) tabs (pdats m) () defs₀ 𝒱ₙ Lₙ lvₙ 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ Lₙ lvₙ 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    iintro HPhi
    ihave H := (show ((pdats m 0 c).Φ (Fin.last (Pipeline.pin (pcfgs (F := F)) tabs 0).N) : sProp 𝕄) ⊢ Pipeline.ΦA spec0 c from hout0 (V1 m) c) $$ HPhi
    ihave H' := (PhiA_open0 c) $$ H
    icases H' with ⟨Hr, Hp⟩
    isplitl [Hp]; · iexact Hp
    isplitr; · iempintro
    iexact Hr
  hexit c := by
    iintro ⟨Ha, HO, HY, Hrest⟩
    imodintro
    isplitl [Ha Hrest]
    · iapply (exit0 m c)
      isplitl [Ha]; · iexact Ha
      iexact Hrest
    isplitl [HY]; · iexact HY
    unfold Pipeline.Dat.owesAt Pipeline.owesWithin
    icases HO with ⟨%W, -, HO⟩; iexists W; iexact HO

/-- The last thread state without the `owes`: every unscoped buffer at the last boundary's contents, the generator register at some state. -/
abbrev Tₙ (c : Dev nD) : sProp 𝕄 := iprop(StableHlo.held (c : Thread nD τ) (Pipeline.ucRefs τ sig) (W4 m c) ∗ ∃ r, prngReg c r)

set_option backward.isDefEq.respectTransparency.types false in
/-- The down region: entered from every unscoped buffer at the second boundary's contents, left at the third's. -/
def reg1 : Pipeline.RegionSeg (pcfgs (F := F)) tabs (pdats m) () defs₀ 𝒱ₙ Lₙ lvₙ 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ Lₙ lvₙ 1 fun _ _ => rfl
  pre c := iprop(StableHlo.held (c : Thread nD τ) (Pipeline.ucRefs τ sig) (W2 m c) ∗ Rd c)
  post c := iprop(StableHlo.held (c : Thread nD τ) (Pipeline.ucRefs τ sig) (W3 m c) ∗ Rd c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) tabs (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    iintro HPhi
    ihave H := (show ((pdats m 1 c).Φ (Fin.last (Pipeline.pin (pcfgs (F := F)) tabs 1).N) : sProp 𝕄) ⊢ Pipeline.ΦA spec1 c from hout1 (V2 m) c) $$ HPhi
    ihave H' := (PhiA_open1 c) $$ H
    icases H' with ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) tabs (pdats m) () defs₀ 𝒱ₙ Lₙ lvₙ) :=
  [ .host (hseg hostOps0 hostOps0_sub ops0_fresh (W0 m)),
    .region (reg0 m),
    .region (reg1 m),
    .host (hseg hostOps2 hostOps2_sub ops2_fresh (W3 m)) ]

theorem main_run (c : Dev nD) : main (F := F) c = Pipeline.Seg.run (segs m) := (main_chain c).trans (by chain_rfl)

variable (ρ : Dev nD → PrngReg)

set_option backward.isDefEq.respectTransparency.types false in
/-- THE RUN, every unscoped buffer named: from any memory with zero counters every weakly fair execution of @main
    terminates, nothing faulting, and the final memory holds each unscoped buffer at the last boundary's contents. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) tabs (pdats m) () cellOf_inj emb₁ defs₀ 𝒱ₙ Lₙ lvₙ m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ Rd c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lₙ lvₙ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.Bits.End.lean ====
/-
  What the final memory holds, read off the last boundary's contents: each argument what it held at launch (no
  reshape and no region writes one), and the result the last reshape of what the down region's write-backs leave.
-/
import proofs.«132357_j6614249635977_1_alg».proof.Proof.Gen.Kernel.Launch
import proofs.«132357_j6614249635977_1_alg».proof.Proof.Gen.Kernel.Skeleton
import proofs.«132357_j6614249635977_1_alg».proof.Proof.Gen.Kernel.Points
import proofs.«132357_j6614249635977_1_alg».proof.Proof.LibWholeStore
import proofs.«132357_j6614249635977_1_alg».proof.Proof.Bits.Run
import Idealize.ShloMosaic.Lib.Pipeline.RegionsLoop
import Idealize.ShloMosaic.Lib.StableHlo.Run
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open WholeStore

variable {F : FTy → Type} [FloatOps F]

local notation "𝕄" => MT nD τ sig Unit (Elt F) ℕ (UR sig nD τ) ℕ

variable (m : (ℓ : Loc nD τ sig) → Buf (Elt F) ℓ)

/-! ## What the two reshapes write -/

abbrev ops0_W : List (Ref sig .tc) := [main_v0]
theorem ops0_writes : (hostOps0 : List (HloOp τ sig (Elt F))).Forall fun op => op.writes ⊆ (ops0_W.map (Proc.devRef (τ := τ) .tc)).toFinset := by
  simp only [List.Forall]; exact (by simp only [StableHlo.reshape_writes, Finset.singleton_subset_iff, List.mem_toFinset]; exact List.mem_map_of_mem (by decide))
abbrev ops2_W : List (Ref sig .tc) := [main_v3]
theorem ops2_writes : (hostOps2 : List (HloOp τ sig (Elt F))).Forall fun op => op.writes ⊆ (ops2_W.map (Proc.devRef (τ := τ) .tc)).toFinset := by
  simp only [List.Forall]; exact (by simp only [StableHlo.reshape_writes, Finset.singleton_subset_iff, List.mem_toFinset]; exact List.mem_map_of_mem (by decide))

theorem W1_of (c : Dev nD) (r : Ref sig .tc) (h : r ∉ ops0_W) : W1 m c r = W0 m c r :=
  StableHlo.after_of_writes_sub hostOps0 _ ops0_writes h
theorem W4_of (c : Dev nD) (r : Ref sig .tc) (h : r ∉ ops2_W) : W4 m c r = W3 m c r :=
  StableHlo.after_of_writes_sub hostOps2 _ ops2_writes h

/-- A buffer that neither reshape writes and that is neither region's output holds at the end what it held at launch. -/
theorem W4_kept (c : Dev nD) (r : Ref sig .tc) (h0 : r ∉ ops0_W) (h1 : r ≠ main_v1) (h2 : r ≠ main_v2) (h3 : r ∉ ops2_W) :
    W4 m c r = m ((c : Thread nD τ).loc r) :=
  (W4_of m c r h3).trans ((W3_of_ne m c r h2).trans ((W2_of_ne m c r h1).trans ((W1_of m c r h0).trans rfl)))

theorem W4_arg0 (c : Dev nD) : W4 m c main_arg0 = m ((c : Thread nD τ).loc main_arg0) := W4_kept m c main_arg0 (by decide) (by decide) (by decide) (by decide)
theorem W4_arg1 (c : Dev nD) : W4 m c main_arg1 = m ((c : Thread nD τ).loc main_arg1) := W4_kept m c main_arg1 (by decide) (by decide) (by decide) (by decide)
theorem W4_arg2 (c : Dev nD) : W4 m c main_arg2 = m ((c : Thread nD τ).loc main_arg2) := W4_kept m c main_arg2 (by decide) (by decide) (by decide) (by decide)

/-! ## The arrays the regions are entered with, and the result -/

/-- The gate/up region reads the reshaped tokens and the fused weight as launched. -/
theorem V1_v0 (c : Dev nD) : V1 m c main_v0 = shapeCast _ (m ((c : Thread nD τ).loc main_arg0)) shapeCasts_S8192x2048_S8x1024x2048 := by
  show StableHlo.after hostOps0 (W0 m c) (Proc.devRef .tc main_v0) = _
  after_results; rfl
theorem V1_arg1 (c : Dev nD) : V1 m c main_arg1 = m ((c : Thread nD τ).loc main_arg1) := W1_of m c main_arg1 (by decide)
/-- The down region reads the activation the gate/up region left and the down weight as launched. -/
theorem V2_v1 (c : Dev nD) : V2 m c main_v1 = (dat0 (V1 m) c).arrAt 3 cfg0.N := W2_v1 m c
theorem V2_arg2 (c : Dev nD) : V2 m c main_arg2 = m ((c : Thread nD τ).loc main_arg2) :=
  (W2_of_ne m c main_arg2 (by decide)).trans (W1_of m c main_arg2 (by decide))
/-- The result is the last reshape of the down region's output. -/
theorem W4_v3 (c : Dev nD) : W4 m c main_v3 = shapeCast _ ((dat1 (V2 m) c).arrAt 2 cfg1.N) shapeCasts_S8x1024x2048_S8192x2048 := by
  show StableHlo.after hostOps2 (W3 m c) (Proc.devRef .tc main_v3) = _
  after_results
  rw [W3_v2]; rfl

variable (ρ : Dev nD → PrngReg)

/-- THE RUN with the result named and the arguments unchanged. -/
theorem run_value : θ_run defs (onTc (τ := τ) (main (F := F))) ⟨m, fun _ => 0, ρ⟩ (fun r => ∀ c : Dev nD,
      r.2.mem ((c.tc : Thread nD τ).loc main_v3) = shapeCast _ ((dat1 (V2 m) c).arrAt 2 cfg1.N) shapeCasts_S8x1024x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v3 (by decide))).trans (W4_v3 m c),
     (h c _ (mem_uc main_arg0 (by decide))).trans (W4_arg0 m c),
     (h c _ (mem_uc main_arg1 (by decide))).trans (W4_arg1 m c),
     (h c _ (mem_uc main_arg2 (by decide))).trans (W4_arg2 m c)⟩) (run_named m ρ)

/-- THE FRAME: every weakly fair execution terminates, nothing faulting, and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_value m ρ)

end Cert.Kernel.Hand

end
-- ==== Proof.Ideal.Body0.lean ====
/-
  The gate/up projection kernel's body at one grid point, in each of the three ways its two branches go.

  The body keeps two running sums in scratch buffers, one for the gate half of the weight and one for the up
  half: at the first step of the reduction axis it clears both, at every step it adds to each the product of
  the token block with that half's weight block, and at the last step it writes `up · (gate · σ(gate))` of the
  two sums into the output block. Each lemma says what the scratches (and, at the last step, the output block)
  hold afterwards as functions of the three input blocks and of what the scratches held: `k0_pay4 x g s` is
  `s + x·g`, `k0_pay5 x u s` is `s + x·u`, `k0_pay1` / `k0_pay2` the cleared sums, `k0_pay6 G U` the gated
  product laid out as the output block. The input blocks are handed back as found, and the output block is not
  touched before the last step.
-/
import proofs.«132357_j6614249635977_1_alg».proof.Proof.Gen.KernelIdeal.Launch
import proofs.«132357_j6614249635977_1_alg».proof.Proof.Gen.KernelIdeal.Skeleton
import proofs.«132357_j6614249635977_1_alg».proof.Proof.Gen.KernelIdeal.Points
import proofs.«132357_j6614249635977_1_alg».proof.Proof.LibWholeStore
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open WholeStore

variable {F : FTy → Type} [FloatOps F]

local notation "𝕄" => MT nD τ sig Unit (Elt F) ℕ (UR sig nD τ) ℕ

/-- The reduction coordinate is at its first step: the body clears the two running sums. -/
abbrev cond0_0 (i : grid0.Coords) : Prop := (Scalar.cmpi .ne (Scalar.extui (Scalar.cmpi .eq (BitVec.ofNat 32 (i 3).val) 0#32)) 0#32) = 1#1
/-- The reduction coordinate is at its last step: the body writes the gated product out. -/
abbrev cond0_1 (i : grid0.Coords) : Prop := k0_cond2 i = 1#1

set_option maxHeartbeats 2000000 in
/-- First step: each scratch, whatever it held, ends at its product alone added to the cleared sum. -/
theorem run0_first (c : Dev nD) (i : grid0.Coords) (arg4 : Memref sig .tc .vmem S1x256x512 .f32) (harg4 : arg4.IsWhole) (arg5 : Memref sig .tc .vmem S1x512x1408 .f32) (harg5 : arg5.IsWhole) (arg6 : Memref sig .tc .vmem S1x512x1408 .f32) (harg6 : arg6.IsWhole) (arg7 : Memref sig .tc .vmem S1x256x1408 .bf16) (harg7 : arg7.IsWhole) (arg8 : Memref sig .tc .vmem S256x1408 .f32) (harg8 : arg8.IsWhole) (arg9 : Memref sig .tc .vmem S256x1408 .f32) (harg9 : arg9.IsWhole)
    (hc0 : cond0_0 i) (hc1 : ¬cond0_1 i)
    (x : Vec F S1x256x512 .f32) (g u : Vec F S1x512x1408 .f32) (xo : Vec F S1x256x1408 .bf16)
    (E : Set ℕ) (K : PUnit → sProp 𝕄) :
    iprop(owns (c : Thread nD τ) arg4 fullShare x ∗ owns (c : Thread nD τ) arg5 fullShare g ∗ owns (c : Thread nD τ) arg6 fullShare u ∗ owns (c : Thread nD τ) arg7 fullShare xo ∗ (∃ d, owns (c : Thread nD τ) arg8 fullShare d) ∗ (∃ d, owns (c : Thread nD τ) arg9 fullShare d)
        ∗ (iprop(owns (c : Thread nD τ) arg4 fullShare x ∗ owns (c : Thread nD τ) arg5 fullShare g ∗ owns (c : Thread nD τ) arg6 fullShare u ∗ owns (c : Thread nD τ) arg7 fullShare xo ∗ owns (c : Thread nD τ) arg8 fullShare (k0_pay4 x g (k0_pay1 (F := F))) ∗ owns (c : Thread nD τ) arg9 fullShare (k0_pay5 x u (k0_pay2 (F := F)))) -∗ K ⟨⟩))
      ⊢ wp frame (wpE (defs₀ (F := F)) Variants.none c none) E (cc0__gate_up_kernel i arg4 harg4 arg5 harg5 arg6 harg6 arg7 harg7 arg8 harg8 arg9 harg9) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%f3, %hf3, H3⟩, ⟨%d8, %f8, -, H8⟩, ⟨%d9, %f9, -, H9⟩, Hk⟩
  obtain rfl := harg4.eq_unread hf0; obtain rfl := harg5.eq_unread hf1; obtain rfl := harg6.eq_unread hf2; obtain rfl := harg7.eq_unread hf3
  sl_exec (disch := first | exact hc0 | exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H8]
  · iexists _; isplitr
    swap; · iexact H8
    ipureintro
    sl_unfold_words
    rw [View.read_writes_eq_canon _ _ _ (cover_cons zero2 _ _ _), View.canon_cons_unit_zero zero2]
    simp only [View.readAt_eq_ld, harg4.read_unread, harg5.read_unread, harg6.read_unread,
    View.ld_unit_zero (S := S1x256x512) zero3, View.ld_unit_zero (S := S1x512x1408) zero3, View.ld_unit_zero (S := S256x1408) zero2,
    View.readCov_unit_zero (S := S256x1408) _ zero2]
  iexists _; isplitr
  swap; · iexact H9
  ipureintro
  sl_unfold_words
  rw [View.read_writes_eq_canon _ _ _ (cover_cons zero2 _ _ _), View.canon_cons_unit_zero zero2]
  simp only [View.readAt_eq_ld, harg4.read_unread, harg5.read_unread, harg6.read_unread,
    View.ld_unit_zero (S := S1x256x512) zero3, View.ld_unit_zero (S := S1x512x1408) zero3, View.ld_unit_zero (S := S256x1408) zero2,
    View.readCov_unit_zero (S := S256x1408) _ zero2]

set_option maxHeartbeats 2000000 in
/-- A middle step: the scratches at `sg`, `su` end at those plus the products. -/
theorem run0_mid (c : Dev nD) (i : grid0.Coords) (arg4 : Memref sig .tc .vmem S1x256x512 .f32) (harg4 : arg4.IsWhole) (arg5 : Memref sig .tc .vmem S1x512x1408 .f32) (harg5 : arg5.IsWhole) (arg6 : Memref sig .tc .vmem S1x512x1408 .f32) (harg6 : arg6.IsWhole) (arg7 : Memref sig .tc .vmem S1x256x1408 .bf16) (harg7 : arg7.IsWhole) (arg8 : Memref sig .tc .vmem S256x1408 .f32) (harg8 : arg8.IsWhole) (arg9 : Memref sig .tc .vmem S256x1408 .f32) (harg9 : arg9.IsWhole)
    (hc0 : ¬cond0_0 i) (hc1 : ¬cond0_1 i)
    (x : Vec F S1x256x512 .f32) (g u : Vec F S1x512x1408 .f32) (xo : Vec F S1x256x1408 .bf16) (sg su : Vec F S256x1408 .f32)
    (E : Set ℕ) (K : PUnit → sProp 𝕄) :
    iprop(owns (c : Thread nD τ) arg4 fullShare x ∗ owns (c : Thread nD τ) arg5 fullShare g ∗ owns (c : Thread nD τ) arg6 fullShare u ∗ owns (c : Thread nD τ) arg7 fullShare xo ∗ owns (c : Thread nD τ) arg8 fullShare sg ∗ owns (c : Thread nD τ) arg9 fullShare su
        ∗ (iprop(owns (c : Thread nD τ) arg4 fullShare x ∗ owns (c : Thread nD τ) arg5 fullShare g ∗ owns (c : Thread nD τ) arg6 fullShare u ∗ owns (c : Thread nD τ) arg7 fullShare xo ∗ owns (c : Thread nD τ) arg8 fullShare (k0_pay4 x g sg) ∗ owns (c : Thread nD τ) arg9 fullShare (k0_pay5 x u su)) -∗ K ⟨⟩))
      ⊢ wp frame (wpE (defs₀ (F := F)) Variants.none c none) E (cc0__gate_up_kernel i arg4 harg4 arg5 harg5 arg6 harg6 arg7 harg7 arg8 harg8 arg9 harg9) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%f3, %hf3, H3⟩, ⟨%f8, %hf8, H8⟩, ⟨%f9, %hf9, H9⟩, Hk⟩
  obtain rfl := harg4.eq_unread hf0; obtain rfl := harg5.eq_unread hf1; obtain rfl := harg6.eq_unread hf2; obtain rfl := harg7.eq_unread hf3
  obtain rfl := harg8.eq_unread hf8; obtain rfl := harg9.eq_unread hf9
  sl_exec (disch := first | exact hc0 | exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H8]
  · iexists _; isplitr
    swap; · iexact H8
    ipureintro
    sl_unfold_words
    rw [View.read_writes_eq_canon _ _ _ (cover_cons zero2 _ _ _), View.canon_cons_unit_zero zero2]
    simp only [View.readAt_eq_ld, harg4.read_unread, harg5.read_unread, harg6.read_unread, harg8.read_unread, harg9.read_unread,
    View.ld_unit_zero (S := S1x256x512) zero3, View.ld_unit_zero (S := S1x512x1408) zero3, View.ld_unit_zero (S := S256x1408) zero2,
    View.readCov_unit_zero (S := S256x1408) _ zero2]
  iexists _; isplitr
  swap; · iexact H9
  ipureintro
  sl_unfold_words
  rw [View.read_writes_eq_canon _ _ _ (cover_cons zero2 _ _ _), View.canon_cons_unit_zero zero2]
  simp only [View.readAt_eq_ld, harg4.read_unread, harg5.read_unread, harg6.read_unread, harg8.read_unread, harg9.read_unread,
    View.ld_unit_zero (S := S1x256x512) zero3, View.ld_unit_zero (S := S1x512x1408) zero3, View.ld_unit_zero (S := S256x1408) zero2,
    View.readCov_unit_zero (S := S256x1408) _ zero2]

set_option maxHeartbeats 2000000 in
/-- Last step: the scratches end at their sums, and the output block, whatever it held, at the gated product of the two sums. -/
theorem run0_last (c : Dev nD) (i : grid0.Coords) (arg4 : Memref sig .tc .vmem S1x256x512 .f32) (harg4 : arg4.IsWhole) (arg5 : Memref sig .tc .vmem S1x512x1408 .f32) (harg5 : arg5.IsWhole) (arg6 : Memref sig .tc .vmem S1x512x1408 .f32) (harg6 : arg6.IsWhole) (arg7 : Memref sig .tc .vmem S1x256x1408 .bf16) (harg7 : arg7.IsWhole) (arg8 : Memref sig .tc .vmem S256x1408 .f32) (harg8 : arg8.IsWhole) (arg9 : Memref sig .tc .vmem S256x1408 .f32) (harg9 : arg9.IsWhole)
    (hc0 : ¬cond0_0 i) (hc1 : cond0_1 i)
    (x : Vec F S1x256x512 .f32) (g u : Vec F S1x512x1408 .f32) (sg su : Vec F S256x1408 .f32)
    (E : Set ℕ) (K : PUnit → sProp 𝕄) :
    iprop(owns (c : Thread nD τ) arg4 fullShare x ∗ owns (c : Thread nD τ) arg5 fullShare g ∗ owns (c : Thread nD τ) arg6 fullShare u ∗ (∃ d, owns (c : Thread nD τ) arg7 fullShare d) ∗ owns (c : Thread nD τ) arg8 fullShare sg ∗ owns (c : Thread nD τ) arg9 fullShare su
        ∗ (iprop(owns (c : Thread nD τ) arg4 fullShare x ∗ owns (c : Thread nD τ) arg5 fullShare g ∗ owns (c : Thread nD τ) arg6 fullShare u ∗ owns (c : Thread nD τ) arg7 fullShare (k0_pay6 (k0_pay4 x g sg) (k0_pay5 x u su)) ∗ owns (c : Thread nD τ) arg8 fullShare (k0_pay4 x g sg) ∗ owns (c : Thread nD τ) arg9 fullShare (k0_pay5 x u su)) -∗ K ⟨⟩))
      ⊢ wp frame (wpE (defs₀ (F := F)) Variants.none c none) E (cc0__gate_up_kernel i arg4 harg4 arg5 harg5 arg6 harg6 arg7 harg7 arg8 harg8 arg9 harg9) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d3, %f3, -, H3⟩, ⟨%f8, %hf8, H8⟩, ⟨%f9, %hf9, H9⟩, Hk⟩
  obtain rfl := harg4.eq_unread hf0; obtain rfl := harg5.eq_unread hf1; obtain rfl := harg6.eq_unread hf2
  obtain rfl := harg8.eq_unread hf8; obtain rfl := harg9.eq_unread hf9
  sl_exec (disch := first | exact hc0 | exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    sl_unfold_words
    rw [View.read_writes_eq_canon _ _ _ (cover_cons zero3 _ _ _), View.canon_cons_unit_zero zero3]
    simp only [View.readAt_eq_ld, harg4.read_unread, harg5.read_unread, harg6.read_unread, harg8.read_unread, harg9.read_unread,
    View.ld_unit_zero (S := S1x256x512) zero3, View.ld_unit_zero (S := S1x512x1408) zero3, View.ld_unit_zero (S := S256x1408) zero2,
    View.readCov_unit_zero (S := S256x1408) _ zero2]
  isplitl [H8]
  · iexists _; isplitr
    swap; · iexact H8
    ipureintro
    sl_unfold_words
    rw [View.read_writes_eq_canon _ _ _ (cover_cons zero2 _ _ _), View.canon_cons_unit_zero zero2]
    simp only [View.readAt_eq_ld, harg4.read_unread, harg5.read_unread, harg6.read_unread, harg8.read_unread, harg9.read_unread,
    View.ld_unit_zero (S := S1x256x512) zero3, View.ld_unit_zero (S := S1x512x1408) zero3, View.ld_unit_zero (S := S256x1408) zero2,
    View.readCov_unit_zero (S := S256x1408) _ zero2]
  iexists _; isplitr
  swap; · iexact H9
  ipureintro
  sl_unfold_words
  rw [View.read_writes_eq_canon _ _ _ (cover_cons zero2 _ _ _), View.canon_cons_unit_zero zero2]
  simp only [View.readAt_eq_ld, harg4.read_unread, harg5.read_unread, harg6.read_unread, harg8.read_unread, harg9.read_unread,
    View.ld_unit_zero (S := S1x256x512) zero3, View.ld_unit_zero (S := S1x512x1408) zero3, View.ld_unit_zero (S := S256x1408) zero2,
    View.readCov_unit_zero (S := S256x1408) _ zero2]

end Cert.KernelIdeal.Hand

end
-- ==== Proof.Ideal.Region0.lean ====
/-
  The gate/up projection region, over the buffer contents `V` it is entered from.

  Its grid is (expert, token tile, feature tile, reduction step), the reduction step fastest: a run of four
  consecutive points shares one output block and walks the four blocks of the contracted axis. The token block
  comes from the reshaped tokens; the gate and the up weight blocks come from ONE array, the same row block at
  column tile `f` and at column tile `f + 4`. The two running sums the body keeps in its scratches are a
  recursion on the point: `acc0` restarts both from the cleared sums at the points divisible by four and
  otherwise adds this point's two products to what the point before left. The output window's staging buffer
  receives `up · (gate · σ(gate))` of the two sums at the last point of each run, the only points at which the
  pipeline writes it back; at the others the body does not touch it. The region's invariant holds the two
  scratches at `acc0` of the point before and every other scoped buffer at contents nobody names.
-/
import proofs.«132357_j6614249635977_1_alg».proof.Proof.Gen.KernelIdeal.Launch
import proofs.«132357_j6614249635977_1_alg».proof.Proof.Gen.KernelIdeal.Skeleton
import proofs.«132357_j6614249635977_1_alg».proof.Proof.Gen.KernelIdeal.Points
import proofs.«132357_j6614249635977_1_alg».proof.Proof.LibWholeStore
import proofs.«132357_j6614249635977_1_alg».proof.Proof.Ideal.Body0
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open WholeStore

variable {F : FTy → Type} [FloatOps F]

local notation "𝕄" => MT nD τ sig Unit (Elt F) ℕ (UR sig nD τ) ℕ

/-! ## The schedule in closed form -/

theorem N0 : cfg0.N = 512 := N_0

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)
/-- The input windows are never idle; the output window is idle, and not written back, exactly off the last step. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem idle0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem live0_3 : ∀ t : Fin cfg0.N, cond0_1 (grid0.coords t) → cfg0.idle 3 (grid0.coords t) = false := by decide +kernel

/-! ## The memrefs the body is called with -/

abbrev ms0_0 (t : Fin cfg0.N) : Memref sig .tc .vmem S1x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1408 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1408 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1408 .bf16 := win0_3.stage (cfg0.slots t 3)
abbrev hs0_3 (t : Fin cfg0.N) : (ms0_3 t).IsWhole := hstage0_3 ((cfg0.slots t 3).cast nbuf0_3)
/-- The scratches that carry the gate sum and the up sum. -/
abbrev scG0 : Memref sig .tc .vmem S256x1408 .f32 := Memref.whole cc0_scratch0
abbrev scU0 : Memref sig .tc .vmem S256x1408 .f32 := Memref.whole cc0_scratch1

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The token block, the gate weight block and the up weight block of point `t`, at their literal types. -/
abbrev xblk0 (c : Dev nD) (t : Fin cfg0.N) : Vec F S1x256x512 .f32 := iblk0 V c 0 t
abbrev gblk0 (c : Dev nD) (t : Fin cfg0.N) : Vec F S1x512x1408 .f32 := iblk0 V c 1 t
abbrev ublk0 (c : Dev nD) (t : Fin cfg0.N) : Vec F S1x512x1408 .f32 := iblk0 V c 2 t

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two running sums, point by point -/

/-- What the gate scratch and the up scratch hold after the body at position `n`: the cleared sums plus this point's
    products at the first step of a run, what the point before left plus this point's products elsewhere. -/
def acc0 (c : Dev nD) : (n : ℕ) → n < cfg0.N → Vec F S256x1408 .f32 × Vec F S256x1408 .f32
  | 0, hn => (k0_pay4 (xblk0 V c ⟨0, hn⟩) (gblk0 V c ⟨0, hn⟩) (k0_pay1 (F := F)), k0_pay5 (xblk0 V c ⟨0, hn⟩) (ublk0 V c ⟨0, hn⟩) (k0_pay2 (F := F)))
  | n + 1, hn =>
    if (n + 1) % 4 = 0 then
      (k0_pay4 (xblk0 V c ⟨n + 1, hn⟩) (gblk0 V c ⟨n + 1, hn⟩) (k0_pay1 (F := F)), k0_pay5 (xblk0 V c ⟨n + 1, hn⟩) (ublk0 V c ⟨n + 1, hn⟩) (k0_pay2 (F := F)))
    else
      (k0_pay4 (xblk0 V c ⟨n + 1, hn⟩) (gblk0 V c ⟨n + 1, hn⟩) (acc0 c n (Nat.lt_of_succ_lt hn)).1, k0_pay5 (xblk0 V c ⟨n + 1, hn⟩) (ublk0 V c ⟨n + 1, hn⟩) (acc0 c n (Nat.lt_of_succ_lt hn)).2)

theorem acc0_first (c : Dev nD) (t : Fin cfg0.N) (h0 : t.val % 4 = 0) :
    acc0 V c t.val t.isLt = (k0_pay4 (xblk0 V c t) (gblk0 V c t) (k0_pay1 (F := F)), k0_pay5 (xblk0 V c t) (ublk0 V c t) (k0_pay2 (F := F))) := by
  obtain ⟨n, hn⟩ := t
  cases n with
  | zero => rfl
  | succ n => exact if_pos h0

theorem acc0_step (c : Dev nD) (t : Fin cfg0.N) (h0 : ¬t.val % 4 = 0) :
    acc0 V c t.val t.isLt = (k0_pay4 (xblk0 V c t) (gblk0 V c t) (acc0 V c (t.val - 1) (Nat.lt_of_le_of_lt (Nat.sub_le _ _) t.isLt)).1, k0_pay5 (xblk0 V c t) (ublk0 V c t) (acc0 V c (t.val - 1) (Nat.lt_of_le_of_lt (Nat.sub_le _ _) t.isLt)).2) := by
  obtain ⟨n, hn⟩ := t
  cases n with
  | zero => exact absurd (Nat.zero_mod _) h0
  | succ n => exact if_neg h0

/-! ## The invariant -/

/-- A scoped buffer at contents nobody names. -/
abbrev anyBuf0 (c : Dev nD) (r : Ref sig .tc) : sProp 𝕄 :=
  iprop(∃ f : Buf (Elt F) ((c : Thread nD τ).loc r), ((c : Thread nD τ).loc r) ↦{fullShare} f)

/-- The scoped buffers the region neither stages through nor accumulates in. -/
def rest0 (c : Dev nD) : sProp 𝕄 :=
  iprop(anyBuf0 (F := F) c cc1_stg0_0 ∗ anyBuf0 (F := F) c cc1_stg0_1 ∗ anyBuf0 (F := F) c cc1_stg1_0 ∗ anyBuf0 (F := F) c cc1_stg1_1 ∗ anyBuf0 (F := F) c cc1_stg2_0 ∗ anyBuf0 (F := F) c cc1_stg2_1
    ∗ anyBuf0 (F := F) c cc1_scratch0)

/-- The class's invariant is those buffers, the two scratches at some contents, and the generator register. -/
theorem PhiA0_split (c : Dev nD) :
    (Pipeline.ΦA spec0 c : sProp 𝕄) ⊢ iprop(rest0 (F := F) c ∗ (∃ d, owns (c : Thread nD τ) scG0 fullShare d) ∗ (∃ d, owns (c : Thread nD τ) scU0 fullShare d) ∗ (∃ r, prngReg c r)) := by
  unfold Pipeline.ΦA rest0; rw [scopedRest0_eq]; simp only [scG0, scU0, owns_whole]
  iintro ⟨⟨HG, HU, H1, H2, H3, H4, H5, H6, H7⟩, Hp⟩
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  isplitl [HG]; · iexact HG
  isplitl [HU]; · iexact HU
  iexact Hp

theorem PhiA0_join (c : Dev nD) :
    iprop(rest0 (F := F) c ∗ (∃ d, owns (c : Thread nD τ) scG0 fullShare d) ∗ (∃ d, owns (c : Thread nD τ) scU0 fullShare d) ∗ (∃ r, prngReg c r)) ⊢ (Pipeline.ΦA spec0 c : sProp 𝕄) := by
  unfold Pipeline.ΦA rest0; rw [scopedRest0_eq]; simp only [scG0, scU0, owns_whole]
  iintro ⟨⟨H1, H2, H3, H4, H5, H6, H7⟩, HG, HU, Hp⟩
  isplitr [Hp]
  · isplitl [HG]; · iexact HG
    isplitl [HU]; · iexact HU
    isplitl [H1]; · iexact H1
    isplitl [H2]; · iexact H2
    isplitl [H3]; · iexact H3
    isplitl [H4]; · iexact H4
    isplitl [H5]; · iexact H5
    isplitl [H6]; · iexact H6
    iexact H7
  iexact Hp

/-- The region invariant before position `n`: the class's before the first point; afterwards the two scratches at what
    the point before left in them. -/
def Phi0 (c : Dev nD) : (n : ℕ) → n ≤ cfg0.N → sProp 𝕄
  | 0, _ => Pipeline.ΦA spec0 c
  | n + 1, hn => iprop(rest0 (F := F) c ∗ owns (c : Thread nD τ) scG0 fullShare (acc0 V c n hn).1 ∗ owns (c : Thread nD τ) scU0 fullShare (acc0 V c n hn).2 ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(rest0 (F := F) c ∗ owns (c : Thread nD τ) scG0 fullShare (acc0 V c n hn).1 ∗ owns (c : Thread nD τ) scU0 fullShare (acc0 V c n hn).2 ∗ (∃ r, prngReg c r)) := rfl
theorem Phi0_pos (c : Dev nD) (n : ℕ) (h : n ≤ cfg0.N) (hz : n ≠ 0) :
    Phi0 V c n h = iprop(rest0 (F := F) c ∗ owns (c : Thread nD τ) scG0 fullShare (acc0 V c (n - 1) (by omega)).1 ∗ owns (c : Thread nD τ) scU0 fullShare (acc0 V c (n - 1) (by omega)).2 ∗ (∃ r, prngReg c r)) := by
  cases n with
  | zero => exact absurd rfl hz
  | succ n => rfl

/-- Before any point the scratches are held at SOME contents (which is all the first step of a run needs). -/
theorem Phi0_any (c : Dev nD) (n : ℕ) (h : n ≤ cfg0.N) :
    Phi0 V c n h ⊢ iprop(rest0 (F := F) c ∗ (∃ d, owns (c : Thread nD τ) scG0 fullShare d) ∗ (∃ d, owns (c : Thread nD τ) scU0 fullShare d) ∗ (∃ r, prngReg c r)) := by
  cases n with
  | zero => exact PhiA0_split c
  | succ n =>
    rw [Phi0_succ]
    iintro ⟨Hr, HG, HU, Hp⟩
    isplitl [Hr]; · iexact Hr
    isplitl [HG]; · iexists _; iexact HG
    isplitl [HU]; · iexists _; iexact HU
    iexact Hp

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay6 (acc0 V c t.val t.isLt).1 (acc0 V c t.val t.isLt).2
  Φ t := Phi0 V c t.val (Nat.le_of_lt_succ t.isLt)
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay6 (acc0 V c t.val t.isLt).1 (acc0 V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: which of the three cases the point is in is read off its position in its run of four;
    the invariant hands the body the scratches at what the point before left (at anything, at the first step of a
    run) and takes them back at this point's sums. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  have hN : t.val < 512 := lt_of_lt_of_eq t.isLt N0
  by_cases h1 : t.val % 4 = 3
  · -- the last step of a run
    have h0 : ¬t.val % 4 = 0 := by omega
    have hz : t.val ≠ 0 := by omega
    rw [show (dat0 V c).leavesExact 3 t = owns (c : Thread nD τ) (ms0_3 t) fullShare ((dat0 V c).after 3 t) from by
      unfold Dat.leavesExact; rw [live0_3 t ((hcond0_1 t).mpr h1)], after0_3]
    rw [acc0_step V c t h0, Phi0_castSucc V c t, Phi0_pos V c _ _ hz]
    iintro ⟨⟨Hr, HG, HU, Hg⟩, Ho, ⟨%d0, H0⟩, ⟨%d1, H1⟩, ⟨%d2, H2⟩, ⟨%d3, H3⟩⟩
    iapply (run0_last c (grid0.coords t) _ (hs0_0 t) _ (hs0_1 t) _ (hs0_2 t) _ (hs0_3 t) _ (Memref.isWhole_whole _) _ (Memref.isWhole_whole _) (fun h => h0 ((hcond0_0 t).mp h)) ((hcond0_1 t).mpr h1)
        (xblk0 V c t) (gblk0 V c t) (ublk0 V c t) (acc0 V c (t.val - 1) (Nat.lt_of_le_of_lt (Nat.sub_le _ _) t.isLt)).1 (acc0 V c (t.val - 1) (Nat.lt_of_le_of_lt (Nat.sub_le _ _) t.isLt)).2 Set.univ _)
    isplitl [H0]; · iexact H0
    isplitl [H1]; · iexact H1
    isplitl [H2]; · iexact H2
    isplitl [H3]; · iexists _; iexact H3
    isplitl [HG]; · iexact HG
    isplitl [HU]; · iexact HU
    iintro ⟨H0, H1, H2, H3, HG, HU⟩
    isplitl [Hr HG HU Hg]
    · isplitl [Hr]; · iexact Hr
      isplitl [HG]; · iexact HG
      isplitl [HU]; · iexact HU
      iexact Hg
    isplitl [Ho]; · iexact Ho
    isplitl [H0]; · iexact H0
    isplitl [H1]; · iexact H1
    isplitl [H2]; · iexact H2
    iexact H3
  · rw [Dat.leavesExact_idle (dat0 V c) 3 t (idle0_3 t (fun h => h1 ((hcond0_1 t).mp h))) (noFlush0_3 t (fun h => h1 ((hcond0_1 t).mp h)))]
    by_cases h0 : t.val % 4 = 0
    · -- the first step of a run
      rw [acc0_first V c t h0, Phi0_castSucc V c t]
      iintro ⟨HΦ, Ho, ⟨%d0, H0⟩, ⟨%d1, H1⟩, ⟨%d2, H2⟩, ⟨%d3, H3⟩⟩
      ihave HΦ' := (Phi0_any V c t.val (Nat.le_of_lt t.isLt)) $$ HΦ
      icases HΦ' with ⟨Hr, HG, HU, Hg⟩
      iapply (run0_first c (grid0.coords t) _ (hs0_0 t) _ (hs0_1 t) _ (hs0_2 t) _ (hs0_3 t) _ (Memref.isWhole_whole _) _ (Memref.isWhole_whole _) ((hcond0_0 t).mpr h0) (fun h => h1 ((hcond0_1 t).mp h))
        (xblk0 V c t) (gblk0 V c t) (ublk0 V c t) ((dat0 V c).before 3 t d3) Set.univ _)
      isplitl [H0]; · iexact H0
      isplitl [H1]; · iexact H1
      isplitl [H2]; · iexact H2
      isplitl [H3]; · iexact H3
      isplitl [HG]; · iexact HG
      isplitl [HU]; · iexact HU
      iintro ⟨H0, H1, H2, H3, HG, HU⟩
      isplitl [Hr HG HU Hg]
      · isplitl [Hr]; · iexact Hr
        isplitl [HG]; · iexact HG
        isplitl [HU]; · iexact HU
        iexact Hg
      isplitl [Ho]; · iexact Ho
      isplitl [H0]; · iexact H0
      isplitl [H1]; · iexact H1
      isplitl [H2]; · iexact H2
      iexists _; iexact H3
    · -- a middle step
      have hz : t.val ≠ 0 := fun e => h0 (by rw [e])
      rw [acc0_step V c t h0, Phi0_castSucc V c t, Phi0_pos V c _ _ hz]
      iintro ⟨⟨Hr, HG, HU, Hg⟩, Ho, ⟨%d0, H0⟩, ⟨%d1, H1⟩, ⟨%d2, H2⟩, ⟨%d3, H3⟩⟩
      iapply (run0_mid c (grid0.coords t) _ (hs0_0 t) _ (hs0_1 t) _ (hs0_2 t) _ (hs0_3 t) _ (Memref.isWhole_whole _) _ (Memref.isWhole_whole _) (fun h => h0 ((hcond0_0 t).mp h)) (fun h => h1 ((hcond0_1 t).mp h))
        (xblk0 V c t) (gblk0 V c t) (ublk0 V c t) ((dat0 V c).before 3 t d3) (acc0 V c (t.val - 1) (Nat.lt_of_le_of_lt (Nat.sub_le _ _) t.isLt)).1 (acc0 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [HG]; · iexact HG
      isplitl [HU]; · iexact HU
      iintro ⟨H0, H1, H2, H3, HG, HU⟩
      isplitl [Hr HG HU Hg]
      · isplitl [Hr]; · iexact Hr
        isplitl [HG]; · iexact HG
        isplitl [HU]; · iexact HU
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- and the invariant after the last point gives it back, the sums' names forgotten. -/
theorem hout0 (c : Dev nD) : (dat0 V c).Φ (Fin.last cfg0.N) ⊢ Pipeline.ΦA spec0 c := by
  rw [show (dat0 V c).Φ (Fin.last cfg0.N) = Phi0 V c cfg0.N (Nat.le_refl _) from rfl]
  exact (Phi0_any V c _ _).trans (PhiA0_join c)

end Region

end Cert.KernelIdeal.Hand

end
-- ==== Proof.Ideal.Body1.lean ====
/-
  The down-projection kernel's body at one grid point, in each of the three ways its two branches go.

  The body keeps a running sum in a scratch buffer: at the first step of the reduction axis it clears the
  scratch, at every step it adds the product of the activation block and the weight block to it, and at the
  last step it copies the sum into the output block. Each lemma says what the scratch (and, at the last step,
  the output block) holds afterwards as a function of the two input blocks and of what the scratch held:
  `k1_pay2 a w s` is `s + a·w`, `k1_pay1` the cleared scratch, `k1_pay3` the sum laid out as the output block.
  The input blocks are handed back as found, and the output block is not touched before the last step.
-/
import proofs.«132357_j6614249635977_1_alg».proof.Proof.Gen.KernelIdeal.Launch
import proofs.«132357_j6614249635977_1_alg».proof.Proof.Gen.KernelIdeal.Skeleton
import proofs.«132357_j6614249635977_1_alg».proof.Proof.Gen.KernelIdeal.Points
import proofs.«132357_j6614249635977_1_alg».proof.Proof.LibWholeStore
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open WholeStore

variable {F : FTy → Type} [FloatOps F]

local notation "𝕄" => MT nD τ sig Unit (Elt F) ℕ (UR sig nD τ) ℕ

/-- The reduction coordinate is at its first step: the body clears the running sum. -/
abbrev cond1_0 (i : grid1.Coords) : Prop := (Scalar.cmpi .ne (Scalar.extui (Scalar.cmpi .eq (BitVec.ofNat 32 (i 2).val) 0#32)) 0#32) = 1#1
/-- The reduction coordinate is at its last step: the body writes the sum out. -/
abbrev cond1_1 (i : grid1.Coords) : Prop := k1_cond2 i = 1#1

set_option maxHeartbeats 1000000 in
/-- First step: the scratch, whatever it held, ends at the product alone added to the cleared sum. -/
theorem run1_first (c : Dev nD) (i : grid1.Coords) (arg3 : Memref sig .tc .vmem S1x512x512 .bf16) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S512x2048 .f32) (harg6 : arg6.IsWhole)
    (hc0 : cond1_0 i) (hc1 : ¬cond1_1 i)
    (a : Vec F S1x512x512 .bf16) (w : Vec F S1x512x2048 .f32) (xo : Vec F S1x512x2048 .f32)
    (E : Set ℕ) (K : PUnit → sProp 𝕄) :
    iprop(owns (c : Thread nD τ) arg3 fullShare a ∗ owns (c : Thread nD τ) arg4 fullShare w ∗ owns (c : Thread nD τ) arg5 fullShare xo ∗ (∃ d, owns (c : Thread nD τ) arg6 fullShare d)
        ∗ (iprop(owns (c : Thread nD τ) arg3 fullShare a ∗ owns (c : Thread nD τ) arg4 fullShare w ∗ owns (c : Thread nD τ) arg5 fullShare xo ∗ owns (c : Thread nD τ) arg6 fullShare (k1_pay2 a w (k1_pay1 (F := F)))) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_words
  rw [View.read_writes_eq_canon _ _ _ (cover_cons zero2 _ _ _), View.canon_cons_unit_zero zero2]
  simp only [View.readAt_eq_ld, harg3.read_unread, harg4.read_unread,
    View.ld_unit_zero (S := S1x512x512) zero3, View.ld_unit_zero (S := S1x512x2048) zero3, View.ld_unit_zero (S := S512x2048) zero2,
    View.readCov_unit_zero (S := S512x2048) _ zero2]

set_option maxHeartbeats 1000000 in
/-- A middle step: the scratch at `s` ends at `s` plus the product. -/
theorem run1_mid (c : Dev nD) (i : grid1.Coords) (arg3 : Memref sig .tc .vmem S1x512x512 .bf16) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S512x2048 .f32) (harg6 : arg6.IsWhole)
    (hc0 : ¬cond1_0 i) (hc1 : ¬cond1_1 i)
    (a : Vec F S1x512x512 .bf16) (w : Vec F S1x512x2048 .f32) (xo : Vec F S1x512x2048 .f32) (s : Vec F S512x2048 .f32)
    (E : Set ℕ) (K : PUnit → sProp 𝕄) :
    iprop(owns (c : Thread nD τ) arg3 fullShare a ∗ owns (c : Thread nD τ) arg4 fullShare w ∗ owns (c : Thread nD τ) arg5 fullShare xo ∗ owns (c : Thread nD τ) arg6 fullShare s
        ∗ (iprop(owns (c : Thread nD τ) arg3 fullShare a ∗ owns (c : Thread nD τ) arg4 fullShare w ∗ owns (c : Thread nD τ) arg5 fullShare xo ∗ owns (c : Thread nD τ) arg6 fullShare (k1_pay2 a w s)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [View.read_writes_eq_canon _ _ _ (cover_one zero2 _ _), View.canon_unit_zero zero2]
  simp only [View.readAt_eq_ld, harg3.read_unread, harg4.read_unread, harg6.read_unread,
    View.ld_unit_zero (S := S1x512x512) zero3, View.ld_unit_zero (S := S1x512x2048) zero3, View.ld_unit_zero (S := S512x2048) zero2,
    View.readCov_unit_zero (S := S512x2048) _ zero2]

set_option maxHeartbeats 1000000 in
/-- Last step: the scratch at `s` ends at `s` plus the product, and the output block, whatever it held, at that sum. -/
theorem run1_last (c : Dev nD) (i : grid1.Coords) (arg3 : Memref sig .tc .vmem S1x512x512 .bf16) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S512x2048 .f32) (harg6 : arg6.IsWhole)
    (hc0 : ¬cond1_0 i) (hc1 : cond1_1 i)
    (a : Vec F S1x512x512 .bf16) (w : Vec F S1x512x2048 .f32) (s : Vec F S512x2048 .f32)
    (E : Set ℕ) (K : PUnit → sProp 𝕄) :
    iprop(owns (c : Thread nD τ) arg3 fullShare a ∗ owns (c : Thread nD τ) arg4 fullShare w ∗ (∃ d, owns (c : Thread nD τ) arg5 fullShare d) ∗ owns (c : Thread nD τ) arg6 fullShare s
        ∗ (iprop(owns (c : Thread nD τ) arg3 fullShare a ∗ owns (c : Thread nD τ) arg4 fullShare w ∗ owns (c : Thread nD τ) arg5 fullShare (k1_pay3 (k1_pay2 a w s)) ∗ owns (c : Thread nD τ) arg6 fullShare (k1_pay2 a w s)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [View.read_writes_eq_canon _ _ _ (cover_cons zero3 _ _ _), View.canon_cons_unit_zero zero3]
    simp only [View.readAt_eq_ld, harg3.read_unread, harg4.read_unread, harg6.read_unread,
    View.ld_unit_zero (S := S1x512x512) zero3, View.ld_unit_zero (S := S1x512x2048) zero3, View.ld_unit_zero (S := S512x2048) zero2,
    View.readCov_unit_zero (S := S512x2048) _ zero2]
  iexists _; isplitr
  swap; · iexact HS
  ipureintro
  sl_unfold_words
  rw [View.read_writes_eq_canon _ _ _ (cover_cons zero2 _ _ _), View.canon_cons_unit_zero zero2]
  simp only [View.readAt_eq_ld, harg3.read_unread, harg4.read_unread, harg6.read_unread,
    View.ld_unit_zero (S := S1x512x512) zero3, View.ld_unit_zero (S := S1x512x2048) zero3, View.ld_unit_zero (S := S512x2048) zero2,
    View.readCov_unit_zero (S := S512x2048) _ zero2]

end Cert.KernelIdeal.Hand

end
-- ==== Proof.Ideal.Region1.lean ====
/-
  The down-projection region, over the buffer contents `V` it is entered from.

  Its grid is (expert, token tile, reduction step), the reduction step fastest: a run of eleven consecutive
  points shares one output block and walks the eleven blocks of the contracted axis. The running sum the body
  keeps in its scratch is therefore a recursion on the point: `acc1` restarts from the cleared sum at the
  points divisible by eleven and otherwise adds this point's product to what the point before left. The output
  window's staging buffer receives the sum (laid out as a block) at the last point of each run, the only points
  at which the pipeline writes it back; at the others the body does not touch it. The region's invariant holds
  the scratch at `acc1` of the point before and every other scoped buffer at contents nobody names.
-/
import proofs.«132357_j6614249635977_1_alg».proof.Proof.Gen.KernelIdeal.Launch
import proofs.«132357_j6614249635977_1_alg».proof.Proof.Gen.KernelIdeal.Skeleton
import proofs.«132357_j6614249635977_1_alg».proof.Proof.Gen.KernelIdeal.Points
import proofs.«132357_j6614249635977_1_alg».proof.Proof.LibWholeStore
import proofs.«132357_j6614249635977_1_alg».proof.Proof.Ideal.Body1
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open WholeStore

variable {F : FTy → Type} [FloatOps F]

local notation "𝕄" => MT nD τ sig Unit (Elt F) ℕ (UR sig nD τ) ℕ

/-! ## The schedule in closed form -/

theorem N1 : cfg1.N = 176 := N_1

theorem hcond1_0 : ∀ t : Fin cfg1.N, cond1_0 (grid1.coords t) ↔ t.val % 11 = 0 :=
  (by decide +kernel : ∀ t : Fin grid1.N, cond1_0 (grid1.coords t) ↔ t.val % 11 = 0)
theorem hcond1_1 : ∀ t : Fin cfg1.N, cond1_1 (grid1.coords t) ↔ t.val % 11 = 10 :=
  (by decide +kernel : ∀ t : Fin grid1.N, cond1_1 (grid1.coords t) ↔ t.val % 11 = 10)
/-- The input windows are never idle; the output window is idle, and not written back, exactly off the last step. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem live1_2 : ∀ t : Fin cfg1.N, cond1_1 (grid1.coords t) → cfg1.idle 2 (grid1.coords t) = false := by decide +kernel

/-! ## The memrefs the body is called with -/

abbrev ms1_0 (t : Fin cfg1.N) : Memref sig .tc .vmem S1x512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x2048 .f32 := win1_2.stage (cfg1.slots t 2)
abbrev hs1_2 (t : Fin cfg1.N) : (ms1_2 t).IsWhole := hstage1_2 ((cfg1.slots t 2).cast nbuf1_2)
/-- The scratch that carries the running sum. -/
abbrev scM1 : Memref sig .tc .vmem S512x2048 .f32 := Memref.whole cc1_scratch0

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation block and the weight block of point `t`, at their literal types. -/
abbrev ablk1 (c : Dev nD) (t : Fin cfg1.N) : Vec F S1x512x512 .bf16 := iblk1 V c 0 t
abbrev wblk1 (c : Dev nD) (t : Fin cfg1.N) : Vec F S1x512x2048 .f32 := iblk1 V c 1 t

/-- An input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The running sum, point by point -/

/-- What the scratch holds after the body at position `n`: the cleared sum plus this point's product at the first
    step of a run, what the point before left plus this point's product elsewhere. -/
def acc1 (c : Dev nD) : (n : ℕ) → n < cfg1.N → Vec F S512x2048 .f32
  | 0, hn => k1_pay2 (ablk1 V c ⟨0, hn⟩) (wblk1 V c ⟨0, hn⟩) (k1_pay1 (F := F))
  | n + 1, hn =>
    if (n + 1) % 11 = 0 then k1_pay2 (ablk1 V c ⟨n + 1, hn⟩) (wblk1 V c ⟨n + 1, hn⟩) (k1_pay1 (F := F))
    else k1_pay2 (ablk1 V c ⟨n + 1, hn⟩) (wblk1 V c ⟨n + 1, hn⟩) (acc1 c n (Nat.lt_of_succ_lt hn))

theorem acc1_first (c : Dev nD) (t : Fin cfg1.N) (h0 : t.val % 11 = 0) :
    acc1 V c t.val t.isLt = k1_pay2 (ablk1 V c t) (wblk1 V c t) (k1_pay1 (F := F)) := by
  obtain ⟨n, hn⟩ := t
  cases n with
  | zero => rfl
  | succ n => exact if_pos h0

theorem acc1_step (c : Dev nD) (t : Fin cfg1.N) (h0 : ¬t.val % 11 = 0) :
    acc1 V c t.val t.isLt = k1_pay2 (ablk1 V c t) (wblk1 V c t) (acc1 V c (t.val - 1) (Nat.lt_of_le_of_lt (Nat.sub_le _ _) t.isLt)) := by
  obtain ⟨n, hn⟩ := t
  cases n with
  | zero => exact absurd (Nat.zero_mod _) h0
  | succ n => exact if_neg h0

/-! ## The invariant -/

/-- A scoped buffer at contents nobody names. -/
abbrev anyBuf (c : Dev nD) (r : Ref sig .tc) : sProp 𝕄 :=
  iprop(∃ f : Buf (Elt F) ((c : Thread nD τ).loc r), ((c : Thread nD τ).loc r) ↦{fullShare} f)

/-- The scoped buffers the region neither stages through nor accumulates in. -/
def rest1 (c : Dev nD) : sProp 𝕄 :=
  iprop(anyBuf (F := F) c cc0_stg0_0 ∗ anyBuf (F := F) c cc0_stg0_1 ∗ anyBuf (F := F) c cc0_stg1_0 ∗ anyBuf (F := F) c cc0_stg1_1 ∗ anyBuf (F := F) c cc0_stg2_0 ∗ anyBuf (F := F) c cc0_stg2_1
    ∗ anyBuf (F := F) c cc0_stg3_0 ∗ anyBuf (F := F) c cc0_stg3_1 ∗ anyBuf (F := F) c cc0_scratch0 ∗ anyBuf (F := F) c cc0_scratch1)

/-- The class's invariant is those buffers, the scratch at some contents, and the generator register. -/
theorem PhiA1_split (c : Dev nD) :
    (Pipeline.ΦA spec1 c : sProp 𝕄) ⊢ iprop(rest1 (F := F) c ∗ (∃ d, owns (c : Thread nD τ) scM1 fullShare d) ∗ (∃ r, prngReg c r)) := by
  unfold Pipeline.ΦA rest1; rw [scopedRest1_eq]; simp only [scM1, owns_whole]
  iintro ⟨⟨H1, H2, H3, H4, H5, H6, H7, H8, H9, H10, HS⟩, Hp⟩
  isplitl [H1 H2 H3 H4 H5 H6 H7 H8 H9 H10]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [HS]; · iexact HS
  iexact Hp

theorem PhiA1_join (c : Dev nD) :
    iprop(rest1 (F := F) c ∗ (∃ d, owns (c : Thread nD τ) scM1 fullShare d) ∗ (∃ r, prngReg c r)) ⊢ (Pipeline.ΦA spec1 c : sProp 𝕄) := by
  unfold Pipeline.ΦA rest1; rw [scopedRest1_eq]; simp only [scM1, owns_whole]
  iintro ⟨⟨H1, H2, H3, H4, H5, H6, H7, H8, H9, H10⟩, HS, Hp⟩
  isplitr [Hp]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iexact Hp

/-- The region invariant before position `n`: the class's before the first point; afterwards the scratch at what the
    point before left in it. -/
def Phi1 (c : Dev nD) : (n : ℕ) → n ≤ cfg1.N → sProp 𝕄
  | 0, _ => Pipeline.ΦA spec1 c
  | n + 1, hn => iprop(rest1 (F := F) c ∗ owns (c : Thread nD τ) scM1 fullShare (acc1 V c n hn) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(rest1 (F := F) c ∗ owns (c : Thread nD τ) scM1 fullShare (acc1 V c n hn) ∗ (∃ r, prngReg c r)) := rfl
theorem Phi1_pos (c : Dev nD) (n : ℕ) (h : n ≤ cfg1.N) (hz : n ≠ 0) :
    Phi1 V c n h = iprop(rest1 (F := F) c ∗ owns (c : Thread nD τ) scM1 fullShare (acc1 V c (n - 1) (by omega)) ∗ (∃ r, prngReg c r)) := by
  cases n with
  | zero => exact absurd rfl hz
  | succ n => rfl

/-- Before any point the scratch is held at SOME contents (which is all the first step of a run needs). -/
theorem Phi1_any (c : Dev nD) (n : ℕ) (h : n ≤ cfg1.N) :
    Phi1 V c n h ⊢ iprop(rest1 (F := F) c ∗ (∃ d, owns (c : Thread nD τ) scM1 fullShare d) ∗ (∃ r, prngReg c r)) := by
  cases n with
  | zero => exact PhiA1_split c
  | succ n =>
    rw [Phi1_succ]
    iintro ⟨Hr, HS, Hp⟩
    isplitl [Hr]; · iexact Hr
    isplitl [HS]; · iexists _; iexact HS
    iexact Hp

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: which of the three cases the point is in is read off its position in its run of eleven;
    the invariant hands the body the scratch at what the point before left (at anything, at the first step of a run)
    and takes it back at this point's sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 176 := lt_of_lt_of_eq t.isLt N1
  by_cases h1 : t.val % 11 = 10
  · -- the last step of a run
    have h0 : ¬t.val % 11 = 0 := by omega
    have hz : t.val ≠ 0 := by omega
    rw [show (dat1 V c).leavesExact 2 t = owns (c : Thread nD τ) (ms1_2 t) fullShare ((dat1 V c).after 2 t) from by
      unfold Dat.leavesExact; rw [live1_2 t ((hcond1_1 t).mpr h1)], after1_2]
    rw [acc1_step V c t h0, Phi1_castSucc V c t, Phi1_pos V c _ _ hz]
    iintro ⟨⟨Hr, HS, Hg⟩, Ho, ⟨%d0, H0⟩, ⟨%d1, H1⟩, ⟨%d2, H2⟩⟩
    iapply (run1_last c (grid1.coords t) _ (hs1_0 t) _ (hs1_1 t) _ (hs1_2 t) _ (Memref.isWhole_whole _) (fun h => h0 ((hcond1_0 t).mp h)) ((hcond1_1 t).mpr h1)
      (ablk1 V c t) (wblk1 V c t) (acc1 V c (t.val - 1) (Nat.lt_of_le_of_lt (Nat.sub_le _ _) t.isLt)) Set.univ _)
    isplitl [H0]; · iexact H0
    isplitl [H1]; · iexact H1
    isplitl [H2]; · iexists _; iexact H2
    isplitl [HS]; · iexact HS
    iintro ⟨H0, H1, H2, HS⟩
    isplitl [Hr HS Hg]
    · isplitl [Hr]; · iexact Hr
      isplitl [HS]; · iexact HS
      iexact Hg
    isplitl [Ho]; · iexact Ho
    isplitl [H0]; · iexact H0
    isplitl [H1]; · iexact H1
    iexact H2
  · rw [Dat.leavesExact_idle (dat1 V c) 2 t (idle1_2 t (fun h => h1 ((hcond1_1 t).mp h))) (noFlush1_2 t (fun h => h1 ((hcond1_1 t).mp h)))]
    by_cases h0 : t.val % 11 = 0
    · -- the first step of a run
      rw [acc1_first V c t h0, Phi1_castSucc V c t]
      iintro ⟨HΦ, Ho, ⟨%d0, H0⟩, ⟨%d1, H1⟩, ⟨%d2, H2⟩⟩
      ihave HΦ' := (Phi1_any V c t.val (Nat.le_of_lt t.isLt)) $$ HΦ
      icases HΦ' with ⟨Hr, HS, Hg⟩
      iapply (run1_first c (grid1.coords t) _ (hs1_0 t) _ (hs1_1 t) _ (hs1_2 t) _ (Memref.isWhole_whole _) ((hcond1_0 t).mpr h0) (fun h => h1 ((hcond1_1 t).mp h))
        (ablk1 V c t) (wblk1 V c t) ((dat1 V c).before 2 t d2) Set.univ _)
      isplitl [H0]; · iexact H0
      isplitl [H1]; · iexact H1
      isplitl [H2]; · iexact H2
      isplitl [HS]; · iexact HS
      iintro ⟨H0, H1, H2, HS⟩
      isplitl [Hr HS Hg]
      · isplitl [Hr]; · iexact Hr
        isplitl [HS]; · iexact HS
        iexact Hg
      isplitl [Ho]; · iexact Ho
      isplitl [H0]; · iexact H0
      isplitl [H1]; · iexact H1
      iexists _; iexact H2
    · -- a middle step
      have hz : t.val ≠ 0 := fun e => h0 (by rw [e])
      rw [acc1_step V c t h0, Phi1_castSucc V c t, Phi1_pos V c _ _ hz]
      iintro ⟨⟨Hr, HS, Hg⟩, Ho, ⟨%d0, H0⟩, ⟨%d1, H1⟩, ⟨%d2, H2⟩⟩
      iapply (run1_mid c (grid1.coords t) _ (hs1_0 t) _ (hs1_1 t) _ (hs1_2 t) _ (Memref.isWhole_whole _) (fun h => h0 ((hcond1_0 t).mp h)) (fun h => h1 ((hcond1_1 t).mp h))
        (ablk1 V c t) (wblk1 V c t) ((dat1 V c).before 2 t d2) (acc1 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [Hr HS Hg]
      · isplitl [Hr]; · iexact Hr
        isplitl [HS]; · iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- and the invariant after the last point gives it back, the sum's name forgotten. -/
theorem hout1 (c : Dev nD) : (dat1 V c).Φ (Fin.last cfg1.N) ⊢ Pipeline.ΦA spec1 c := by
  rw [show (dat1 V c).Φ (Fin.last cfg1.N) = Phi1 V c cfg1.N (Nat.le_refl _) from rfl]
  exact (Phi1_any V c _ _).trans (PhiA1_join c)

end Region

end Cert.KernelIdeal.Hand

end
-- ==== Proof.Ideal.Run.lean ====
/-
  The two regions in sequence: the contents of every unscoped buffer at each boundary of the program, each
  region as a segment entered from one boundary and left at the next, and the launch.

  Between the first reshape and the gate/up region every buffer holds its launch contents but the reshaped
  tokens; the gate/up region changes only the activation array, to what its write-backs leave; the down region
  changes only its output array likewise; the last reshape writes the result. The gate and the up windows read
  one array: on entry the region is handed that array's two half shares, one per window, and gives both back
  on exit.
-/
import proofs.«132357_j6614249635977_1_alg».proof.Proof.Gen.KernelIdeal.Launch
import proofs.«132357_j6614249635977_1_alg».proof.Proof.Gen.KernelIdeal.Skeleton
import proofs.«132357_j6614249635977_1_alg».proof.Proof.Gen.KernelIdeal.Points
import proofs.«132357_j6614249635977_1_alg».proof.Proof.LibWholeStore
import proofs.«132357_j6614249635977_1_alg».proof.Proof.Ideal.Region0
import proofs.«132357_j6614249635977_1_alg».proof.Proof.Ideal.Region1
import Idealize.ShloMosaic.Lib.Pipeline.RegionsLoop
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open WholeStore

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch. -/
abbrev W0 (c : Dev nD) : Valuation τ sig (Elt F) := fun b => m (c, b)
/-- After the first reshape (the gate/up region's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the gate/up region: the activation array at what its write-backs leave, every other buffer as entered. -/
def W2 (c : Dev nD) : Valuation τ sig (Elt F) :=
  Function.update (W1 m c) (Proc.devRef .tc main_v1) ((dat0 (V1 m) c).arrAt 3 cfg0.N)
abbrev V2 : (c : Dev nD) → (b : Ref sig .tc) → Buf (Elt F) ((c : Thread nD τ).loc b) := fun c b => W2 m c b
/-- After the down region: its output array at what its write-backs leave, every other buffer as entered. -/
def W3 (c : Dev nD) : Valuation τ sig (Elt F) :=
  Function.update (W2 m c) (Proc.devRef .tc main_v2) ((dat1 (V2 m) c).arrAt 2 cfg1.N)
abbrev V3 : (c : Dev nD) → (b : Ref sig .tc) → Buf (Elt F) ((c : Thread nD τ).loc b) := fun c b => W3 m c b
/-- After the last reshape. -/
abbrev W4 (c : Dev nD) : Valuation τ sig (Elt F) := StableHlo.after hostOps2 (W3 m c)

theorem W2_v1 (c : Dev nD) : W2 m c (Proc.devRef .tc main_v1) = (dat0 (V1 m) c).arrAt 3 cfg0.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..
theorem W3_v2 (c : Dev nD) : W3 m c (Proc.devRef .tc main_v2) = (dat1 (V2 m) c).arrAt 2 cfg1.N := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..

/-! ## The gate/up region's arrays, two windows on one array -/

section Arrays0
variable (V : (c : Dev nD) → (b : Ref sig .tc) → Buf (Elt F) ((c : Thread nD τ).loc b))

/-- The shares the region holds its arrays at: the tokens and the activation whole, the fused weight at one half per window. -/
theorem share0_0 (c : Dev nD) : (dat0 V c).share 0 = fullShare := by
  unfold Dat.share; rw [if_neg (show ¬(cfg0.win 0).isOut = true by decide)]; dsimp only [dat0]; rfl
theorem share0_1 (c : Dev nD) : (dat0 V c).share 1 = fullShare.left := by
  unfold Dat.share; rw [if_neg (show ¬(cfg0.win 1).isOut = true by decide)]; dsimp only [dat0]; rfl
theorem share0_2 (c : Dev nD) : (dat0 V c).share 2 = fullShare.right := by
  unfold Dat.share; rw [if_neg (show ¬(cfg0.win 2).isOut = true by decide)]; dsimp only [dat0]; rfl
theorem share0_3 (c : Dev nD) : (dat0 V c).share 3 = fullShare := by
  unfold Dat.share; rw [if_pos (show (cfg0.win 3).isOut = true by decide)]

/-- The region's arrays, window by window. -/
theorem arrays0_eq (c : Dev nD) (G : (w : Fin cfg0.W) → Buf (Elt F) ((cfg0.win w).arr.view.loc (c : Thread nD τ))) :
    ((dat0 V c).arrays G : sProp 𝕄)
      = iprop((((c : Thread nD τ).loc (Pipeline.arrRef spec0 0)) ↦{fullShare} G 0) ∗ (((c : Thread nD τ).loc (Pipeline.arrRef spec0 1)) ↦{fullShare.left} G 1)
          ∗ (((c : Thread nD τ).loc (Pipeline.arrRef spec0 2)) ↦{fullShare.right} G 2) ∗ (((c : Thread nD τ).loc (Pipeline.arrRef spec0 3)) ↦{fullShare} G 3)) := by
  unfold Dat.arrays
  rw [bigSep_W0, share0_0, share0_1, share0_2, share0_3]
  simp only [(arr_whole0 0).set_eq_univ, (arr_whole0 1).set_eq_univ, (arr_whole0 2).set_eq_univ, (arr_whole0 3).set_eq_univ]
  try rfl

/-- The buffers behind the region's arrays, listed. -/
theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v0) ↦{fullShare} X main_v0) ∗ (((c : Thread nD τ).loc main_arg1) ↦{fullShare} X main_arg1)
          ∗ (((c : Thread nD τ).loc main_v1) ↦{fullShare} X main_v1)) := by
  unfold Pipeline.arrBufs
  exact bigSep_eq_bigSepL_of_eq [main_v0, main_arg1, main_v1] (by decide) (by decide) _

end Arrays0

/-! ## The gate/up region's entry and exit, over every unscoped buffer -/

theorem arrAt0_zero (V : (c : Dev nD) → (b : Ref sig .tc) → Buf (Elt F) ((c : Thread nD τ).loc b)) (c : Dev nD) (w : Fin cfg0.W) :
    (dat0 V c).arrAt w 0 = V c (Pipeline.arrRef spec0 w) := A_eq0 V c w

/-- ENTRY: the core's unscoped buffers at the first boundary's contents are the region's arrays — the fused weight
    dealt as its two halves — and the buffers the region bypasses. -/
theorem entry0 (c : Dev nD) :
    (StableHlo.held (c : Thread nD τ) (Pipeline.ucRefs τ sig) (W1 m c) : sProp 𝕄)
      ⊢ iprop((dat0 (V1 m) c).arrays ((dat0 (V1 m) c).arrAt · 0) ∗ Pipeline.unscopedRest spec0 c (V1 m c)) := by
  rw [← Pipeline.unscopedBufs_held c (W1 m c), Pipeline.unscopedBufs_split₀ cfgs 0 winFacts₀0.arr_unscoped c]
  change iprop(Pipeline.arrBufs spec0 c (V1 m c) ∗ Pipeline.unscopedRest spec0 c (V1 m c)) ⊢ _
  rw [arrBufs0_eq, arrays0_eq]
  simp only [arrAt0_zero]
  iintro ⟨⟨H0, H1, H3⟩, Hrest⟩
  ihave H1' := (pointsTo_share (PosShare.mem_left_op_right fullShare)).1 $$ H1
  icases H1' with ⟨H1l, H1r⟩
  isplitr [Hrest]
  · isplitl [H0]; · iexact H0
    isplitl [H1l]; · iexact H1l
    isplitl [H1r]; · iexact H1r
    iexact H3
  iexact Hrest

/-- The buffers the region bypasses hold at its exit what they held at its entry. -/
theorem rest0_eq (c : Dev nD) :
    (Pipeline.unscopedRest (Ix := Unit) (Name := ℕ) (U := UR sig nD τ) (Lvl := ℕ) spec0 c (V2 m c) : sProp 𝕄)
      = Pipeline.unscopedRest spec0 c (V1 m c) := by
  unfold Pipeline.unscopedRest
  exact bigSep_congr fun b hb => by
    have hne : b ≠ main_v1 := fun e => (Finset.mem_sdiff.mp hb).2 (e ▸ Finset.mem_image.mpr ⟨3, Finset.mem_univ _, rfl⟩)
    rw [show V2 m c b = V1 m c b from W2_of_ne m c b hne]

/-- EXIT: the region's arrays after its write-backs — the two halves of the fused weight joined again — and the
    bypassed buffers are the core's unscoped buffers at the second boundary's contents. -/
theorem exit0 (c : Dev nD) :
    iprop((dat0 (V1 m) c).arrays ((dat0 (V1 m) c).arrAt · cfg0.N) ∗ Pipeline.unscopedRest spec0 c (V1 m c))
      ⊢ (StableHlo.held (c : Thread nD τ) (Pipeline.ucRefs τ sig) (W2 m c) : sProp 𝕄) := by
  rw [← Pipeline.unscopedBufs_held c (W2 m c), Pipeline.unscopedBufs_split₀ cfgs 0 winFacts₀0.arr_unscoped c]
  change _ ⊢ iprop(Pipeline.arrBufs spec0 c (V2 m c) ∗ Pipeline.unscopedRest spec0 c (V2 m c))
  rw [arrBufs0_eq, arrays0_eq,
    (dat0 (V1 m) c).arrAt_in 0 rfl, (dat0 (V1 m) c).arrAt_in 1 rfl, (dat0 (V1 m) c).arrAt_in 2 rfl, rest0_eq]
  simp only [A_eq0, W2_v1, W2_of_ne m c main_v0 (by decide), W2_of_ne m c main_arg1 (by decide)]
  iintro ⟨⟨H0, H1l, H1r, H3⟩, Hrest⟩
  ihave H1 := (pointsTo_share (PosShare.mem_left_op_right fullShare)).2 $$ [H1l H1r]
  · isplitl [H1l]; · iexact H1l
    iexact H1r
  isplitr [Hrest]
  · isplitl [H0]; · iexact H0
    isplitl [H1]; · iexact H1
    iexact H3
  iexact Hrest

/-! ## The down region's exit contents -/

theorem hF1 (c : Dev nD) (w : Fin cfg1.W) : (dat1 (V2 m) c).arrAt w cfg1.N = V3 m c (Pipeline.arrRef spec1 w) := by
  match w with
  | ⟨0, _⟩ => exact ((dat1 (V2 m) c).arrAt_in 0 rfl _).trans ((A_eq1 (V2 m) c 0).trans (W3_of_ne m c main_v1 (by decide)).symm)
  | ⟨1, _⟩ => exact ((dat1 (V2 m) c).arrAt_in 1 rfl _).trans ((A_eq1 (V2 m) c 1).trans (W3_of_ne m c main_arg2 (by decide)).symm)
  | ⟨2, _⟩ => exact (W3_v2 m c).symm
theorem hrest1 (c : Dev nD) : ∀ b, b ∉ Finset.univ.image (Pipeline.arrRef spec1) → V3 m c b = V2 m c b :=
  fun b hb => W3_of_ne m c b fun e => hb (e ▸ Finset.mem_image.mpr ⟨2, Finset.mem_univ _, rfl⟩)

/-! ## The proof data family and the thread state -/

/-- No pipeline has a prefetched table. -/
abbrev tabs : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) tabs p) c
  | ⟨0, _⟩ => fun c => dat0 (V1 m) c
  | ⟨1, _⟩ => fun c => dat1 (V2 m) c
abbrev 𝒱ₙ : Variants := Variants.none
/-- No core owes another anything: no level is assigned. -/
abbrev Lₙ : GSem nD τ sig → Finset Unit := fun _ => ∅
abbrev lvₙ : GSem nD τ sig → Unit → ℕ := fun _ _ => 0
/-- What rides beside the buffers through every segment: the generator register at some state and the core owing nothing. -/
abbrev Rd (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ Lₙ lvₙ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The class's invariant, opened. -/
theorem PhiA_open0 (c : Dev nD) : (Pipeline.ΦA spec0 c : sProp 𝕄) ⊢ iprop(Pipeline.scopedRest spec0 c ∗ ∃ r, prngReg c r) := by
  unfold Pipeline.ΦA; exact .rfl
theorem PhiA_open1 (c : Dev nD) : (Pipeline.ΦA spec1 c : sProp 𝕄) ⊢ iprop(Pipeline.scopedRest spec1 c ∗ ∃ r, prngReg c r) := by
  unfold Pipeline.ΦA; exact .rfl

/-! ## The regions as segments -/

set_option backward.isDefEq.respectTransparency.types false in
/-- The gate/up region: entered from every unscoped buffer at the first boundary's contents, left at the second's. -/
def reg0 : Pipeline.RegionSeg (pcfgs (F := F)) tabs (pdats m) () defs₀ 𝒱ₙ Lₙ lvₙ 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ Lₙ lvₙ 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    iintro HPhi
    ihave H := (show ((pdats m 0 c).Φ (Fin.last (Pipeline.pin (pcfgs (F := F)) tabs 0).N) : sProp 𝕄) ⊢ Pipeline.ΦA spec0 c from hout0 (V1 m) c) $$ HPhi
    ihave H' := (PhiA_open0 c) $$ H
    icases H' with ⟨Hr, Hp⟩
    isplitl [Hp]; · iexact Hp
    isplitr; · iempintro
    iexact Hr
  hexit c := by
    iintro ⟨Ha, HO, HY, Hrest⟩
    imodintro
    isplitl [Ha Hrest]
    · iapply (exit0 m c)
      isplitl [Ha]; · iexact Ha
      iexact Hrest
    isplitl [HY]; · iexact HY
    unfold Pipeline.Dat.owesAt Pipeline.owesWithin
    icases HO with ⟨%W, -, HO⟩; iexists W; iexact HO

/-- The last thread state without the `owes`: every unscoped buffer at the last boundary's contents, the generator register at some state. -/
abbrev Tₙ (c : Dev nD) : sProp 𝕄 := iprop(StableHlo.held (c : Thread nD τ) (Pipeline.ucRefs τ sig) (W4 m c) ∗ ∃ r, prngReg c r)

set_option backward.isDefEq.respectTransparency.types false in
/-- The down region: entered from every unscoped buffer at the second boundary's contents, left at the third's. -/
def reg1 : Pipeline.RegionSeg (pcfgs (F := F)) tabs (pdats m) () defs₀ 𝒱ₙ Lₙ lvₙ 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ Lₙ lvₙ 1 fun _ _ => rfl
  pre c := iprop(StableHlo.held (c : Thread nD τ) (Pipeline.ucRefs τ sig) (W2 m c) ∗ Rd c)
  post c := iprop(StableHlo.held (c : Thread nD τ) (Pipeline.ucRefs τ sig) (W3 m c) ∗ Rd c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) tabs (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    iintro HPhi
    ihave H := (show ((pdats m 1 c).Φ (Fin.last (Pipeline.pin (pcfgs (F := F)) tabs 1).N) : sProp 𝕄) ⊢ Pipeline.ΦA spec1 c from hout1 (V2 m) c) $$ HPhi
    ihave H' := (PhiA_open1 c) $$ H
    icases H' with ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) tabs (pdats m) () defs₀ 𝒱ₙ Lₙ lvₙ) :=
  [ .host (hseg hostOps0 hostOps0_sub ops0_fresh (W0 m)),
    .region (reg0 m),
    .region (reg1 m),
    .host (hseg hostOps2 hostOps2_sub ops2_fresh (W3 m)) ]

theorem main_run (c : Dev nD) : main (F := F) c = Pipeline.Seg.run (segs m) := (main_chain c).trans (by chain_rfl)

variable (ρ : Dev nD → PrngReg)

set_option backward.isDefEq.respectTransparency.types false in
/-- THE RUN, every unscoped buffer named: from any memory with zero counters every weakly fair execution of @main
    terminates, nothing faulting, and the final memory holds each unscoped buffer at the last boundary's contents. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) tabs (pdats m) () cellOf_inj emb₁ defs₀ 𝒱ₙ Lₙ lvₙ m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ Rd c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lₙ lvₙ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.Ideal.End.lean ====
/-
  What the final memory holds, read off the last boundary's contents: each argument what it held at launch (no
  reshape and no region writes one), and the result the last reshape of what the down region's write-backs leave.
-/
import proofs.«132357_j6614249635977_1_alg».proof.Proof.Gen.KernelIdeal.Launch
import proofs.«132357_j6614249635977_1_alg».proof.Proof.Gen.KernelIdeal.Skeleton
import proofs.«132357_j6614249635977_1_alg».proof.Proof.Gen.KernelIdeal.Points
import proofs.«132357_j6614249635977_1_alg».proof.Proof.LibWholeStore
import proofs.«132357_j6614249635977_1_alg».proof.Proof.Ideal.Run
import Idealize.ShloMosaic.Lib.Pipeline.RegionsLoop
import Idealize.ShloMosaic.Lib.StableHlo.Run
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open WholeStore

variable {F : FTy → Type} [FloatOps F]

local notation "𝕄" => MT nD τ sig Unit (Elt F) ℕ (UR sig nD τ) ℕ

variable (m : (ℓ : Loc nD τ sig) → Buf (Elt F) ℓ)

/-! ## What the two reshapes write -/

abbrev ops0_W : List (Ref sig .tc) := [main_v0]
theorem ops0_writes : (hostOps0 : List (HloOp τ sig (Elt F))).Forall fun op => op.writes ⊆ (ops0_W.map (Proc.devRef (τ := τ) .tc)).toFinset := by
  simp only [List.Forall]; exact (by simp only [StableHlo.reshape_writes, Finset.singleton_subset_iff, List.mem_toFinset]; exact List.mem_map_of_mem (by decide))
abbrev ops2_W : List (Ref sig .tc) := [main_v3]
theorem ops2_writes : (hostOps2 : List (HloOp τ sig (Elt F))).Forall fun op => op.writes ⊆ (ops2_W.map (Proc.devRef (τ := τ) .tc)).toFinset := by
  simp only [List.Forall]; exact (by simp only [StableHlo.reshape_writes, Finset.singleton_subset_iff, List.mem_toFinset]; exact List.mem_map_of_mem (by decide))

theorem W1_of (c : Dev nD) (r : Ref sig .tc) (h : r ∉ ops0_W) : W1 m c r = W0 m c r :=
  StableHlo.after_of_writes_sub hostOps0 _ ops0_writes h
theorem W4_of (c : Dev nD) (r : Ref sig .tc) (h : r ∉ ops2_W) : W4 m c r = W3 m c r :=
  StableHlo.after_of_writes_sub hostOps2 _ ops2_writes h

/-- A buffer that neither reshape writes and that is neither region's output holds at the end what it held at launch. -/
theorem W4_kept (c : Dev nD) (r : Ref sig .tc) (h0 : r ∉ ops0_W) (h1 : r ≠ main_v1) (h2 : r ≠ main_v2) (h3 : r ∉ ops2_W) :
    W4 m c r = m ((c : Thread nD τ).loc r) :=
  (W4_of m c r h3).trans ((W3_of_ne m c r h2).trans ((W2_of_ne m c r h1).trans ((W1_of m c r h0).trans rfl)))

theorem W4_arg0 (c : Dev nD) : W4 m c main_arg0 = m ((c : Thread nD τ).loc main_arg0) := W4_kept m c main_arg0 (by decide) (by decide) (by decide) (by decide)
theorem W4_arg1 (c : Dev nD) : W4 m c main_arg1 = m ((c : Thread nD τ).loc main_arg1) := W4_kept m c main_arg1 (by decide) (by decide) (by decide) (by decide)
theorem W4_arg2 (c : Dev nD) : W4 m c main_arg2 = m ((c : Thread nD τ).loc main_arg2) := W4_kept m c main_arg2 (by decide) (by decide) (by decide) (by decide)

/-! ## The arrays the regions are entered with, and the result -/

/-- The gate/up region reads the reshaped tokens and the fused weight as launched. -/
theorem V1_v0 (c : Dev nD) : V1 m c main_v0 = shapeCast _ (m ((c : Thread nD τ).loc main_arg0)) shapeCasts_S8192x2048_S8x1024x2048 := by
  show StableHlo.after hostOps0 (W0 m c) (Proc.devRef .tc main_v0) = _
  after_results; rfl
theorem V1_arg1 (c : Dev nD) : V1 m c main_arg1 = m ((c : Thread nD τ).loc main_arg1) := W1_of m c main_arg1 (by decide)
/-- The down region reads the activation the gate/up region left and the down weight as launched. -/
theorem V2_v1 (c : Dev nD) : V2 m c main_v1 = (dat0 (V1 m) c).arrAt 3 cfg0.N := W2_v1 m c
theorem V2_arg2 (c : Dev nD) : V2 m c main_arg2 = m ((c : Thread nD τ).loc main_arg2) :=
  (W2_of_ne m c main_arg2 (by decide)).trans (W1_of m c main_arg2 (by decide))
/-- The result is the last reshape of the down region's output. -/
theorem W4_v3 (c : Dev nD) : W4 m c main_v3 = shapeCast _ ((dat1 (V2 m) c).arrAt 2 cfg1.N) shapeCasts_S8x1024x2048_S8192x2048 := by
  show StableHlo.after hostOps2 (W3 m c) (Proc.devRef .tc main_v3) = _
  after_results
  rw [W3_v2]; rfl

variable (ρ : Dev nD → PrngReg)

/-- THE RUN with the result named and the arguments unchanged. -/
theorem run_value : θ_run defs (onTc (τ := τ) (main (F := F))) ⟨m, fun _ => 0, ρ⟩ (fun r => ∀ c : Dev nD,
      r.2.mem ((c.tc : Thread nD τ).loc main_v3) = shapeCast _ ((dat1 (V2 m) c).arrAt 2 cfg1.N) shapeCasts_S8x1024x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v3 (by decide))).trans (W4_v3 m c),
     (h c _ (mem_uc main_arg0 (by decide))).trans (W4_arg0 m c),
     (h c _ (mem_uc main_arg1 (by decide))).trans (W4_arg1 m c),
     (h c _ (mem_uc main_arg2 (by decide))).trans (W4_arg2 m c)⟩) (run_named m ρ)

/-- THE FRAME: every weakly fair execution terminates, nothing faulting, and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_value m ρ)

end Cert.KernelIdeal.Hand

end
-- ==== Proof.Spec.lean ====
/-
  What both programs compute, as whole-array functions over the extended reals (nothing here depends on a program).

  Eight experts, 1024 tokens each, hidden width 2048, expert width 5632. For expert `e` and token `r` the first
  projection `proj` contracts the token's 2048 features with column `col` of that expert's [2048, 11264] weight;
  its first 5632 columns are the gate, the last 5632 the up projection. The activation is
  `up · (gate · σ(gate))`, and the result contracts the activation's 5632 features with the expert's
  [5632, 2048] down weight. Sums are sums of extended reals; nothing is assumed finite.
-/
import Idealize.ShloMosaic.PureOps.Ideal
import Idealize.ShloMosaic.Lib.ValueIdx

noncomputable section

namespace Cert.Spec

open Idealize.ShloMosaic Idealize.ShloMosaic.ValueIdx

/-- Tokens by expert [8, 1024, 2048]; the fused gate/up weight [8, 2048, 11264]; the down weight [8, 5632, 2048];
    the activation [8, 1024, 5632]. -/
abbrev SX : Shape := ⟨3, ![8, 1024, 2048]⟩
abbrev SW1 : Shape := ⟨3, ![8, 2048, 11264]⟩
abbrev SW2 : Shape := ⟨3, ![8, 5632, 2048]⟩
abbrev SA : Shape := ⟨3, ![8, 1024, 5632]⟩

/-- Column `f` of the gate half, and of the up half, of the fused weight. -/
def gateCol (f : Fin 5632) : Fin 11264 := ⟨f.val, by have := f.isLt; omega⟩
def upCol (f : Fin 5632) : Fin 11264 := ⟨5632 + f.val, by have := f.isLt; omega⟩

/-- The first projection at expert `e`, token `r`, fused column `col`. -/
def proj (X : SX.Idx → EReal) (W1 : SW1.Idx → EReal) (e : Fin 8) (r : Fin 1024) (col : Fin 11264) : EReal :=
  ∑ k : Fin 2048, X (ix3 e r k) * W1 (ix3 e k col)

/-- The gated activation at expert `e`, token `r`, feature `f`: up · (gate · σ(gate)). -/
def actAt (X : SX.Idx → EReal) (W1 : SW1.Idx → EReal) (e : Fin 8) (r : Fin 1024) (f : Fin 5632) : EReal :=
  proj X W1 e r (upCol f) * (proj X W1 e r (gateCol f) * Ideal.logistic (proj X W1 e r (gateCol f)))

/-- The activation array. -/
def act (X : SX.Idx → EReal) (W1 : SW1.Idx → EReal) : SA.Idx → EReal :=
  fun i => actAt X W1 (i 0) (i 1) (i 2)

/-- The down projection of an activation array `A` at expert `e`, token `r`, hidden feature `h`. -/
def downAt (A : SA.Idx → EReal) (W2 : SW2.Idx → EReal) (e : Fin 8) (r : Fin 1024) (h : Fin 2048) : EReal :=
  ∑ k : Fin 5632, A (ix3 e r k) * W2 (ix3 e k h)

/-- The down projection as an array. -/
def down (A : SA.Idx → EReal) (W2 : SW2.Idx → EReal) : SX.Idx → EReal :=
  fun i => downAt A W2 (i 0) (i 1) (i 2)

/-- The whole computation on the tokens-by-expert array. -/
def out (X : SX.Idx → EReal) (W1 : SW1.Idx → EReal) (W2 : SW2.Idx → EReal) : SX.Idx → EReal :=
  down (act X W1) W2

end Cert.Spec

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibBlockSum.lean ====
/-
  A sum over B·J consecutive naturals, block by block (a general lemma: nothing here depends on a program).
-/
import Mathlib.Algebra.BigOperators.Fin
import Mathlib.Algebra.BigOperators.Intervals

namespace BlockSum

/-- The sum of `f` over `0 … B·J − 1` is the sum over the `J` blocks of the `B` terms of each block. -/
theorem sum_blocks {β : Type*} [AddCommMonoid β] (B J : ℕ) (f : ℕ → β) :
    ∑ s ∈ Finset.range J, ∑ j : Fin B, f (B * s + j.val) = ∑ k : Fin (B * J), f k.val := by
  -- Both sides become sums over initial segments of ℕ; then one block is split off at a time.
  rw [Fin.sum_univ_eq_sum_range (fun k => f k) (B * J)]
  induction J with
  | zero => simp
  | succ J ih =>
    rw [Finset.sum_range_succ, ih, Nat.mul_succ, Finset.sum_range_add,
      Fin.sum_univ_eq_sum_range (fun j => f (B * J + j)) B]

end BlockSum
-- ==== Proof.Ideal.Value0.lean ====
/-
  The gate/up projection region's output array after the run, as one function of the arrays it was entered with.

  The grid point `t` is `((e·4 + tm)·4 + f)·4 + k`: expert `e`, token tile `tm`, feature tile `f`, reduction step `k`.
  A run of four consecutive points shares one output block [1, 256, 1408] at (e, tm, f) and walks the four blocks of
  512 of the contracted axis; the token block [1, 256, 512] sits at (e, tm, k), the gate weight block [1, 512, 1408]
  at (e, k, f) and the up weight block at (e, k, f + 4) of the same fused weight (4 · 1408 = 5632 columns further).
  Over the extended reals each running sum at the last point of a run is, entry by entry, the sum over the four points
  of a row of the token block times a column of the weight block, and four blocks of 512 products are the 2048
  products of the first projection. The block written back there is up · (gate · σ(gate)) of the two sums, which is
  the block of the activation array at (e, tm, f); those blocks tile the array, so after the run the array is the
  activation. Only commutativity and associativity of the sums are used; the factors keep the order the activation
  is stated in.
-/
import proofs.«132357_j6614249635977_1_alg».proof.Proof.Ideal.Region0
import proofs.«132357_j6614249635977_1_alg».proof.Proof.Spec
import proofs.«132357_j6614249635977_1_alg».proof.Proof.LibMatmul
import proofs.«132357_j6614249635977_1_alg».proof.Proof.LibBlockSum
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import Idealize.ShloMosaic.Lib.Tactic

set_option maxRecDepth 16384

noncomputable section

namespace Cert.KernelIdeal.Value0

open Cert.KernelIdeal Cert.KernelIdeal.Gen Cert.KernelIdeal.Hand
open Idealize.ShloMosaic Idealize.ShloMosaic.TcCoe Idealize.ShloMosaic.Tactic
open Idealize.ShloMosaic.ValueIdx
open Idealize.SL.Sem
open Idealize.ShloMosaic.Pipeline (Dat Cfg Window)

/-! ## The index maps in closed form

The grid point `t` is `((e·4 + tm)·4 + f)·4 + k`: expert `e = t / 64`, token tile `tm = t / 16 % 4`, feature tile
`f = t / 4 % 4`, reduction step `k = t % 4`. Each window's block index at `t`, decided once over the 512 points. -/

theorem idx0 : ∀ t : Fin cfg0.N,
    win0_0.index t (0 : Fin 3) = t.val / 64 ∧ win0_0.index t (1 : Fin 3) = t.val / 16 % 4 ∧ win0_0.index t (2 : Fin 3) = t.val % 4 :=
  (by decide +kernel : ∀ t : Fin grid0.N, _)
theorem idx1 : ∀ t : Fin cfg0.N,
    win0_1.index t (0 : Fin 3) = t.val / 64 ∧ win0_1.index t (1 : Fin 3) = t.val % 4 ∧ win0_1.index t (2 : Fin 3) = t.val / 4 % 4 :=
  (by decide +kernel : ∀ t : Fin grid0.N, _)
theorem idx2 : ∀ t : Fin cfg0.N,
    win0_2.index t (0 : Fin 3) = t.val / 64 ∧ win0_2.index t (1 : Fin 3) = t.val % 4 ∧ win0_2.index t (2 : Fin 3) = t.val / 4 % 4 + 4 :=
  (by decide +kernel : ∀ t : Fin grid0.N, _)
theorem idx3 : ∀ t : Fin cfg0.N,
    win0_3.index t (0 : Fin 3) = t.val / 64 ∧ win0_3.index t (1 : Fin 3) = t.val / 16 % 4 ∧ win0_3.index t (2 : Fin 3) = t.val / 4 % 4 :=
  (by decide +kernel : ∀ t : Fin grid0.N, _)

/-! ## The payloads at an entry, over the extended reals

Format changes are the identity, a cast between [1, a, b] and [a, b] drops or adds the unit coordinate, and the
matrix-unit product into the zero splat is the sum over the 512 products of a row of the left block with a column
of the right block. -/

/-- The cleared gate sum is zero at every entry. -/
theorem pay1_apply (p : Fin 256) (q : Fin 1408) : (k0_pay1 (F := Ideal)) (ix2 p q) = (0 : EReal) := by
  unfold k0_pay1
  rw [shapeCast_self]
  exact Ideal.ofBits_zero_f32

/-- The cleared up sum is zero at every entry. -/
theorem pay2_apply (p : Fin 256) (q : Fin 1408) : (k0_pay2 (F := Ideal)) (ix2 p q) = (0 : EReal) := by
  unfold k0_pay2
  rw [shapeCast_self]
  exact Ideal.ofBits_zero_f32

/-- The left operand of both products is the token block with its unit axis dropped. -/
theorem pay3_apply (x : Vec Ideal S1x256x512 .f32) (p : Fin 256) (j : Fin 512) :
    (k0_pay3 x (ix2 p j) : EReal) = x (ix3 (0 : Fin 1) p j) := by
  unfold k0_pay3
  exact shapeCast_1ab_ab_apply x _ p j

/-- A step of the gate sum: what was there plus row `p` of the token block times column `q` of the gate block. -/
theorem pay4_apply (x : Vec Ideal S1x256x512 .f32) (g : Vec Ideal S1x512x1408 .f32) (a : Vec Ideal S256x1408 .f32)
    (p : Fin 256) (q : Fin 1408) :
    (k0_pay4 x g a (ix2 p q) : EReal) = a (ix2 p q) + ∑ j : Fin 512, (x (ix3 (0 : Fin 1) p j) : EReal) * g (ix3 (0 : Fin 1) j q) := by
  unfold k0_pay4
  rw [shapeCast_self]
  refine congrArg (a (ix2 p q) + ·) ?_
  refine (Cert.Lib.Matmul.matmul_zero_apply (A := 256) (K := 512) (C := 1408) none (k0_pay3 x)
    (truncf .bf16 (shapeCast S512x1408 g shapeCasts_S1x512x1408_S512x1408) bitsLt_bf16_f32) p q).trans ?_
  refine Finset.sum_congr rfl fun j _ => ?_
  rw [pay3_apply]
  exact congrArg (x (ix3 (0 : Fin 1) p j) * ·) (shapeCast_1ab_ab_apply g _ j q)

/-- A step of the up sum, likewise with the up block. -/
theorem pay5_apply (x : Vec Ideal S1x256x512 .f32) (u : Vec Ideal S1x512x1408 .f32) (a : Vec Ideal S256x1408 .f32)
    (p : Fin 256) (q : Fin 1408) :
    (k0_pay5 x u a (ix2 p q) : EReal) = a (ix2 p q) + ∑ j : Fin 512, (x (ix3 (0 : Fin 1) p j) : EReal) * u (ix3 (0 : Fin 1) j q) := by
  unfold k0_pay5
  rw [shapeCast_self]
  refine congrArg (a (ix2 p q) + ·) ?_
  refine (Cert.Lib.Matmul.matmul_zero_apply (A := 256) (K := 512) (C := 1408) none (k0_pay3 x)
    (truncf .bf16 (shapeCast S512x1408 u shapeCasts_S1x512x1408_S512x1408) bitsLt_bf16_f32) p q).trans ?_
  refine Finset.sum_congr rfl fun j _ => ?_
  rw [pay3_apply]
  exact congrArg (x (ix3 (0 : Fin 1) p j) * ·) (shapeCast_1ab_ab_apply u _ j q)

/-- The output block from the two finished sums `G` (gate) and `U` (up): up · (gate · σ(gate)), entry by entry. -/
theorem pay6_apply (G U : Vec Ideal S256x1408 .f32) (z : Fin 1) (p : Fin 256) (q : Fin 1408) :
    (k0_pay6 G U (ix3 z p q) : EReal) = U (ix2 p q) * (G (ix2 p q) * Ideal.logistic (G (ix2 p q))) := by
  unfold k0_pay6
  exact shapeCast_ab_1ab_apply _ _ z p q

section Region
variable (V : (c : Dev nD) → (b : Ref sig .tc) → Buf (Elt Ideal) ((c : Thread nD τ).loc b))

/-! ## The windows' blocks, read in the arrays

An element of a block sits in its array, on each axis, at the block index times the block size plus its own
coordinate. -/

/-- The token block at point `t`: expert `t / 64`, rows of token tile `t / 16 % 4`, columns of reduction step `t % 4`. -/
theorem xblk_apply (c : Dev nD) (t : Fin cfg0.N) (z : Fin 1) (p : Fin 256) (j : Fin 512)
    (e : Fin 8) (r : Fin 1024) (k : Fin 2048)
    (he : e.val = t.val / 64) (hr : r.val = t.val / 16 % 4 * 256 + p.val) (hk : k.val = t.val % 4 * 512 + j.val) :
    (xblk0 V c t (ix3 z p j) : EReal) = V c main_v0 (ix3 e r k) := by
  obtain ⟨e0, e1, e2⟩ := idx0 t
  show V c main_v0 (((cfg0.win 0).blk t).view.emb (ix3 z p j)) = V c main_v0 (ix3 e r k)
  refine congrArg _ (funext fun a => Fin.ext ?_)
  match a with
  | ⟨0, _⟩ => show win0_0.index t (0 : Fin 3) * 1 + 1 * z.val = e.val; omega
  | ⟨1, _⟩ => show win0_0.index t (1 : Fin 3) * 256 + 1 * p.val = r.val; omega
  | ⟨2, _⟩ => show win0_0.index t (2 : Fin 3) * 512 + 1 * j.val = k.val; omega

/-- The gate weight block at point `t`: rows of reduction step `t % 4`, columns of feature tile `t / 4 % 4`. -/
theorem gblk_apply (c : Dev nD) (t : Fin cfg0.N) (z : Fin 1) (j : Fin 512) (q : Fin 1408)
    (e : Fin 8) (k : Fin 2048) (col : Fin 11264)
    (he : e.val = t.val / 64) (hk : k.val = t.val % 4 * 512 + j.val) (hc : col.val = t.val / 4 % 4 * 1408 + q.val) :
    (gblk0 V c t (ix3 z j q) : EReal) = V c main_arg1 (ix3 e k col) := by
  obtain ⟨e0, e1, e2⟩ := idx1 t
  show V c main_arg1 (((cfg0.win 1).blk t).view.emb (ix3 z j q)) = V c main_arg1 (ix3 e k col)
  refine congrArg _ (funext fun a => Fin.ext ?_)
  match a with
  | ⟨0, _⟩ => show win0_1.index t (0 : Fin 3) * 1 + 1 * z.val = e.val; omega
  | ⟨1, _⟩ => show win0_1.index t (1 : Fin 3) * 512 + 1 * j.val = k.val; omega
  | ⟨2, _⟩ => show win0_1.index t (2 : Fin 3) * 1408 + 1 * q.val = col.val; omega

/-- The up weight block at point `t`: the same rows, four column tiles further (4 · 1408 = 5632 columns). -/
theorem ublk_apply (c : Dev nD) (t : Fin cfg0.N) (z : Fin 1) (j : Fin 512) (q : Fin 1408)
    (e : Fin 8) (k : Fin 2048) (col : Fin 11264)
    (he : e.val = t.val / 64) (hk : k.val = t.val % 4 * 512 + j.val) (hc : col.val = 5632 + (t.val / 4 % 4 * 1408 + q.val)) :
    (ublk0 V c t (ix3 z j q) : EReal) = V c main_arg1 (ix3 e k col) := by
  obtain ⟨e0, e1, e2⟩ := idx2 t
  show V c main_arg1 (((cfg0.win 2).blk t).view.emb (ix3 z j q)) = V c main_arg1 (ix3 e k col)
  refine congrArg _ (funext fun a => Fin.ext ?_)
  match a with
  | ⟨0, _⟩ => show win0_2.index t (0 : Fin 3) * 1 + 1 * z.val = e.val; omega
  | ⟨1, _⟩ => show win0_2.index t (1 : Fin 3) * 512 + 1 * j.val = k.val; omega
  | ⟨2, _⟩ => show win0_2.index t (2 : Fin 3) * 1408 + 1 * q.val = col.val; omega

/-! ## The two running sums as folds over a run of four points

At the points divisible by four both sums restart from the cleared sums; at every other point each adds that
point's product to what the point before left. So at the last point of a run each sum is the fold of the run's four
steps, and entry by entry that fold is the sum of the four points' addends. -/

/-- Point `n`'s addend to the gate sum at entry (p, q): row `p` of its token block times column `q` of its gate block
    (zero past the grid, where it is never read). -/
def gAdd (c : Dev nD) (n : ℕ) (p : Fin 256) (q : Fin 1408) : EReal :=
  if h : n < cfg0.N then ∑ j : Fin 512, (xblk0 V c ⟨n, h⟩ (ix3 (0 : Fin 1) p j) : EReal) * gblk0 V c ⟨n, h⟩ (ix3 (0 : Fin 1) j q) else 0

/-- Point `n`'s addend to the up sum at entry (p, q), with its up block. -/
def uAdd (c : Dev nD) (n : ℕ) (p : Fin 256) (q : Fin 1408) : EReal :=
  if h : n < cfg0.N then ∑ j : Fin 512, (xblk0 V c ⟨n, h⟩ (ix3 (0 : Fin 1) p j) : EReal) * ublk0 V c ⟨n, h⟩ (ix3 (0 : Fin 1) j q) else 0

/-- The gate sum restarts at the points divisible by four … -/
theorem gfirst (c : Dev nD) (n : ℕ) (h : n < cfg0.N) (hm : n % 4 = 0) :
    (acc0 V c n h).1 = k0_pay4 (xblk0 V c ⟨n, h⟩) (gblk0 V c ⟨n, h⟩) (k0_pay1 (F := Ideal)) :=
  congrArg Prod.fst (acc0_first V c ⟨n, h⟩ hm)

/-- … and steps from the point before at the others. -/
theorem gstep (c : Dev nD) (n : ℕ) (h : n + 1 < cfg0.N) (hm : ¬(n + 1) % 4 = 0) :
    (acc0 V c (n + 1) h).1 = k0_pay4 (xblk0 V c ⟨n + 1, h⟩) (gblk0 V c ⟨n + 1, h⟩) (acc0 V c n (Nat.lt_of_succ_lt h)).1 :=
  congrArg Prod.fst (acc0_step V c ⟨n + 1, h⟩ hm)

/-- So does the up sum. -/
theorem ufirst (c : Dev nD) (n : ℕ) (h : n < cfg0.N) (hm : n % 4 = 0) :
    (acc0 V c n h).2 = k0_pay5 (xblk0 V c ⟨n, h⟩) (ublk0 V c ⟨n, h⟩) (k0_pay2 (F := Ideal)) :=
  congrArg Prod.snd (acc0_first V c ⟨n, h⟩ hm)

theorem ustep (c : Dev nD) (n : ℕ) (h : n + 1 < cfg0.N) (hm : ¬(n + 1) % 4 = 0) :
    (acc0 V c (n + 1) h).2 = k0_pay5 (xblk0 V c ⟨n + 1, h⟩) (ublk0 V c ⟨n + 1, h⟩) (acc0 V c n (Nat.lt_of_succ_lt h)).2 :=
  congrArg Prod.snd (acc0_step V c ⟨n + 1, h⟩ hm)

/-- The gate sum at the last point `t` of a run is the fold of the run's steps from its first point `4·(t / 4)`. -/
theorem gsum_fold (c : Dev nD) (t : Fin cfg0.N) (h3 : t.val % 4 = 3) (hb : 4 * (t.val / 4) + 3 < cfg0.N) :
    (acc0 V c t.val t.isLt).1 = Pipeline.accAt (N := cfg0.N)
      (fun n h => k0_pay4 (xblk0 V c ⟨n, h⟩) (gblk0 V c ⟨n, h⟩) (k0_pay1 (F := Ideal)))
      (fun n h a => k0_pay4 (xblk0 V c ⟨n, h⟩) (gblk0 V c ⟨n, h⟩) a) (4 * (t.val / 4)) 3 hb := by
  have same : ∀ (u : ℕ) (hu : u < cfg0.N), u = t.val → (acc0 V c u hu).1 = (acc0 V c t.val t.isLt).1 :=
    fun u hu e => by subst e; rfl
  rw [← same _ hb (by omega)]
  exact Pipeline.eq_accAt (N := cfg0.N) (fun n h => (acc0 V c n h).1) 4
    (fun n h => k0_pay4 (xblk0 V c ⟨n, h⟩) (gblk0 V c ⟨n, h⟩) (k0_pay1 (F := Ideal)))
    (fun n h a => k0_pay4 (xblk0 V c ⟨n, h⟩) (gblk0 V c ⟨n, h⟩) a)
    (gfirst V c) (gstep V c) (t.val / 4) 3 (by omega) hb

/-- The up sum likewise. -/
theorem usum_fold (c : Dev nD) (t : Fin cfg0.N) (h3 : t.val % 4 = 3) (hb : 4 * (t.val / 4) + 3 < cfg0.N) :
    (acc0 V c t.val t.isLt).2 = Pipeline.accAt (N := cfg0.N)
      (fun n h => k0_pay5 (xblk0 V c ⟨n, h⟩) (ublk0 V c ⟨n, h⟩) (k0_pay2 (F := Ideal)))
      (fun n h a => k0_pay5 (xblk0 V c ⟨n, h⟩) (ublk0 V c ⟨n, h⟩) a) (4 * (t.val / 4)) 3 hb := by
  have same : ∀ (u : ℕ) (hu : u < cfg0.N), u = t.val → (acc0 V c u hu).2 = (acc0 V c t.val t.isLt).2 :=
    fun u hu e => by subst e; rfl
  rw [← same _ hb (by omega)]
  exact Pipeline.eq_accAt (N := cfg0.N) (fun n h => (acc0 V c n h).2) 4
    (fun n h => k0_pay5 (xblk0 V c ⟨n, h⟩) (ublk0 V c ⟨n, h⟩) (k0_pay2 (F := Ideal)))
    (fun n h a => k0_pay5 (xblk0 V c ⟨n, h⟩) (ublk0 V c ⟨n, h⟩) a)
    (ufirst V c) (ustep V c) (t.val / 4) 3 (by omega) hb

/-- A step of the gate sum adds point `n`'s addend, entry by entry. -/
theorem gAdd_step (c : Dev nD) (n : ℕ) (h : n < cfg0.N) (a : Vec Ideal S256x1408 .f32) (i : S256x1408.Idx) :
    (k0_pay4 (xblk0 V c ⟨n, h⟩) (gblk0 V c ⟨n, h⟩) a i : EReal) = a i + gAdd V c n (i 0) (i 1) := by
  obtain ⟨p, q, rfl⟩ : ∃ (p : Fin 256) (q : Fin 1408), i = ix2 p q := ⟨i 0, i 1, eq_ix2 i⟩
  refine (pay4_apply _ _ _ p q).trans ?_
  show a (ix2 p q) + _ = a (ix2 p q) + gAdd V c n p q
  unfold gAdd
  rw [dif_pos h]

/-- The restart is that step from zero. -/
theorem gAdd_first (c : Dev nD) (n : ℕ) (h : n < cfg0.N) (i : S256x1408.Idx) :
    (k0_pay4 (xblk0 V c ⟨n, h⟩) (gblk0 V c ⟨n, h⟩) (k0_pay1 (F := Ideal)) i : EReal) = 0 + gAdd V c n (i 0) (i 1) := by
  refine (gAdd_step V c n h _ i).trans ?_
  obtain ⟨p, q, rfl⟩ : ∃ (p : Fin 256) (q : Fin 1408), i = ix2 p q := ⟨i 0, i 1, eq_ix2 i⟩
  rw [pay1_apply]

/-- A step of the up sum adds point `n`'s addend, entry by entry. -/
theorem uAdd_step (c : Dev nD) (n : ℕ) (h : n < cfg0.N) (a : Vec Ideal S256x1408 .f32) (i : S256x1408.Idx) :
    (k0_pay5 (xblk0 V c ⟨n, h⟩) (ublk0 V c ⟨n, h⟩) a i : EReal) = a i + uAdd V c n (i 0) (i 1) := by
  obtain ⟨p, q, rfl⟩ : ∃ (p : Fin 256) (q : Fin 1408), i = ix2 p q := ⟨i 0, i 1, eq_ix2 i⟩
  refine (pay5_apply _ _ _ p q).trans ?_
  show a (ix2 p q) + _ = a (ix2 p q) + uAdd V c n p q
  unfold uAdd
  rw [dif_pos h]

theorem uAdd_first (c : Dev nD) (n : ℕ) (h : n < cfg0.N) (i : S256x1408.Idx) :
    (k0_pay5 (xblk0 V c ⟨n, h⟩) (ublk0 V c ⟨n, h⟩) (k0_pay2 (F := Ideal)) i : EReal) = 0 + uAdd V c n (i 0) (i 1) := by
  refine (uAdd_step V c n h _ i).trans ?_
  obtain ⟨p, q, rfl⟩ : ∃ (p : Fin 256) (q : Fin 1408), i = ix2 p q := ⟨i 0, i 1, eq_ix2 i⟩
  rw [pay2_apply]

/-- At the last point of a run the gate sum is, entry by entry, the sum of the run's four addends. -/
theorem gsum_eq (c : Dev nD) (t : Fin cfg0.N) (h3 : t.val % 4 = 3) (p : Fin 256) (q : Fin 1408) :
    ((acc0 V c t.val t.isLt).1 (ix2 p q) : EReal) = ∑ s ∈ Finset.range 4, gAdd V c (4 * (t.val / 4) + s) p q := by
  have hN : cfg0.N = 512 := N0
  have ht : t.val < 512 := lt_of_lt_of_eq t.isLt hN
  have hb : 4 * (t.val / 4) + 3 < cfg0.N := by omega
  refine (congrFun (gsum_fold V c t h3 hb) (ix2 p q)).trans ?_
  exact (Pipeline.accAt_add_apply (N := cfg0.N) (ι := S256x1408.Idx) (β := EReal) _ _ (fun _ => (0 : EReal)) (fun n i => gAdd V c n (i 0) (i 1)) (4 * (t.val / 4)) 3
    (fun h i => gAdd_first V c _ h i) (fun n h a i _ _ => gAdd_step V c n h a i) 3 le_rfl hb (ix2 p q)).trans (zero_add _)

/-- And the up sum the sum of its four addends. -/
theorem usum_eq (c : Dev nD) (t : Fin cfg0.N) (h3 : t.val % 4 = 3) (p : Fin 256) (q : Fin 1408) :
    ((acc0 V c t.val t.isLt).2 (ix2 p q) : EReal) = ∑ s ∈ Finset.range 4, uAdd V c (4 * (t.val / 4) + s) p q := by
  have hN : cfg0.N = 512 := N0
  have ht : t.val < 512 := lt_of_lt_of_eq t.isLt hN
  have hb : 4 * (t.val / 4) + 3 < cfg0.N := by omega
  refine (congrFun (usum_fold V c t h3 hb) (ix2 p q)).trans ?_
  exact (Pipeline.accAt_add_apply (N := cfg0.N) (ι := S256x1408.Idx) (β := EReal) _ _ (fun _ => (0 : EReal)) (fun n i => uAdd V c n (i 0) (i 1)) (4 * (t.val / 4)) 3
    (fun h i => uAdd_first V c _ h i) (fun n h a i _ _ => uAdd_step V c n h a i) 3 le_rfl hb (ix2 p q)).trans (zero_add _)

/-! ## From the four blocks of the contracted axis to the whole contraction -/

/-- The `k`-th product of the first projection at expert `e`, token `r`, fused column `col` (zero past its 2048 terms,
    where it is never read). -/
def term (X : Cert.Spec.SX.Idx → EReal) (W : Cert.Spec.SW1.Idx → EReal) (e : Fin 8) (r : Fin 1024) (col : Fin 11264) (k : ℕ) : EReal :=
  if h : k < 2048 then X (ix3 e r ⟨k, h⟩) * W (ix3 e ⟨k, h⟩ col) else 0

/-- Four blocks of 512 products are the 2048 products of the projection. -/
theorem sum_term (X : Cert.Spec.SX.Idx → EReal) (W : Cert.Spec.SW1.Idx → EReal) (e : Fin 8) (r : Fin 1024) (col : Fin 11264) :
    ∑ s ∈ Finset.range 4, ∑ j : Fin 512, term X W e r col (512 * s + j.val) = Cert.Spec.proj X W e r col := by
  rw [BlockSum.sum_blocks 512 4]
  unfold Cert.Spec.proj
  show ∑ k : Fin 2048, term X W e r col k.val = _
  refine Finset.sum_congr rfl fun k _ => ?_
  unfold term
  rw [dif_pos k.isLt]

/-- Point `n`'s addend to the gate sum is block `n % 4` of the projection's products, for the expert, the token row
    and the gate column the point's blocks sit at. -/
theorem gAdd_eq (c : Dev nD) (n : ℕ) (hn : n < cfg0.N) (p : Fin 256) (q : Fin 1408) (e : Fin 8) (r : Fin 1024) (col : Fin 11264)
    (he : e.val = n / 64) (hr : r.val = n / 16 % 4 * 256 + p.val) (hc : col.val = n / 4 % 4 * 1408 + q.val) :
    gAdd V c n p q = ∑ j : Fin 512, term (V c main_v0) (V c main_arg1) e r col (512 * (n % 4) + j.val) := by
  unfold gAdd
  rw [dif_pos hn]
  refine Finset.sum_congr rfl fun j _ => ?_
  have hj : 512 * (n % 4) + j.val < 2048 := by omega
  unfold term
  rw [dif_pos hj]
  rw [xblk_apply V c ⟨n, hn⟩ 0 p j e r ⟨_, hj⟩ he hr (by show 512 * (n % 4) + j.val = n % 4 * 512 + j.val; omega),
    gblk_apply V c ⟨n, hn⟩ 0 j q e ⟨_, hj⟩ col he (by show 512 * (n % 4) + j.val = n % 4 * 512 + j.val; omega) hc]

/-- Point `n`'s addend to the up sum likewise, for the up column. -/
theorem uAdd_eq (c : Dev nD) (n : ℕ) (hn : n < cfg0.N) (p : Fin 256) (q : Fin 1408) (e : Fin 8) (r : Fin 1024) (col : Fin 11264)
    (he : e.val = n / 64) (hr : r.val = n / 16 % 4 * 256 + p.val) (hc : col.val = 5632 + (n / 4 % 4 * 1408 + q.val)) :
    uAdd V c n p q = ∑ j : Fin 512, term (V c main_v0) (V c main_arg1) e r col (512 * (n % 4) + j.val) := by
  unfold uAdd
  rw [dif_pos hn]
  refine Finset.sum_congr rfl fun j _ => ?_
  have hj : 512 * (n % 4) + j.val < 2048 := by omega
  unfold term
  rw [dif_pos hj]
  rw [xblk_apply V c ⟨n, hn⟩ 0 p j e r ⟨_, hj⟩ he hr (by show 512 * (n % 4) + j.val = n % 4 * 512 + j.val; omega),
    ublk_apply V c ⟨n, hn⟩ 0 j q e ⟨_, hj⟩ col he (by show 512 * (n % 4) + j.val = n % 4 * 512 + j.val; omega) hc]

/-- THE GATE SUM at the last point `t` of a run, at entry (p, q), is the gate projection of the arrays at the expert,
    the token and the feature that entry of the run's output block sits at. -/
theorem gate_entry (c : Dev nD) (t : Fin cfg0.N) (h3 : t.val % 4 = 3) (p : Fin 256) (q : Fin 1408)
    (e : Fin 8) (r : Fin 1024) (f : Fin 5632)
    (he : e.val = t.val / 64) (hr : r.val = t.val / 16 % 4 * 256 + p.val) (hf : f.val = t.val / 4 % 4 * 1408 + q.val) :
    ((acc0 V c t.val t.isLt).1 (ix2 p q) : EReal) = Cert.Spec.proj (V c main_v0) (V c main_arg1) e r (Cert.Spec.gateCol f) := by
  have hN : cfg0.N = 512 := N0
  have ht : t.val < 512 := lt_of_lt_of_eq t.isLt hN
  rw [gsum_eq V c t h3 p q, ← sum_term]
  refine Finset.sum_congr rfl fun s hs => ?_
  have hs4 : s < 4 := Finset.mem_range.mp hs
  have hn : 4 * (t.val / 4) + s < cfg0.N := by omega
  rw [gAdd_eq V c _ hn p q e r (Cert.Spec.gateCol f) (by omega) (by omega) (by show f.val = _; omega),
    show (4 * (t.val / 4) + s) % 4 = s from by omega]

/-- THE UP SUM there is the up projection. -/
theorem up_entry (c : Dev nD) (t : Fin cfg0.N) (h3 : t.val % 4 = 3) (p : Fin 256) (q : Fin 1408)
    (e : Fin 8) (r : Fin 1024) (f : Fin 5632)
    (he : e.val = t.val / 64) (hr : r.val = t.val / 16 % 4 * 256 + p.val) (hf : f.val = t.val / 4 % 4 * 1408 + q.val) :
    ((acc0 V c t.val t.isLt).2 (ix2 p q) : EReal) = Cert.Spec.proj (V c main_v0) (V c main_arg1) e r (Cert.Spec.upCol f) := by
  have hN : cfg0.N = 512 := N0
  have ht : t.val < 512 := lt_of_lt_of_eq t.isLt hN
  rw [usum_eq V c t h3 p q, ← sum_term]
  refine Finset.sum_congr rfl fun s hs => ?_
  have hs4 : s < 4 := Finset.mem_range.mp hs
  have hn : 4 * (t.val / 4) + s < cfg0.N := by omega
  rw [uAdd_eq V c _ hn p q e r (Cert.Spec.upCol f) (by omega) (by omega) (by show 5632 + f.val = _; omega),
    show (4 * (t.val / 4) + s) % 4 = s from by omega]

/-! ## The output block at a flushing point, and the array after the run -/

/-- At the last point `t` of a run, entry (p, q) of what the body leaves for the output is the activation of the arrays
    at any index `i` whose coordinates are that entry's place in the output array. -/
theorem out_entry_at (c : Dev nD) (t : Fin cfg0.N) (h3 : t.val % 4 = 3) (z : Fin 1) (p : Fin 256) (q : Fin 1408)
    (i : S8x1024x5632.Idx) (c0 : (i 0).val = t.val / 64) (c1 : (i 1).val = t.val / 16 % 4 * 256 + p.val)
    (c2 : (i 2).val = t.val / 4 % 4 * 1408 + q.val) :
    (k0_pay6 (acc0 V c t.val t.isLt).1 (acc0 V c t.val t.isLt).2 (ix3 z p q) : EReal)
      = Cert.Spec.act (V c main_v0) (V c main_arg1) i := by
  refine (pay6_apply _ _ z p q).trans ?_
  rw [gate_entry V c t h3 p q (i 0) (i 1) (i 2) c0 c1 c2, up_entry V c t h3 p q (i 0) (i 1) (i 2) c0 c1 c2]
  rfl

/-- So that block is block `t` of the activation array: an entry of the block sits, on each axis, at the block index
    times the block size plus its own coordinate. -/
theorem out_entry (c : Dev nD) (t : Fin cfg0.N) (h3 : t.val % 4 = 3) (y : S1x256x1408.Idx) :
    (k0_pay6 (acc0 V c t.val t.isLt).1 (acc0 V c t.val t.isLt).2 y : EReal)
      = Cert.Spec.act (V c main_v0) (V c main_arg1) (((cfg0.win 3).blk t).view.emb y) := by
  obtain ⟨z, p, q, rfl⟩ : ∃ (z : Fin 1) (p : Fin 256) (q : Fin 1408), y = ix3 z p q := ⟨y 0, y 1, y 2, eq_ix3 y⟩
  obtain ⟨e0, e1, e2⟩ := idx3 t
  refine out_entry_at V c t h3 z p q _ ?_ ?_ ?_
  · show win0_3.index t (0 : Fin 3) * 1 + 1 * z.val = t.val / 64; omega
  · show win0_3.index t (1 : Fin 3) * 256 + 1 * p.val = t.val / 16 % 4 * 256 + p.val; omega
  · show win0_3.index t (2 : Fin 3) * 1408 + 1 * q.val = t.val / 4 % 4 * 1408 + q.val; omega

/-- WHAT A FLUSHING POINT WRITES BACK is its block of the activation of the arrays the region was entered with. -/
theorem flushed_eq (c : Dev nD) (t : Fin cfg0.N) (hf : (cfg0.win 3).flush t = true) :
    (dat0 (F := Ideal) V c).flushed 3 t
      = ((cfg0.win 3).blk t).view.read (Elt Ideal) (Cert.Spec.act (V c main_v0) (V c main_arg1)) := by
  have h3 : t.val % 4 = 3 := (flush0_3 t).mp hf
  show (cfg0.win 3).cut (grid0.coords t) ((dat0 (F := Ideal) V c).after 3 t) = _
  rw [after0_3]
  funext y
  exact out_entry V c t h3 y

/-- Every index of the output array lies in the block of the last point of the run of its expert, token tile and
    feature tile. -/
theorem cover (i : S8x1024x5632.Idx) :
    ∃ t : Fin cfg0.N, (cfg0.win 3).flush t = true ∧ i ∈ ((cfg0.win 3).blk t).view.set := by
  have hN : cfg0.N = 512 := N0
  have h0 : (i 0).val < 8 := (i 0).isLt
  have h1 : (i 1).val < 1024 := (i 1).isLt
  have h2 : (i 2).val < 5632 := (i 2).isLt
  obtain ⟨n, hn'⟩ : ∃ n : ℕ, n = (((i 0).val * 4 + (i 1).val / 256) * 4 + (i 2).val / 1408) * 4 + 3 := ⟨_, rfl⟩
  have hn : n < cfg0.N := by omega
  refine ⟨⟨n, hn⟩, (flush0_3 _).mpr (by show n % 4 = 3; omega), ?_⟩
  obtain ⟨e0, e1, e2⟩ := idx3 ⟨n, hn⟩
  have e0' : win0_3.index ⟨n, hn⟩ (0 : Fin 3) = n / 64 := e0
  have e1' : win0_3.index ⟨n, hn⟩ (1 : Fin 3) = n / 16 % 4 := e1
  have e2' : win0_3.index ⟨n, hn⟩ (2 : Fin 3) = n / 4 % 4 := e2
  show i ∈ ((View.whole main_v1).slice (win0_3.rect ⟨n, hn⟩)).set
  rw [View.set_slice_whole, Rect.mem_set_unit]
  intro a
  match a with
  | ⟨0, _⟩ => show win0_3.index ⟨n, hn⟩ (0 : Fin 3) * 1 ≤ (i 0).val ∧ (i 0).val < win0_3.index ⟨n, hn⟩ (0 : Fin 3) * 1 + 1; omega
  | ⟨1, _⟩ => show win0_3.index ⟨n, hn⟩ (1 : Fin 3) * 256 ≤ (i 1).val ∧ (i 1).val < win0_3.index ⟨n, hn⟩ (1 : Fin 3) * 256 + 256; omega
  | ⟨2, _⟩ => show win0_3.index ⟨n, hn⟩ (2 : Fin 3) * 1408 ≤ (i 2).val ∧ (i 2).val < win0_3.index ⟨n, hn⟩ (2 : Fin 3) * 1408 + 1408; omega

/-- THE OUTPUT ARRAY AFTER THE RUN is the activation of the arrays the region was entered with. -/
theorem act_final (c : Dev nD) :
    (dat0 (F := Ideal) V c).arrAt 3 cfg0.N = Cert.Spec.act (V c main_v0) (V c main_arg1) :=
  (dat0 (F := Ideal) V c).arrAt_eq_of_cover 3 (Cert.Spec.act (V c main_v0) (V c main_arg1))
    (fun t hf => flushed_eq V c t hf) cover

end Region

end Cert.KernelIdeal.Value0
end
-- ==== Proof.Ideal.Value1.lean ====
/-
  The down-projection region's value: the output array after the run is the down projection of the activation and
  weight arrays the region is entered with.

  The grid is (expert e, token tile tm, reduction step f), f fastest, so point t = (e·2 + tm)·11 + f. A run of eleven
  consecutive points keeps one output block [1, 512, 2048] at (e, tm, 0) and walks the eleven blocks of 512 of the
  contracted axis: point t reads rows tm·512 … of the activation at features f·512 …, and rows f·512 … of the down
  weight. At entry (p, h) each step adds the 512 products of its block to the running sum, which the first step of
  a run starts from zero; so after the last step the sum is, block by block, the sum over all 5632 contracted
  features: the down projection at expert e, token tm·512 + p, hidden feature h. Only the last point of a run writes
  the output block back, and the sixteen blocks so written tile the [8, 1024, 2048] array. Sums are sums of extended
  reals; only commutativity and associativity of addition are used.
-/
import proofs.«132357_j6614249635977_1_alg».proof.Proof.Ideal.Region1
import proofs.«132357_j6614249635977_1_alg».proof.Proof.Spec
import proofs.«132357_j6614249635977_1_alg».proof.Proof.LibMatmul
import proofs.«132357_j6614249635977_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value1

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

/-! ## The body's values at an entry -/

/-- The cleared sum reads zero everywhere. -/
theorem pay1_apply (p : Fin 512) (h : Fin 2048) : k1_pay1 (F := Ideal) (ix2 p h) = 0 := by
  unfold k1_pay1
  rw [shapeCast_self]
  exact Ideal.ofBits_zero_f32

/-- One step at entry (p, h): what the sum held there plus the 512 products of row p of the activation block with
    column h of the weight block (the format change of the weight is the identity on extended reals). -/
theorem pay2_apply (x : Vec Ideal S1x512x512 .bf16) (w : Vec Ideal S1x512x2048 .f32) (acc : Vec Ideal S512x2048 .f32)
    (p : Fin 512) (h : Fin 2048) :
    k1_pay2 x w acc (ix2 p h) = acc (ix2 p h) + ∑ j : Fin 512, x (ix3 0 p j) * w (ix3 0 j h) := by
  unfold k1_pay2
  rw [shapeCast_self]
  refine congrArg (acc (ix2 p h) + ·) ?_
  refine (Cert.Lib.Matmul.matmul_zero_apply (A := 512) (K := 512) (C := 2048) none _ _ p h).trans ?_
  refine Finset.sum_congr rfl fun j _ => ?_
  rw [shapeCast_1ab_ab_apply]
  refine congrArg (x (ix3 0 p j) * ·) ?_
  exact shapeCast_1ab_ab_apply w _ j h

/-- The block written back reads the sum at the same row and column. -/
theorem pay3_apply (v : Vec Ideal S512x2048 .f32) (z : Fin 1) (p : Fin 512) (h : Fin 2048) :
    k1_pay3 v (ix3 z p h) = v (ix2 p h) := by
  unfold k1_pay3
  exact shapeCast_ab_1ab_apply v _ z p h

/-! ## The grid's index maps, and the blocks the windows read -/

/-- Point t = (e·2 + tm)·11 + f of the grid (expert e, token tile tm, reduction step f) reads activation block
    (e, tm, f) and weight block (e, f, 0), and owns output block (e, tm, 0): decided over the 176 points. -/
theorem idx_facts : ∀ t : Fin cfg1.N,
    win1_0.index t (0 : Fin 3) = t.val / 22 ∧ win1_0.index t (1 : Fin 3) = t.val / 11 % 2 ∧ win1_0.index t (2 : Fin 3) = t.val % 11
  ∧ win1_1.index t (0 : Fin 3) = t.val / 22 ∧ win1_1.index t (1 : Fin 3) = t.val % 11 ∧ win1_1.index t (2 : Fin 3) = 0
  ∧ win1_2.index t (0 : Fin 3) = t.val / 22 ∧ win1_2.index t (1 : Fin 3) = t.val / 11 % 2 ∧ win1_2.index t (2 : Fin 3) = 0 :=
  (by decide +kernel : ∀ t : Fin grid1.N, _)

/-- The output block's index at the point numbered n. -/
theorem idx_out (n : ℕ) (hn : n < cfg1.N) :
    win1_2.index ⟨n, hn⟩ (0 : Fin 3) = n / 22 ∧ win1_2.index ⟨n, hn⟩ (1 : Fin 3) = n / 11 % 2 ∧ win1_2.index ⟨n, hn⟩ (2 : Fin 3) = 0 := by
  obtain ⟨-, -, -, -, -, -, e0, e1, e2⟩ := idx_facts ⟨n, hn⟩
  exact ⟨e0, e1, e2⟩

/-- The products the down projection sums at expert e, token r, hidden feature h, as a function of every natural
    (zero past the contracted extent, which is never read). -/
def prodAt (A : Cert.Spec.SA.Idx → EReal) (W : Cert.Spec.SW2.Idx → EReal) (e : Fin 8) (r : Fin 1024) (h : Fin 2048) (k : ℕ) : EReal :=
  if hk : k < 5632 then A (ix3 e r ⟨k, hk⟩) * W (ix3 e ⟨k, hk⟩ h) else 0

/-- The down projection at an entry is the sum of those products over the eleven blocks of 512 contracted features. -/
theorem downAt_eq_blocks (A : Cert.Spec.SA.Idx → EReal) (W : Cert.Spec.SW2.Idx → EReal) (e : Fin 8) (r : Fin 1024) (h : Fin 2048) :
    Cert.Spec.downAt A W e r h = ∑ s ∈ Finset.range 11, ∑ j : Fin 512, prodAt A W e r h (512 * s + j.val) := by
  rw [BlockSum.sum_blocks 512 11 (prodAt A W e r h)]
  unfold Cert.Spec.downAt
  show _ = ∑ k : Fin 5632, prodAt A W e r h k.val
  refine Finset.sum_congr rfl fun k _ => ?_
  unfold prodAt
  rw [dif_pos k.isLt]

section Region
variable (V : (c : Dev nD) → (b : Ref sig .tc) → Buf (Elt Ideal) ((c : Thread nD τ).loc b))

/-- The activation block of point t at (·, p, j) is the activation array at expert t / 22, token (t / 11 % 2)·512 + p,
    feature (t % 11)·512 + j. -/
theorem ablk_apply (c : Dev nD) (t : Fin cfg1.N) (z : Fin 1) (p j : Fin 512) (i : S8x1024x5632.Idx)
    (h0 : (i 0).val = t.val / 22) (h1 : (i 1).val = t.val / 11 % 2 * 512 + p.val) (h2 : (i 2).val = t.val % 11 * 512 + j.val) :
    ablk1 V c t (ix3 z p j) = V c main_v1 i := by
  obtain ⟨e0, e1, e2, -⟩ := idx_facts t
  show V c main_v1 (((cfg1.win 0).blk t).view.emb (ix3 z p j)) = V c main_v1 i
  refine congrArg (V c main_v1) ?_
  funext a; apply Fin.ext
  match a with
  | ⟨0, _⟩ => show win1_0.index t (0 : Fin 3) * 1 + 1 * z.val = (i 0).val; omega
  | ⟨1, _⟩ => show win1_0.index t (1 : Fin 3) * 512 + 1 * p.val = (i 1).val; omega
  | ⟨2, _⟩ => show win1_0.index t (2 : Fin 3) * 512 + 1 * j.val = (i 2).val; omega

/-- The weight block of point t at (·, j, h) is the down weight at expert t / 22, feature (t % 11)·512 + j, column h. -/
theorem wblk_apply (c : Dev nD) (t : Fin cfg1.N) (z : Fin 1) (j : Fin 512) (h : Fin 2048) (i : S8x5632x2048.Idx)
    (h0 : (i 0).val = t.val / 22) (h1 : (i 1).val = t.val % 11 * 512 + j.val) (h2 : (i 2).val = h.val) :
    wblk1 V c t (ix3 z j h) = V c main_arg2 i := by
  obtain ⟨-, -, -, e0, e1, e2, -⟩ := idx_facts t
  show V c main_arg2 (((cfg1.win 1).blk t).view.emb (ix3 z j h)) = V c main_arg2 i
  refine congrArg (V c main_arg2) ?_
  funext a; apply Fin.ext
  match a with
  | ⟨0, _⟩ => show win1_1.index t (0 : Fin 3) * 1 + 1 * z.val = (i 0).val; omega
  | ⟨1, _⟩ => show win1_1.index t (1 : Fin 3) * 512 + 1 * j.val = (i 1).val; omega
  | ⟨2, _⟩ => show win1_1.index t (2 : Fin 3) * 2048 + 1 * h.val = (i 2).val; omega

/-! ## The running sum over a run of eleven points -/

/-- What point t adds at entry (p, h): the products of block t % 11 of the contracted axis. -/
theorem addend (c : Dev nD) (t : Fin cfg1.N) (p : Fin 512) (h : Fin 2048) (e : Fin 8) (r : Fin 1024) (s : ℕ)
    (he : e.val = t.val / 22) (hr : r.val = t.val / 11 % 2 * 512 + p.val) (hs : t.val % 11 = s) :
    ∑ j : Fin 512, ablk1 V c t (ix3 0 p j) * wblk1 V c t (ix3 0 j h)
      = ∑ j : Fin 512, prodAt (V c main_v1) (V c main_arg2) e r h (512 * s + j.val) := by
  refine Finset.sum_congr rfl fun j _ => ?_
  have hk : 512 * s + j.val < 5632 := by have := j.isLt; omega
  unfold prodAt
  rw [dif_pos hk]
  rw [ablk_apply V c t 0 p j (ix3 e r ⟨512 * s + j.val, hk⟩) he hr (by show 512 * s + j.val = _; omega),
    wblk_apply V c t 0 j h (ix3 e ⟨512 * s + j.val, hk⟩ h) he (by show 512 * s + j.val = _; omega) rfl]

end Region

section Run
variable (V : (c : Dev nD) → (b : Ref sig .tc) → Buf (Elt Ideal) ((c : Thread nD τ).loc b))

/-- The running sum depends on the point only. -/
theorem acc1_congr (c : Dev nD) {n n' : ℕ} (e : n = n') (hn : n < cfg1.N) (hn' : n' < cfg1.N) :
    acc1 V c n hn = acc1 V c n' hn' := by
  subst e; rfl

/-- Within run q (points 11·q … 11·q + 10, all of expert q / 2 and token tile q % 2) the running sum at entry (p, h)
    after step s is the sum of the products of blocks 0 … s of the contracted axis: by induction on the step, the
    first step adding its block to the cleared sum, every later one to what the step before left. -/
theorem acc_run (c : Dev nD) (q : ℕ) (p : Fin 512) (h : Fin 2048) (e : Fin 8) (r : Fin 1024)
    (he : e.val = q / 2) (hr : r.val = q % 2 * 512 + p.val) :
    ∀ (s : ℕ) (hs : s < 11) (hn : 11 * q + s < cfg1.N),
      acc1 V c (11 * q + s) hn (ix2 p h)
        = ∑ s' ∈ Finset.range (s + 1), ∑ j : Fin 512, prodAt (V c main_v1) (V c main_arg2) e r h (512 * s' + j.val)
  | 0, _, hn => by
    have h0 : (⟨11 * q + 0, hn⟩ : Fin cfg1.N).val % 11 = 0 := by show (11 * q + 0) % 11 = 0; omega
    refine (congrFun (acc1_first V c ⟨11 * q + 0, hn⟩ h0) (ix2 p h)).trans ?_
    rw [pay2_apply, pay1_apply, zero_add, Finset.sum_range_one]
    exact addend V c ⟨11 * q + 0, hn⟩ p h e r 0 (by show e.val = (11 * q + 0) / 22; omega)
      (by show r.val = (11 * q + 0) / 11 % 2 * 512 + p.val; omega) h0
  | s + 1, hs, hn => by
    have h0 : ¬(⟨11 * q + (s + 1), hn⟩ : Fin cfg1.N).val % 11 = 0 := by show ¬(11 * q + (s + 1)) % 11 = 0; omega
    refine (congrFun (acc1_step V c ⟨11 * q + (s + 1), hn⟩ h0) (ix2 p h)).trans ?_
    rw [pay2_apply, Finset.sum_range_succ _ (s + 1)]
    rw [acc1_congr V c (show (⟨11 * q + (s + 1), hn⟩ : Fin cfg1.N).val - 1 = 11 * q + s from by show 11 * q + (s + 1) - 1 = _; omega) _
      (Nat.lt_of_succ_lt hn)]
    rw [acc_run c q p h e r he hr s (Nat.lt_of_succ_lt hs) (Nat.lt_of_succ_lt hn)]
    refine congrArg (_ + ·) ?_
    exact addend V c ⟨11 * q + (s + 1), hn⟩ p h e r (s + 1) (by show e.val = (11 * q + (s + 1)) / 22; omega)
      (by show r.val = (11 * q + (s + 1)) / 11 % 2 * 512 + p.val; omega) (by show (11 * q + (s + 1)) % 11 = s + 1; omega)

/-- At the last point of a run the sum at entry (p, h) is the down projection at that run's expert and token. -/
theorem acc_last (c : Dev nD) (t : Fin cfg1.N) (ht : t.val % 11 = 10) (p : Fin 512) (h : Fin 2048) (e : Fin 8) (r : Fin 1024)
    (he : e.val = t.val / 22) (hr : r.val = t.val / 11 % 2 * 512 + p.val) :
    acc1 V c t.val t.isLt (ix2 p h) = Cert.Spec.downAt (V c main_v1) (V c main_arg2) e r h := by
  have hN : t.val < 176 := lt_of_lt_of_eq t.isLt N1
  have hn : 11 * (t.val / 11) + 10 < cfg1.N := lt_of_lt_of_eq (show 11 * (t.val / 11) + 10 < 176 by omega) N1.symm
  rw [acc1_congr V c (show t.val = 11 * (t.val / 11) + 10 from by omega) t.isLt hn, downAt_eq_blocks]
  exact acc_run V c (t.val / 11) p h e r (by omega) (by omega) 10 (by omega) hn

/-! ## From blocks to the array -/

/-- What a last point writes back, at a block index, is the down projection at the array index under it. -/
theorem flushed_point (c : Dev nD) (t : Fin cfg1.N) (ht : t.val % 11 = 10) (y : S1x512x2048.Idx) :
    k1_pay3 (acc1 V c t.val t.isLt) y
      = Cert.Spec.down (V c main_v1) (V c main_arg2) (((cfg1.win 2).blk t).view.emb y) := by
  obtain ⟨z, p, h, rfl⟩ : ∃ (z : Fin 1) (p : Fin 512) (h : Fin 2048), y = ix3 z p h := ⟨y 0, y 1, y 2, eq_ix3 y⟩
  obtain ⟨-, -, -, -, -, -, e0, e1, e2⟩ := idx_facts t
  rw [pay3_apply]
  unfold Cert.Spec.down
  have hc : (((cfg1.win 2).blk t).view.emb (ix3 z p h)) 2 = h :=
    Fin.ext (by show win1_2.index t (2 : Fin 3) * 2048 + 1 * h.val = h.val; omega)
  show _ = Cert.Spec.downAt (V c main_v1) (V c main_arg2) ((((cfg1.win 2).blk t).view.emb (ix3 z p h)) 0)
    ((((cfg1.win 2).blk t).view.emb (ix3 z p h)) 1) ((((cfg1.win 2).blk t).view.emb (ix3 z p h)) 2)
  rw [hc]
  exact acc_last V c t ht p h _ _ (by show win1_2.index t (0 : Fin 3) * 1 + 1 * z.val = _; omega)
    (by show win1_2.index t (1 : Fin 3) * 512 + 1 * p.val = _; omega)

/-- So what a last point writes back is its block of the down projection. -/
theorem flushed_eq (c : Dev nD) (t : Fin cfg1.N) (hf : (cfg1.win 2).flush t = true) :
    (dat1 V c).flushed 2 t
      = ((cfg1.win 2).blk t).view.read (Elt Ideal) (Cert.Spec.down (V c main_v1) (V c main_arg2)) := by
  have ht : t.val % 11 = 10 := (flush1_2 t).mp hf
  show (cfg1.win 2).cut (grid1.coords t) ((dat1 V c).after 2 t) = _
  rw [after1_2]
  funext y
  exact flushed_point V c t ht y

/-- An index of the output array is in point t's block iff each coordinate is in the block's range on its axis. -/
theorem mem_blk (t : Fin cfg1.N) (i : S8x1024x2048.Idx) :
    i ∈ ((cfg1.win 2).blk t).view.set ↔ ∀ a : Fin 3, win1_2.index t a * S1x512x2048.size a ≤ (i a).val ∧ (i a).val < win1_2.index t a * S1x512x2048.size a + S1x512x2048.size a := by
  show i ∈ ((View.whole main_v2).slice (win1_2.rect t)).set ↔ _
  rw [View.set_slice_whole, Rect.mem_set_unit]
  exact Iff.rfl

/-- Every index (e, r, h) of the output array lies in the block of the last point of run e·2 + r / 512. -/
theorem cover (i : S8x1024x2048.Idx) :
    ∃ t : Fin cfg1.N, (cfg1.win 2).flush t = true ∧ i ∈ ((cfg1.win 2).blk t).view.set := by
  have b0 : (i 0).val < 8 := (i 0).isLt
  have b1 : (i 1).val < 1024 := (i 1).isLt
  have b2 : (i 2).val < 2048 := (i 2).isLt
  have hN : ((i 0).val * 2 + (i 1).val / 512) * 11 + 10 < cfg1.N := by rw [N1]; omega
  refine ⟨⟨((i 0).val * 2 + (i 1).val / 512) * 11 + 10, hN⟩, (flush1_2 _).mpr (by show (((i 0).val * 2 + (i 1).val / 512) * 11 + 10) % 11 = 10; omega), ?_⟩
  obtain ⟨e0, e1, e2⟩ := idx_out _ hN
  rw [mem_blk]
  intro a
  match a with
  | ⟨0, _⟩ => show win1_2.index _ (0 : Fin 3) * 1 ≤ (i 0).val ∧ (i 0).val < win1_2.index _ (0 : Fin 3) * 1 + 1; omega
  | ⟨1, _⟩ => show win1_2.index _ (1 : Fin 3) * 512 ≤ (i 1).val ∧ (i 1).val < win1_2.index _ (1 : Fin 3) * 512 + 512; omega
  | ⟨2, _⟩ => show win1_2.index _ (2 : Fin 3) * 2048 ≤ (i 2).val ∧ (i 2).val < win1_2.index _ (2 : Fin 3) * 2048 + 2048; omega

/-- The output array after the run is the down projection of the activation and weight arrays the region was entered
    with. -/
theorem out_final (c : Dev nD) :
    (dat1 (F := Ideal) V c).arrAt 2 cfg1.N = Cert.Spec.down (V c main_v1) (V c main_arg2) :=
  (dat1 V c).arrAt_eq_of_cover 2 (Cert.Spec.down (V c main_v1) (V c main_arg2)) (flushed_eq V c) cover

end Run

end Cert.KernelIdeal.Value1

end
-- ==== Proof.RefValue.lean ====
/-
  The reference program's result as a whole-array function: its two contractions with the gated activation between
  them, read index by index, are the specification's `out` on the reshaped tokens.
-/
import proofs.«132357_j6614249635977_1_alg».proof.Proof.Gen.ReferenceIdeal.Run
import proofs.«132357_j6614249635977_1_alg».proof.Proof.Gen.ReferenceIdeal.Read
import proofs.«132357_j6614249635977_1_alg».proof.Proof.Spec
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx

/-- The host spells the logistic function as `1 / (1 + exp (-x))`, with the constant one given by its f32 pattern.
    Over the extended reals that expression is `Ideal.logistic x` by definition, at every `x`, the infinities
    included: nothing is assumed finite. -/
theorem host_logistic (x : Ideal .f32) :
    FloatOps.hostDivf (F := Ideal) (FloatOps.ofBits .f32 0x3F800000#32)
        (FloatOps.addf (FloatOps.ofBits .f32 0x3F800000#32) (FloatOps.hostUnary .exp (FloatOps.hostNegf x)))
      = Ideal.logistic x := by
  rw [Ideal.ofBits_def, Ideal.ofBits_one_f32]
  rfl

/-- The first contraction at expert `e`, token `r`, fused column `col` is the specification's `proj`. -/
theorem v1_at (x0 : (⟨S8192x2048, .f32⟩ : BufTy).Contents (Elt Ideal))
    (x1 : (⟨S8x2048x11264, .f32⟩ : BufTy).Contents (Elt Ideal)) (e : Fin 8) (r : Fin 1024) (col : Fin 11264) :
    val_main_v1 (F := Ideal) x0 x1 (ix3 e r col) = Cert.Spec.proj (val_main_v0 (F := Ideal) x0) x1 e r col := by
  rw [val_main_v1_apply]
  unfold Cert.Spec.proj
  refine Finset.sum_congr rfl fun k _ => ?_
  have el : lidx_main_v1 (ix3 e r col) k = ix3 e r k :=
    funext fun a => by match a with | ⟨0, _⟩ => rfl | ⟨1, _⟩ => rfl | ⟨2, _⟩ => rfl
  have er : ridx_main_v1 (ix3 e r col) k = ix3 e k col :=
    funext fun a => by match a with | ⟨0, _⟩ => rfl | ⟨1, _⟩ => rfl | ⟨2, _⟩ => rfl
  rw [el, er]

/-- The product of the up half with the gate half times its logistic, at expert `e`, token `r`, feature `f`, is the
    specification's `actAt`: the two slices read the fused projection at the gate column `f` and the up column
    `5632 + f`. -/
theorem v5_at (x0 : (⟨S8192x2048, .f32⟩ : BufTy).Contents (Elt Ideal))
    (x1 : (⟨S8x2048x11264, .f32⟩ : BufTy).Contents (Elt Ideal)) (e : Fin 8) (r : Fin 1024) (f : Fin 5632) :
    val_main_v5 (F := Ideal) x0 x1 (ix3 e r f) = Cert.Spec.actAt (val_main_v0 (F := Ideal) x0) x1 e r f := by
  have e3 : idx_main_v3 (ix3 e r f) = ix3 e r (Cert.Spec.upCol f) :=
    funext fun a => by match a with | ⟨0, _⟩ => rfl | ⟨1, _⟩ => rfl | ⟨2, _⟩ => rfl
  have e2 : idx_main_v2 (ix3 e r f) = ix3 e r (Cert.Spec.gateCol f) :=
    funext fun a => by match a with | ⟨0, _⟩ => rfl | ⟨1, _⟩ => rfl | ⟨2, _⟩ => rfl
  rw [val_main_v5_apply, val_main_v3_apply, val_main_v4_apply, val_main_v2_apply, val_main_call0_v5_apply,
    val_main_call0_v4_apply, val_main_call0_cst_0_apply, val_main_call0_v3_apply, val_main_call0_v2_apply,
    val_main_call0_cst_apply, val_main_call0_v1_apply, val_main_call0_v0_apply, val_main_v2_apply,
    e3, e2, v1_at, v1_at, host_logistic]
  rfl

/-- The reference's second contraction is the specification's result on the reshaped tokens, at every index. -/
theorem ref_eq (x0 : (⟨S8192x2048, .f32⟩ : BufTy).Contents (Elt Ideal))
    (x1 : (⟨S8x2048x11264, .f32⟩ : BufTy).Contents (Elt Ideal))
    (x2 : (⟨S8x5632x2048, .f32⟩ : BufTy).Contents (Elt Ideal)) :
    Cert.ReferenceIdeal.Read.val_main_v6 (F := Ideal) x0 x1 x2
      = Cert.Spec.out (Cert.ReferenceIdeal.Read.val_main_v0 (F := Ideal) x0) x1 x2 := by
  funext i
  obtain ⟨e, r, h, rfl⟩ : ∃ (e : Fin 8) (r : Fin 1024) (h : Fin 2048), i = ix3 e r h := ⟨_, _, _, eq_ix3 i⟩
  rw [val_main_v6_apply]
  show _ = Cert.Spec.downAt (Cert.Spec.act (val_main_v0 (F := Ideal) x0) x1) x2 e r h
  unfold Cert.Spec.downAt
  refine Finset.sum_congr rfl fun k _ => ?_
  have el : lidx_main_v6 (ix3 e r h) k = ix3 e r k :=
    funext fun a => by match a with | ⟨0, _⟩ => rfl | ⟨1, _⟩ => rfl | ⟨2, _⟩ => rfl
  have er : ridx_main_v6 (ix3 e r h) k = ix3 e k h :=
    funext fun a => by match a with | ⟨0, _⟩ => rfl | ⟨1, _⟩ => rfl | ⟨2, _⟩ => rfl
  rw [el, er, v5_at]
  rfl

/-- The reference's result is the specification's, reshaped back to [8192, 2048]. -/
theorem ref_result (x0 : (⟨S8192x2048, .f32⟩ : BufTy).Contents (Elt Ideal))
    (x1 : (⟨S8x2048x11264, .f32⟩ : BufTy).Contents (Elt Ideal))
    (x2 : (⟨S8x5632x2048, .f32⟩ : BufTy).Contents (Elt Ideal)) :
    Cert.ReferenceIdeal.Read.val_main_v7 (F := Ideal) x0 x1 x2
      = shapeCast _ (Cert.Spec.out (Cert.ReferenceIdeal.Read.val_main_v0 (F := Ideal) x0) x1 x2)
          shapeCasts_S8x1024x2048_S8192x2048 := by
  unfold val_main_v7
  rw [ref_eq]

end Cert.ReferenceIdeal.RefValue

end
-- ==== Proof.lean ====
/-
  The certificate of a grouped expert feed-forward layer — for each of 8 experts, 1024 tokens of width 2048 go
  through a fused gate/up weight [2048, 11264], the gated activation `up · (gate · σ(gate))` of width 5632, and a
  down weight [5632, 2048] — computed by two pipelined kernels against two whole contractions on the host.

  The kernel program reshapes the tokens to [8, 1024, 2048], runs the gate/up region (a reduction over four blocks
  of 512 features, two running sums carried in scratch, the gated product written out at the last step), runs the
  down region (a reduction over eleven blocks of 512, one running sum, written out at the last step), and reshapes
  the result back to [8192, 2048]. Its frame is proved once, generic in the float instance: each kernel body's
  three control cases (Ideal/Body0, Ideal/Body1), each region's proof data with the running sums as a recursion on
  the grid point and its per-point obligation (Ideal/Region0, Ideal/Region1), the two regions as segments of the
  program with every unscoped buffer's contents named at each boundary (Ideal/Run) and read back at the end
  (Ideal/End); the word-level program's frame is the same text at its namespace (Bits/).

  At the ideal instance a change of float format is the identity, a matrix-unit product into a zero accumulator
  is a plain sum, and the logistic function is 1/(1 + e^(−x)) on every extended real, so the gate/up region leaves
  the spec's activation array (Ideal/Value0) and the down region the spec's down projection of it (Ideal/Value1):
  the blockwise sums are the whole sums because addition of extended reals is commutative and associative; no
  finiteness is used. The reference's two contractions, its slices and its spelt-out logistic are the same spec
  (RefValue). Both programs apply the same two reshapes around it.
-/
import proofs.«132357_j6614249635977_1_alg».proof.Defs
import proofs.«132357_j6614249635977_1_alg».proof.Proof.Gen.Kernel
import proofs.«132357_j6614249635977_1_alg».proof.Proof.Gen.KernelIdeal
import proofs.«132357_j6614249635977_1_alg».proof.Proof.Gen.ReferenceIdeal
import proofs.«132357_j6614249635977_1_alg».proof.Proof.Gen.Pre_finite_inputs
import proofs.«132357_j6614249635977_1_alg».proof.Proof.Bits.End
import proofs.«132357_j6614249635977_1_alg».proof.Proof.Ideal.End
import proofs.«132357_j6614249635977_1_alg».proof.Proof.Ideal.Value0
import proofs.«132357_j6614249635977_1_alg».proof.Proof.Ideal.Value1
import proofs.«132357_j6614249635977_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs to the end, nothing faulting, its arguments unchanged. -/
theorem frame_k : Cert.frame_Kernel := fun m ρ _ => Cert.Kernel.Hand.frame (F := Bits) m ρ
/-- So does the idealized program. -/
theorem frame_ki : Cert.frame_KernelIdeal := fun m ρ _ => Cert.KernelIdeal.Hand.frame (F := Ideal) m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the last reshape of the spec of the first reshape of the tokens. -/
theorem algebraic : Cert.algebraic_KernelIdeal_ReferenceIdeal := by
  intro m ρ m' ρ' _ hagree
  refine ⟨fun c => shapeCast _ (Cert.Spec.out
      (shapeCast _ (m ((c.tc : Thread Cert.KernelIdeal.nD Cert.KernelIdeal.τ).loc Cert.KernelIdeal.main_arg0)) Cert.KernelIdeal.Gen.shapeCasts_S8192x2048_S8x1024x2048)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))) Cert.KernelIdeal.Gen.shapeCasts_S8x1024x2048_S8192x2048, ?_, ?_⟩
  · refine (θ_run Cert.KernelIdeal.defs _ _).mono (fun r h c => ⟨(h c).1.trans ?_, (h c).2⟩)
      (Cert.KernelIdeal.Hand.run_value (F := Ideal) m ρ)
    rw [Cert.KernelIdeal.Value1.out_final, Cert.KernelIdeal.Hand.V2_v1, Cert.KernelIdeal.Value0.act_final,
      Cert.KernelIdeal.Hand.V1_v0, Cert.KernelIdeal.Hand.V1_arg1, Cert.KernelIdeal.Hand.V2_arg2]
    rfl
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v7_eq, Cert.ReferenceIdeal.RefValue.ref_result, (hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
